-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 2048]⟩ ⟨3, ![4, 1024, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 2048]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x2048 : Shape := ⟨3, ![1, 1024, 2048]⟩
abbrev S_ : Shape := ⟨0, ![]⟩

class Facts : Prop where
  bcast_S_S1x1024x2048 : S_.BroadcastsInDim S1x1024x2048 (![] : Fin 0 → Fin S1x1024x2048.rank)
  reducesTo_S1x1024x2048_S_d0_1_2 : S1x1024x2048.ReducesTo [0, 1, 2] S_
  h_S_ : 0 < S_.numel

variable [Facts]

def fn {F : FTy → Type} [FloatOps F] (main_arg0 : FVec F S1x1024x2048 .f32) : IVec S_ 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_c : IVec S_ 1 := constantI S_ 1 1#1
  let main_v3 : IVec S_ 1 := (fun x v => Host.reduce IntOp.andi x v reducesTo_S1x1024x2048_S_d0_1_2 h_S_) main_v2 main_c
  main_v3
-- ==== Pre_finite_inputs_ReferenceIdeal.lean ====
abbrev S4x1024x2048 : Shape := ⟨3, ![4, 1024, 2048]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel

variable [Facts]

def fn {F : FTy → Type} [FloatOps F] (main_arg0 : FVec F S4x1024x2048 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  main_v3
-- ==== Kernel.lean ====
abbrev S1x1024x2048 : Shape := ⟨3, ![1, 1024, 2048]⟩
abbrev S1024x512 : Shape := ⟨2, ![1024, 512]⟩
abbrev S3x512x512 : Shape := ⟨3, ![3, 512, 512]⟩
abbrev S2x512x512 : Shape := ⟨3, ![2, 512, 512]⟩
abbrev S3 : Shape := ⟨1, ![3]⟩
abbrev S_ : Shape := ⟨0, ![]⟩
abbrev S1x512x512 : Shape := ⟨3, ![1, 512, 512]⟩
abbrev S512x512 : Shape := ⟨2, ![512, 512]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S1x1024x2048, .f32⟩
  | .hbm, ⟨1, _⟩ => ⟨S1024x512, .f32⟩
  | .local _ .vmem, ⟨0, _⟩ => ⟨S1x1024x2048, .f32⟩
  | .local _ .vmem, ⟨1, _⟩ => ⟨S1024x512, .f32⟩
  | .local _ .vmem, ⟨2, _⟩ => ⟨S3x512x512, .bf16⟩
  | .local _ .vmem, ⟨3, _⟩ => ⟨S3x512x512, .bf16⟩
  | .local _ .vmem, ⟨4, _⟩ => ⟨S2x512x512, .bf16⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v33 : BitVec 32 := Scalar.muli v2 c16_i32_17
  let v34 : BitVec 32 := Scalar.addi c0_i32_18 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.subi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_19 : BitVec 32 := 4#32
  let v35 : BitVec 32 := Scalar.muli v30 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v37 : BitVec 32 := Scalar.muli v8 c1_i32_20
  let v38 : BitVec 32 := Scalar.addi v36 v37
  v38.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v39 : BitVec 32 := Scalar.muli v2 c16_i32_22
  let v40 : BitVec 32 := Scalar.addi c0_i32_23 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_24 : BitVec 32 := 4#32
  let v41 : BitVec 32 := Scalar.muli v19 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v43 : BitVec 32 := Scalar.muli v8 c1_i32_25
  let v44 : BitVec 32 := Scalar.addi v42 v43
  v44.toNat
def k0_dev3 (d0 : Dev nD) : Nat :=
  let c0_i32_28 : BitVec 32 := 0#32
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_15 v2
  let c16_i32_27 : BitVec 32 := 16#32
  let v45 : BitVec 32 := Scalar.muli v31 c16_i32_27
  let v46 : BitVec 32 := Scalar.addi c0_i32_28 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v47 : BitVec 32 := Scalar.muli v5 c4_i32_29
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v49 : BitVec 32 := Scalar.muli v8 c1_i32_30
  let v50 : BitVec 32 := Scalar.addi v48 v49
  v50.toNat
def k0_off1 (d0 : Dev nD) : Fin 3 → Nat :=
  let c0 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v51 : BitVec 32 := Scalar.muli v2 c512_i32
  let v64 : Index := Scalar.indexCast v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_31 : BitVec 32 := 1#32
  let v52 : BitVec 32 := Scalar.subi v5 c1_i32_31
  let c4_i32_32 : BitVec 32 := 4#32
  let c0_i32_33 : BitVec 32 := 0#32
  let v53 : BitVec 1 := Scalar.cmpi .eq c4_i32_32 c0_i32_33
  let c1_i32_34 : BitVec 32 := 1#32
  let v54 : BitVec 32 := Scalar.select v53 c1_i32_34 c4_i32_32
  let v55 : BitVec 32 := Scalar.remsi v52 v54
  let c0_i32_36 : BitVec 32 := 0#32
  let v57 : BitVec 1 := Scalar.cmpi .slt v55 c0_i32_36
  let c0_i32_37 : BitVec 32 := 0#32
  let v58 : BitVec 1 := Scalar.cmpi .slt v54 c0_i32_37
  let v59 : BitVec 1 := Scalar.xori v57 v58
  let c0_i32_35 : BitVec 32 := 0#32
  let v56 : BitVec 1 := Scalar.cmpi .ne v55 c0_i32_35
  let v60 : BitVec 1 := Scalar.andi v59 v56
  let v61 : BitVec 32 := Scalar.addi v55 v54
  let v62 : BitVec 32 := Scalar.select v60 v61 v55
  let c512_i32_38 : BitVec 32 := 512#32
  let v63 : BitVec 32 := Scalar.muli v62 c512_i32_38
  let v65 : Index := Scalar.indexCast v63
  ![0, v64.toNat, v65.toNat]
def k0_dev4 (d0 : Dev nD) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_46 : BitVec 32 := 16#32
  let v72 : BitVec 32 := Scalar.muli v2 c16_i32_46
  let v73 : BitVec 32 := Scalar.addi c0_i32_47 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_48 : BitVec 32 := 4#32
  let v74 : BitVec 32 := Scalar.muli v19 c4_i32_48
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v76 : BitVec 32 := Scalar.muli v8 c1_i32_49
  let v77 : BitVec 32 := Scalar.addi v75 v76
  v77.toNat
def k0_off2 (d0 : Dev nD) (c0_i32_76 : BitVec 32) : Fin 3 → Nat :=
  let c0_87 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v51 : BitVec 32 := Scalar.muli v2 c512_i32
  let v120 : Index := Scalar.indexCast v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_75 : BitVec 32 := 2#32
  let v104 : BitVec 32 := Scalar.subi v5 c2_i32_75
  let v105 : BitVec 32 := Scalar.subi v104 c0_i32_76
  let c4_i32_77 : BitVec 32 := 4#32
  let c0_i32_78 : BitVec 32 := 0#32
  let v106 : BitVec 1 := Scalar.cmpi .eq c4_i32_77 c0_i32_78
  let c1_i32_79 : BitVec 32 := 1#32
  let v107 : BitVec 32 := Scalar.select v106 c1_i32_79 c4_i32_77
  let v108 : BitVec 32 := Scalar.remsi v105 v107
  let c0_i32_81 : BitVec 32 := 0#32
  let v110 : BitVec 1 := Scalar.cmpi .slt v108 c0_i32_81
  let c0_i32_82 : BitVec 32 := 0#32
  let v111 : BitVec 1 := Scalar.cmpi .slt v107 c0_i32_82
  let v112 : BitVec 1 := Scalar.xori v110 v111
  let c0_i32_80 : BitVec 32 := 0#32
  let v109 : BitVec 1 := Scalar.cmpi .ne v108 c0_i32_80
  let v113 : BitVec 1 := Scalar.andi v112 v109
  let v114 : BitVec 32 := Scalar.addi v108 v107
  let v115 : BitVec 32 := Scalar.select v113 v114 v108
  let c512_i32_86 : BitVec 32 := 512#32
  let v119 : BitVec 32 := Scalar.muli v115 c512_i32_86
  let v121 : Index := Scalar.indexCast v119
  ![0, v120.toNat, v121.toNat]
def k0_dev5 (d0 : Dev nD) : Nat :=
  let c0_i32_95 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_94 : BitVec 32 := 16#32
  let v129 : BitVec 32 := Scalar.muli v2 c16_i32_94
  let v130 : BitVec 32 := Scalar.addi c0_i32_95 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_96 : BitVec 32 := 4#32
  let v131 : BitVec 32 := Scalar.muli v19 c4_i32_96
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v133 : BitVec 32 := Scalar.muli v8 c1_i32_97
  let v134 : BitVec 32 := Scalar.addi v132 v133
  v134.toNat
def k0_dev6 (d0 : Dev nD) : Nat :=
  let c0_i32_143 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_142 : BitVec 32 := 16#32
  let v186 : BitVec 32 := Scalar.muli v2 c16_i32_142
  let v187 : BitVec 32 := Scalar.addi c0_i32_143 v186
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_144 : BitVec 32 := 4#32
  let v188 : BitVec 32 := Scalar.muli v19 c4_i32_144
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_145 : BitVec 32 := 1#32
  let v190 : BitVec 32 := Scalar.muli v8 c1_i32_145
  let v191 : BitVec 32 := Scalar.addi v189 v190
  v191.toNat
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v51 : BitVec 32 := Scalar.muli v2 c512_i32
  let v239 : Index := Scalar.indexCast v51
  let c0_184 : Index := 0#32
  ![v239.toNat, 0]
def k0_dev7 (d0 : Dev nD) : Nat :=
  let c0_i32_191 : BitVec 32 := 0#32
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_15 v2
  let c16_i32_190 : BitVec 32 := 16#32
  let v245 : BitVec 32 := Scalar.muli v31 c16_i32_190
  let v246 : BitVec 32 := Scalar.addi c0_i32_191 v245
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_192 : BitVec 32 := 4#32
  let v247 : BitVec 32 := Scalar.muli v5 c4_i32_192
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_193 : BitVec 32 := 1#32
  let v249 : BitVec 32 := Scalar.muli v8 c1_i32_193
  let v250 : BitVec 32 := Scalar.addi v248 v249
  v250.toNat
def k0_off4 (d0 : Dev nD) : Fin 2 → Nat :=
  let c1_i32_218 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v272 : BitVec 32 := Scalar.subi c1_i32_218 v2
  let c512_i32_219 : BitVec 32 := 512#32
  let v273 : BitVec 32 := Scalar.muli v272 c512_i32_219
  let v274 : Index := Scalar.indexCast v273
  let c0_220 : Index := 0#32
  ![v274.toNat, 0]
abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  h_S1x512x512 : 0 < S1x512x512.numel
  shapeCasts_S1x512x512_S512x512 : S1x512x512.ShapeCasts S512x512
  bitsLt_bf16_f32 : FTy.bits .bf16 < FTy.bits .f32
  inb_S3x512x512_S1x512x512_0_0_0 : ∀ a, (![0, 0, 0] : Fin 3 → Nat) a + S1x512x512.size a ≤ S3x512x512.size a
  shapeCasts_S512x512_S1x512x512 : S512x512.ShapeCasts S1x512x512
  packedbf16_S3x512x512_S1x512x512_0_0_0 : (Rect.unit (s := S3x512x512) ![0, 0, 0] S1x512x512.size inb_S3x512x512_S1x512x512_0_0_0).PackedRows (EltTy.packing .bf16)
  inb_S3_S1_0 : ∀ a, (![0] : Fin 1 → Nat) a + S1.size a ≤ S3.size a
  squeezes_S1_S_ : S1.Squeezes S_
  squeezes_S1x512x512_S512x512 : S1x512x512.Squeezes S512x512
  wordsbf16_S3x512x512_S1x512x512_0_0_0 : (Rect.unit (s := S3x512x512) ![0, 0, 0] S1x512x512.size inb_S3x512x512_S1x512x512_0_0_0).WholeWords (EltTy.packing .bf16)
  inb_S3x512x512_S1x512x512_1_0_0 : ∀ a, (![1, 0, 0] : Fin 3 → Nat) a + S1x512x512.size a ≤ S3x512x512.size a
  packedbf16_S3x512x512_S1x512x512_1_0_0 : (Rect.unit (s := S3x512x512) ![1, 0, 0] S1x512x512.size inb_S3x512x512_S1x512x512_1_0_0).PackedRows (EltTy.packing .bf16)
  inb_S3_S1_1 : ∀ a, (![1] : Fin 1 → Nat) a + S1.size a ≤ S3.size a
  wordsbf16_S3x512x512_S1x512x512_1_0_0 : (Rect.unit (s := S3x512x512) ![1, 0, 0] S1x512x512.size inb_S3x512x512_S1x512x512_1_0_0).WholeWords (EltTy.packing .bf16)
  inb_S3x512x512_S1x512x512_2_0_0 : ∀ a, (![2, 0, 0] : Fin 3 → Nat) a + S1x512x512.size a ≤ S3x512x512.size a
  packedbf16_S3x512x512_S1x512x512_2_0_0 : (Rect.unit (s := S3x512x512) ![2, 0, 0] S1x512x512.size inb_S3x512x512_S1x512x512_2_0_0).PackedRows (EltTy.packing .bf16)
  inb_S3_S1_2 : ∀ a, (![2] : Fin 1 → Nat) a + S1.size a ≤ S3.size a
  wordsbf16_S3x512x512_S1x512x512_2_0_0 : (Rect.unit (s := S3x512x512) ![2, 0, 0] S1x512x512.size inb_S3x512x512_S1x512x512_2_0_0).WholeWords (EltTy.packing .bf16)
  h_S512x512 : 0 < S512x512.numel
  inb_S2x512x512_S1x512x512_0_0_0 : ∀ a, (![0, 0, 0] : Fin 3 → Nat) a + S1x512x512.size a ≤ S2x512x512.size a
  packedbf16_S2x512x512_S1x512x512_0_0_0 : (Rect.unit (s := S2x512x512) ![0, 0, 0] S1x512x512.size inb_S2x512x512_S1x512x512_0_0_0).PackedRows (EltTy.packing .bf16)
  inb_S2x512x512_S1x512x512_1_0_0 : ∀ a, (![1, 0, 0] : Fin 3 → Nat) a + S1x512x512.size a ≤ S2x512x512.size a
  wordsbf16_S2x512x512_S1x512x512_0_0_0 : (Rect.unit (s := S2x512x512) ![0, 0, 0] S1x512x512.size inb_S2x512x512_S1x512x512_0_0_0).WholeWords (EltTy.packing .bf16)
  wordsbf16_S2x512x512_S1x512x512_1_0_0 : (Rect.unit (s := S2x512x512) ![1, 0, 0] S1x512x512.size inb_S2x512x512_S1x512x512_1_0_0).WholeWords (EltTy.packing .bf16)
  hcc0_scratch3 : 2 + S3.numel ≤ 10
  hcc0_scratch4 : 5 + S3.numel ≤ 10
  hcc0_scratch5 : 8 + S_.numel ≤ 10
  hcc0_scratch6 : 9 + S_.numel ≤ 10
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S1x512x512.size a ≤ S1x1024x2048.size a
  k0_dev4_lt : ∀ d0 : Dev nD, (k0_dev4 d0) < nD
  k0_off2_inb : ∀ d0 : Dev nD, ∀ (r : Fin 3), ∀ a, (k0_off2 d0 (BitVec.ofNat 32 r.val)) a + S1x512x512.size a ≤ S1x1024x2048.size a
  k0_dev5_lt : ∀ d0 : Dev nD, (k0_dev5 d0) < nD
  k0_dev6_lt : ∀ d0 : Dev nD, (k0_dev6 d0) < nD
  k0_off3_inb : ∀ d0 : Dev nD, ∀ a, (k0_off3 d0) a + S512x512.size a ≤ S1024x512.size a
  k0_dev7_lt : ∀ d0 : Dev nD, (k0_dev7 d0) < nD
  k0_off4_inb : ∀ d0 : Dev nD, ∀ a, (k0_off4 d0) a + S512x512.size a ≤ S1024x512.size a
  hstage0_0 : ∀ j, (stage0_0 j).IsWhole
  hstage0_1 : ∀ j, (stage0_1 j).IsWhole

variable [Facts₀]

abbrev cc0_scratch3 : DmaSems sig S3 := SemArray.consecutive 2 S3 hcc0_scratch3
abbrev cc0_scratch4 : DmaSems sig S3 := SemArray.consecutive 5 S3 hcc0_scratch4
abbrev cc0_scratch5 : DmaSems sig S_ := SemArray.consecutive 8 S_ hcc0_scratch5
abbrev cc0_scratch6 : DmaSems sig S_ := SemArray.consecutive 9 S_ hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x1024x2048 : Shape := ⟨3, ![4, 1024, 2048]⟩
abbrev S_ : Shape := ⟨0, ![]⟩
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S_, .f32⟩
  | .hbm, ⟨2, _⟩ => ⟨S1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S4x1024x2048_S1024x2048_d0 : S4x1024x2048.ReducesTo [0] S1024x2048
  h_S_ : 0 < S_.numel

variable [Facts₀]

class Facts : Prop extends Facts₀ where

variable [Facts]
-- ==== Proof.RsMesh.lean ====
/-
  The mesh of the ring reduce-scatter: 32 devices numbered 16·x + 4·y + z over axes x = 2, y = 4, z = 4.
  The kernel talks to three peers: the next and the previous device along y (same x, z) and the device
  with the other x (same y, z). This module names them, shows they are permutations of the devices,
  identifies the printed device-id chains with them, and gives the printed row / column offsets of the
  half-blocks in closed form.
-/
import proofs.«901043_g7700000000001044_dist_rs_v7x_xyz2x4x4_y_m1024_n512_bf16_1_alg».proof.Proof.Gen.KernelIdeal

namespace Cert.KernelIdeal.Rs

open Cert.KernelIdeal Cert.KernelIdeal.Gen
open Idealize.ShloMosaic Idealize.SL.Sem

/-- The next device along y: y + 1 mod 4, same x and z. -/
def rgt (c : Dev nD) : Dev nD := ⟨16 * (c.val / 16) + 4 * ((c.val / 4 % 4 + 1) % 4) + c.val % 4, by have h : c.val < 32 := c.isLt; show _ < 32; omega⟩
/-- The previous device along y: y − 1 mod 4, same x and z. -/
def lft (c : Dev nD) : Dev nD := ⟨16 * (c.val / 16) + 4 * ((c.val / 4 % 4 + 3) % 4) + c.val % 4, by have h : c.val < 32 := c.isLt; show _ < 32; omega⟩
/-- The device with the other x coordinate, same y and z. -/
def oth (c : Dev nD) : Dev nD := ⟨16 * (1 - c.val / 16) + 4 * (c.val / 4 % 4) + c.val % 4, by have h : c.val < 32 := c.isLt; show _ < 32; omega⟩

theorem lft_rgt : ∀ c : Dev nD, lft (rgt c) = c := by decide
theorem rgt_lft : ∀ c : Dev nD, rgt (lft c) = c := by decide
theorem oth_oth : ∀ c : Dev nD, oth (oth c) = c := by decide
theorem rgt_ne_lft : ∀ c : Dev nD, rgt c ≠ lft c := by decide
theorem rgt_ne_oth : ∀ c : Dev nD, rgt c ≠ oth c := by decide
theorem lft_ne_oth : ∀ c : Dev nD, lft c ≠ oth c := by decide
theorem rgt_ne_self : ∀ c : Dev nD, rgt c ≠ c := by decide
theorem lft_ne_self : ∀ c : Dev nD, lft c ≠ c := by decide
theorem oth_ne_self : ∀ c : Dev nD, oth c ≠ c := by decide

/-- The ring along y, as a permutation of the devices. -/
def ringY : Dev nD ≃ Dev nD := ⟨rgt, lft, lft_rgt, rgt_lft⟩
/-- The exchange across x, an involution. -/
def swapX : Dev nD ≃ Dev nD := ⟨oth, oth, oth_oth, oth_oth⟩

/-! The printed device-id chains. -/
theorem k0_dev1_val : ∀ c : Dev nD, k0_dev1 c = (lft c).val := by decide +kernel
theorem k0_dev2_val : ∀ c : Dev nD, k0_dev2 c = (rgt c).val := by decide +kernel
theorem k0_dev3_val : ∀ c : Dev nD, k0_dev3 c = (oth c).val := by decide +kernel
theorem k0_dev4_val : ∀ c : Dev nD, k0_dev4 c = (rgt c).val := by decide +kernel
theorem k0_dev5_val : ∀ c : Dev nD, k0_dev5 c = (rgt c).val := by decide +kernel
theorem k0_dev6_val : ∀ c : Dev nD, k0_dev6 c = (rgt c).val := by decide +kernel
theorem k0_dev7_val : ∀ c : Dev nD, k0_dev7 c = (oth c).val := by decide +kernel

theorem dev1_eq (c : Dev nD) : (⟨k0_dev1 c, k0_dev1_lt c⟩ : Dev nD) = lft c := Fin.ext (k0_dev1_val c)
theorem dev2_eq (c : Dev nD) : (⟨k0_dev2 c, k0_dev2_lt c⟩ : Dev nD) = rgt c := Fin.ext (k0_dev2_val c)
theorem dev3_eq (c : Dev nD) : (⟨k0_dev3 c, k0_dev3_lt c⟩ : Dev nD) = oth c := Fin.ext (k0_dev3_val c)
theorem dev4_eq (c : Dev nD) : (⟨k0_dev4 c, k0_dev4_lt c⟩ : Dev nD) = rgt c := Fin.ext (k0_dev4_val c)
theorem dev5_eq (c : Dev nD) : (⟨k0_dev5 c, k0_dev5_lt c⟩ : Dev nD) = rgt c := Fin.ext (k0_dev5_val c)
theorem dev6_eq (c : Dev nD) : (⟨k0_dev6 c, k0_dev6_lt c⟩ : Dev nD) = rgt c := Fin.ext (k0_dev6_val c)
theorem dev7_eq (c : Dev nD) : (⟨k0_dev7 c, k0_dev7_lt c⟩ : Dev nD) = oth c := Fin.ext (k0_dev7_val c)

/-! The printed offsets: the half of the rows device x works on, and the column chunk of each step. -/
theorem k0_off1_val : ∀ c : Dev nD, k0_off1 c = ![0, 512 * (c.val / 16), 512 * ((c.val / 4 % 4 + 3) % 4)] := by decide +kernel
theorem k0_off2_val : ∀ c : Dev nD, ∀ s : Fin 3, k0_off2 c (BitVec.ofNat 32 s.val) = ![0, 512 * (c.val / 16), 512 * ((c.val / 4 % 4 + 2 - s.val) % 4)] := by decide +kernel

end Cert.KernelIdeal.Rs
-- ==== Proof.RsVals.lean ====
/-
  What each device holds at each step of the ring reduce-scatter, as pure terms of the devices' staged
  inputs (generic in the float instance).

  Device c, at mesh coordinates (x, y, z), works on the half of the rows x names. It first sends the column
  chunk y − 1 of its own block, narrowed to bf16, to its next device along y. In step s it receives from the
  previous device a running sum, widens it, adds its own chunk y − 2 − s, and either forwards the narrowed sum
  (s < 2) or, at s = 2, holds the complete sum of chunk y over the four devices of its ring: that is its half
  of the result rows, and, narrowed, what it exchanges with the device of the other x, whose half it writes
  into the other rows.
-/
import proofs.«901043_g7700000000001044_dist_rs_v7x_xyz2x4x4_y_m1024_n512_bf16_1_alg».proof.Proof.Gen.KernelIdeal.Skeleton
import proofs.«901043_g7700000000001044_dist_rs_v7x_xyz2x4x4_y_m1024_n512_bf16_1_alg».proof.Proof.RsMesh

noncomputable section

namespace Cert.KernelIdeal.Rs

open Cert.KernelIdeal Cert.KernelIdeal.Gen
open Idealize.ShloMosaic Idealize.SL.Sem

variable {F : FTy → Type} [FloatOps F]

/-- The contents of the staged input block (1 × 1024 × 2048, f32) and of the staged result (1024 × 512, f32). -/
abbrev XTy (F : FTy → Type) [FloatOps F] : Type := (cc0_stg0_0 : Ref sig .tc).ty.Contents (Elt F)
abbrev OTy (F : FTy → Type) [FloatOps F] : Type := (cc0_stg1_0 : Ref sig .tc).ty.Contents (Elt F)

abbrev xM : Memref sig .tc .vmem S1x1024x2048 .f32 := Memref.whole cc0_stg0_0
abbrev oM : Memref sig .tc .vmem S1024x512 .f32 := Memref.whole cc0_stg1_0
abbrev sM : Memref sig .tc .vmem S3x512x512 .bf16 := Memref.whole cc0_scratch0
abbrev rM : Memref sig .tc .vmem S3x512x512 .bf16 := Memref.whole cc0_scratch1
abbrev eM : Memref sig .tc .vmem S2x512x512 .bf16 := Memref.whole cc0_scratch2

/-- The rectangle of the first load: rows of half x, column chunk y − 1. -/
abbrev rectA (c : Dev nD) : Rect S1x1024x2048 := Rect.unit (s := S1x1024x2048) (k0_off1 c) S1x512x512.size (k0_off1_inb c)
/-- The rectangle of step s's load: rows of half x, column chunk y − 2 − s. -/
abbrev rectB (c : Dev nD) (s : Fin 3) : Rect S1x1024x2048 :=
  Rect.unit (s := S1x1024x2048) (k0_off2 c (BitVec.ofNat 32 s.val)) S1x512x512.size (k0_off2_inb c s)
/-- The rows of the result this device computes itself, and the rows it receives from the other x. -/
abbrev rectOwn (c : Dev nD) : Rect S1024x512 := Rect.unit (s := S1024x512) (k0_off3 c) S512x512.size (k0_off3_inb c)
abbrev rectOth (c : Dev nD) : Rect S1024x512 := Rect.unit (s := S1024x512) (k0_off4 c) S512x512.size (k0_off4_inb c)

variable (X : Dev nD → XTy F)

/-- Device c's own chunk y − 1, rows of its half. -/
def ldA (c : Dev nD) : Vec F S1x512x512 .f32 := (xM).view.readAt (Elt F) (rectA c).toLoadRect (X c)
/-- Device c's own chunk y − 2 − s, rows of its half. -/
def ldB (c : Dev nD) (s : Fin 3) : Vec F S1x512x512 .f32 := (xM).view.readAt (Elt F) (rectB c s).toLoadRect (X c)

/-- What device c sends in step 0: its chunk y − 1, narrowed. -/
def part0 (c : Dev nD) : Vec F S1x512x512 .bf16 := k0_pay2 (ldA X c)
/-- What it sends in step 1: what it received in step 0 plus its chunk y − 2, narrowed. -/
def part1 (c : Dev nD) : Vec F S1x512x512 .bf16 := k0_pay3 (part0 X (lft c)) (ldB X c 0)
/-- What it sends in step 2: what it received in step 1 plus its chunk y − 3, narrowed. -/
def part2 (c : Dev nD) : Vec F S1x512x512 .bf16 := k0_pay4 (part1 X (lft c)) (ldB X c 1)
/-- The complete sum of chunk y over the ring, rows of device c's half: what it received in step 2 plus its own chunk y. -/
def full (c : Dev nD) : Vec F S512x512 .f32 := k0_pay5 (part2 X (lft c)) (ldB X c 2)
/-- The same, narrowed, as it is exchanged across x. -/
def fullNarrow (c : Dev nD) : Vec F S1x512x512 .bf16 := k0_pay6 (part2 X (lft c)) (ldB X c 2)
/-- The other half of the rows: the other-x device's complete sum, widened again. -/
def otherHalf (c : Dev nD) : Vec F S512x512 .f32 := k0_pay1 (fullNarrow X (oth c))

/-- The staged result after the two half stores, from contents g before them. -/
def outFrom (c : Dev nD) (g : OTy F) : OTy F :=
  ((oM).access (rectOth c)).write (Elt F) (((oM).access (rectOwn c)).write (Elt F) g (full X c) Finset.univ) (otherHalf X c) Finset.univ

variable [∀ e, Nonempty (Elt F e)]

/-- The staged result of device c: its own half and the other half, every row written. -/
def outAt (c : Dev nD) : OTy F := outFrom X c (fun _ => Classical.arbitrary _)

end Cert.KernelIdeal.Rs

end
-- ==== Proof.RsSlots.lean ====
/-
  The slots of the three scratch buffers and what reading, storing and copying through them does.

  The send buffer and the receive buffer have three slots of 512 × 512 bf16, one per ring step; the exchange
  buffer has two (slot 0 goes out to the other x, slot 1 comes in from it). A remote copy moves one slot, seen as
  a 512 × 512 view; a store writes, and a load reads, one slot seen as a 1 × 512 × 512 rectangle of the whole
  buffer. The facts below say: a whole buffer is the separate union of its slots; a slot's rectangle lies inside
  the slot; reading a slot right after storing v into it gives v; reading a destination slot after a copy gives
  what the source slot held; and the two half stores into the result cover every row.
-/
import proofs.«901043_g7700000000001044_dist_rs_v7x_xyz2x4x4_y_m1024_n512_bf16_1_alg».proof.Proof.RsVals
import Idealize.ShloMosaic.Lib.Memref
import Idealize.ShloMosaic.Lib.Pipeline.Value
import Idealize.ShloMosaic.Lib.Tactic

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

theorem inb3 : ∀ s : Fin 3, ∀ a, (![s.val, 0, 0] : Fin 3 → Nat) a + S1x512x512.size a ≤ S3x512x512.size a := by decide
theorem inb2 : ∀ j : Fin 2, ∀ a, (![j.val, 0, 0] : Fin 3 → Nat) a + S1x512x512.size a ≤ S2x512x512.size a := by decide

/-- The rectangle of slot s of a three-slot buffer, and of slot j of the two-slot buffer. -/
abbrev r3 (s : Fin 3) : Rect S3x512x512 := Rect.unit (s := S3x512x512) ![s.val, 0, 0] S1x512x512.size (inb3 s)
abbrev r2 (j : Fin 2) : Rect S2x512x512 := Rect.unit (s := S2x512x512) ![j.val, 0, 0] S1x512x512.size (inb2 j)

/-- Slot s of the send buffer, of the receive buffer, and slot j of the exchange buffer, as the 512 × 512 views
    the remote copies move. -/
abbrev sslot (s : Fin 3) : Memref sig .tc .vmem S512x512 .bf16 := ((sM).slice (r3 s) (fun _ => rfl)).squeeze S512x512 squeezes_S1x512x512_S512x512
abbrev rslot (s : Fin 3) : Memref sig .tc .vmem S512x512 .bf16 := ((rM).slice (r3 s) (fun _ => rfl)).squeeze S512x512 squeezes_S1x512x512_S512x512
abbrev eslot (j : Fin 2) : Memref sig .tc .vmem S512x512 .bf16 := ((eM).slice (r2 j) (fun _ => rfl)).squeeze S512x512 squeezes_S1x512x512_S512x512

variable {Val : EltTy → Type}
variable {Ix : Type} [DecidableEq Ix] {Name : Type} [DecidableEq Name] {U : Type} [URA U] {Lvl : Type}

local notation "𝕄" => MT nD τ sig Ix Val Name U Lvl

/-! ## Which elements a slot's rectangle holds -/

private theorem forall_fin3 {P : Fin 3 → Prop} : (∀ a, P a) ↔ P 0 ∧ P 1 ∧ P 2 := by
  constructor
  · intro h; exact ⟨h 0, h 1, h 2⟩
  · rintro ⟨h0, h1, h2⟩ a; fin_cases a <;> assumption

/-- An element is in slot s exactly when its first coordinate is s. -/
theorem mem_r3 (s : Fin 3) (i : S3x512x512.Idx) : i ∈ (r3 s).set ↔ (i 0).val = s.val := by
  rw [Rect.mem_set_unit, forall_fin3]
  have h1 : (i 1).val < 512 := (i 1).isLt
  have h2 : (i 2).val < 512 := (i 2).isLt
  show ((s.val ≤ (i 0).val ∧ (i 0).val < s.val + 1) ∧ (0 ≤ (i 1).val ∧ (i 1).val < 0 + 512) ∧ (0 ≤ (i 2).val ∧ (i 2).val < 0 + 512)) ↔ _
  omega
theorem mem_r2 (j : Fin 2) (i : S2x512x512.Idx) : i ∈ (r2 j).set ↔ (i 0).val = j.val := by
  rw [Rect.mem_set_unit, forall_fin3]
  have h1 : (i 1).val < 512 := (i 1).isLt
  have h2 : (i 2).val < 512 := (i 2).isLt
  show ((j.val ≤ (i 0).val ∧ (i 0).val < j.val + 1) ∧ (0 ≤ (i 1).val ∧ (i 1).val < 0 + 512) ∧ (0 ≤ (i 2).val ∧ (i 2).val < 0 + 512)) ↔ _
  omega

theorem r3_disjoint {s t : Fin 3} (h : s ≠ t) : Disjoint (r3 s).set (r3 t).set :=
  Finset.disjoint_left.mpr fun i hs ht => h (Fin.ext (((mem_r3 s i).mp hs).symm.trans ((mem_r3 t i).mp ht)))
theorem r2_disjoint {s t : Fin 2} (h : s ≠ t) : Disjoint (r2 s).set (r2 t).set :=
  Finset.disjoint_left.mpr fun i hs ht => h (Fin.ext (((mem_r2 s i).mp hs).symm.trans ((mem_r2 t i).mp ht)))

theorem r3_cover : (Finset.univ : Finset S3x512x512.Idx) = (r3 0).set ∪ ((r3 1).set ∪ (r3 2).set) := by
  ext i
  simp only [Finset.mem_univ, Finset.mem_union, mem_r3, true_iff]
  have h0 : (i 0).val < 3 := (i 0).isLt
  show (i 0).val = 0 ∨ (i 0).val = 1 ∨ (i 0).val = 2
  omega
theorem r2_cover : (Finset.univ : Finset S2x512x512.Idx) = (r2 0).set ∪ (r2 1).set := by
  ext i
  simp only [Finset.mem_univ, Finset.mem_union, mem_r2, true_iff]
  have h0 : (i 0).val < 2 := (i 0).isLt
  show (i 0).val = 0 ∨ (i 0).val = 1
  omega

/-! ## A points-to over three, or two, separate sets that cover the buffer -/

section PointsTo
variable {ℓ : Loc nD τ sig} {q : PosShare TreeShare}

private theorem pointsTo_split3 {A0 A1 A2 : Finset (Idx ℓ)} (hc : Finset.univ = A0 ∪ (A1 ∪ A2)) (h01 : Disjoint A0 A1) (h02 : Disjoint A0 A2)
    (h12 : Disjoint A1 A2) (f : Buf Val ℓ) :
    (ℓ ↦{q} f : sProp 𝕄) ⊢ iprop((ℓ ↦[A0]{q} f) ∗ (ℓ ↦[A1]{q} f) ∗ (ℓ ↦[A2]{q} f)) := by
  rw [hc]
  refine (pointsTo_union (Finset.disjoint_union_right.mpr ⟨h01, h02⟩)).1.trans ?_
  iintro ⟨H0, H12⟩
  isplitl [H0]; · iexact H0
  iapply (pointsTo_union h12).1
  iexact H12

private theorem pointsTo_split2 {A0 A1 : Finset (Idx ℓ)} (hc : Finset.univ = A0 ∪ A1) (h01 : Disjoint A0 A1) (f : Buf Val ℓ) :
    (ℓ ↦{q} f : sProp 𝕄) ⊢ iprop((ℓ ↦[A0]{q} f) ∗ (ℓ ↦[A1]{q} f)) := by
  rw [hc]
  exact (pointsTo_union h01).1

private theorem pointsTo_join3 {A0 A1 A2 : Finset (Idx ℓ)} (hc : Finset.univ = A0 ∪ (A1 ∪ A2)) (h01 : Disjoint A0 A1) (h02 : Disjoint A0 A2)
    (h12 : Disjoint A1 A2) (f0 f1 f2 : Buf Val ℓ) :
    iprop((ℓ ↦[A0]{q} f0) ∗ (ℓ ↦[A1]{q} f1) ∗ (ℓ ↦[A2]{q} f2)) ⊢ (iprop(∃ f : Buf Val ℓ, ℓ ↦{q} f) : sProp 𝕄) := by
  classical
  iintro ⟨H0, H1, H2⟩
  iexists (A1 ∪ A2).piecewise (A2.piecewise f2 f1) f0
  rw [hc]
  iapply (pointsTo_join (Finset.disjoint_union_right.mpr ⟨h01, h02⟩))
  isplitl [H0]; · iexact H0
  iapply (pointsTo_join h12)
  isplitl [H1]; · iexact H1
  iexact H2

private theorem pointsTo_join2 {A0 A1 : Finset (Idx ℓ)} (hc : Finset.univ = A0 ∪ A1) (h01 : Disjoint A0 A1) (f0 f1 : Buf Val ℓ) :
    iprop((ℓ ↦[A0]{q} f0) ∗ (ℓ ↦[A1]{q} f1)) ⊢ (iprop(∃ f : Buf Val ℓ, ℓ ↦{q} f) : sProp 𝕄) := by
  classical
  iintro ⟨H0, H1⟩
  iexists A1.piecewise f1 f0
  rw [hc]
  iapply (pointsTo_join h01)
  isplitl [H0]; · iexact H0
  iexact H1

end PointsTo

/-! ## The slots' element sets -/

theorem sslot_set (s : Fin 3) : (sslot s).view.set = (r3 s).set :=
  (View.set_reshape ((sM).view.slice (r3 s)) squeezes_S1x512x512_S512x512.numel_eq).trans (View.set_slice_whole cc0_scratch0 (r3 s))
theorem rslot_set (s : Fin 3) : (rslot s).view.set = (r3 s).set :=
  (View.set_reshape ((rM).view.slice (r3 s)) squeezes_S1x512x512_S512x512.numel_eq).trans (View.set_slice_whole cc0_scratch1 (r3 s))
theorem eslot_set (j : Fin 2) : (eslot j).view.set = (r2 j).set :=
  (View.set_reshape ((eM).view.slice (r2 j)) squeezes_S1x512x512_S512x512.numel_eq).trans (View.set_slice_whole cc0_scratch2 (r2 j))

/-! ## The slots cover their buffer and are separate -/

theorem sslot_cover : (Finset.univ : Finset S3x512x512.Idx) = (sslot 0).view.set ∪ ((sslot 1).view.set ∪ (sslot 2).view.set) := by
  rw [sslot_set, sslot_set, sslot_set]; exact r3_cover
theorem rslot_cover : (Finset.univ : Finset S3x512x512.Idx) = (rslot 0).view.set ∪ ((rslot 1).view.set ∪ (rslot 2).view.set) := by
  rw [rslot_set, rslot_set, rslot_set]; exact r3_cover
theorem eslot_cover : (Finset.univ : Finset S2x512x512.Idx) = (eslot 0).view.set ∪ (eslot 1).view.set := by
  rw [eslot_set, eslot_set]; exact r2_cover
theorem sslot_disjoint {s t : Fin 3} (h : s ≠ t) : Disjoint (sslot s).view.set (sslot t).view.set := by
  rw [sslot_set, sslot_set]; exact r3_disjoint h
theorem rslot_disjoint {s t : Fin 3} (h : s ≠ t) : Disjoint (rslot s).view.set (rslot t).view.set := by
  rw [rslot_set, rslot_set]; exact r3_disjoint h
theorem eslot_disjoint {s t : Fin 2} (h : s ≠ t) : Disjoint (eslot s).view.set (eslot t).view.set := by
  rw [eslot_set, eslot_set]; exact r2_disjoint h

/-! ## A view and a re-indexing of it -/

/-- Reading through a view after an unmasked write through a re-indexing of it: at each index, the payload at the
    matched index. -/
private theorem read_write_reshape {κ : Kind} {sp : Space} {s s' : Shape} {e : EltTy} (v : View sig κ sp s e) (h : s'.numel = s.numel)
    (f : v.ty.Contents Val) (w : s'.Idx → Val e) (x : s.Idx) :
    v.read Val ((v.reshape s' h).write Val f w Finset.univ) x = w ((Shape.reshapeEquiv h).symm x) := by
  have hx : v.emb x = (v.reshape s' h).emb ((Shape.reshapeEquiv h).symm x) := by
    rw [View.emb_reshape, Function.Embedding.trans_apply, Equiv.coe_toEmbedding, Equiv.apply_symm_apply]
  rw [View.read_apply, hx, View.write_emb_of_mem _ _ (Finset.mem_univ _), cast_cast, cast_eq]

/-- A re-indexed view reads, at each index, what the view reads at the matched index. -/
private theorem read_reshape {κ : Kind} {sp : Space} {s s' : Shape} {e : EltTy} (v : View sig κ sp s e) (h : s'.numel = s.numel)
    (f : v.ty.Contents Val) (y : s'.Idx) :
    (v.reshape s' h).read Val f y = v.read Val f (Shape.reshapeEquiv h y) := rfl

/-! ## The rows of the result -/

/-- Every element of the result lies in the rows the device computes itself or in the rows it receives: the two
    row offsets are 0 and 512 in one order or the other. -/
theorem mem_own_or_oth (c : Dev nD) (i : S1024x512.Idx) : i ∈ (rectOwn c).set ∨ i ∈ (rectOth c).set := by
  rw [Rect.mem_set_unit, Rect.mem_set_unit, Gen.k0_off3_eq, Gen.k0_off4_eq, Fin.forall_fin_two, Fin.forall_fin_two]
  have hc : c.val < 32 := c.isLt
  have h0 : (i 0).val < 1024 := (i 0).isLt
  have h1 : (i 1).val < 512 := (i 1).isLt
  show ((512 * (c.val / 16) ≤ (i 0).val ∧ (i 0).val < 512 * (c.val / 16) + 512) ∧ (0 ≤ (i 1).val ∧ (i 1).val < 0 + 512)) ∨
       ((512 - 512 * (c.val / 16) ≤ (i 0).val ∧ (i 0).val < 512 - 512 * (c.val / 16) + 512) ∧ (0 ≤ (i 1).val ∧ (i 1).val < 0 + 512))
  omega

/-! ## A buffer is the separate union of its slots -/

theorem sM_split (c : Dev nD) (f : Buf Val ((c : Thread nD τ).loc cc0_scratch0)) :
    ((((c : Thread nD τ).loc cc0_scratch0) ↦{fullShare} f : sProp 𝕄))
      ⊢ iprop(((sslot 0).view.loc (c : Thread nD τ) ↦[(sslot 0).view.set]{fullShare} f)
          ∗ ((sslot 1).view.loc (c : Thread nD τ) ↦[(sslot 1).view.set]{fullShare} f)
          ∗ ((sslot 2).view.loc (c : Thread nD τ) ↦[(sslot 2).view.set]{fullShare} f)) :=
  pointsTo_split3 (ℓ := (c : Thread nD τ).loc cc0_scratch0) sslot_cover (sslot_disjoint (by decide)) (sslot_disjoint (by decide))
    (sslot_disjoint (by decide)) f

theorem rM_split (c : Dev nD) (f : Buf Val ((c : Thread nD τ).loc cc0_scratch1)) :
    ((((c : Thread nD τ).loc cc0_scratch1) ↦{fullShare} f : sProp 𝕄))
      ⊢ iprop(((rslot 0).view.loc (c : Thread nD τ) ↦[(rslot 0).view.set]{fullShare} f)
          ∗ ((rslot 1).view.loc (c : Thread nD τ) ↦[(rslot 1).view.set]{fullShare} f)
          ∗ ((rslot 2).view.loc (c : Thread nD τ) ↦[(rslot 2).view.set]{fullShare} f)) :=
  pointsTo_split3 (ℓ := (c : Thread nD τ).loc cc0_scratch1) rslot_cover (rslot_disjoint (by decide)) (rslot_disjoint (by decide))
    (rslot_disjoint (by decide)) f

theorem eM_split (c : Dev nD) (f : Buf Val ((c : Thread nD τ).loc cc0_scratch2)) :
    ((((c : Thread nD τ).loc cc0_scratch2) ↦{fullShare} f : sProp 𝕄))
      ⊢ iprop(((eslot 0).view.loc (c : Thread nD τ) ↦[(eslot 0).view.set]{fullShare} f)
          ∗ ((eslot 1).view.loc (c : Thread nD τ) ↦[(eslot 1).view.set]{fullShare} f)) :=
  pointsTo_split2 (ℓ := (c : Thread nD τ).loc cc0_scratch2) eslot_cover (eslot_disjoint (by decide)) f

theorem sM_join (c : Dev nD) (f0 f1 f2 : Buf Val ((c : Thread nD τ).loc cc0_scratch0)) :
    iprop(((sslot 0).view.loc (c : Thread nD τ) ↦[(sslot 0).view.set]{fullShare} f0)
          ∗ ((sslot 1).view.loc (c : Thread nD τ) ↦[(sslot 1).view.set]{fullShare} f1)
          ∗ ((sslot 2).view.loc (c : Thread nD τ) ↦[(sslot 2).view.set]{fullShare} f2))
      ⊢ (iprop(∃ f : Buf Val ((c : Thread nD τ).loc cc0_scratch0), ((c : Thread nD τ).loc cc0_scratch0) ↦{fullShare} f) : sProp 𝕄) :=
  pointsTo_join3 (ℓ := (c : Thread nD τ).loc cc0_scratch0) sslot_cover (sslot_disjoint (by decide)) (sslot_disjoint (by decide))
    (sslot_disjoint (by decide)) f0 f1 f2

theorem rM_join (c : Dev nD) (f0 f1 f2 : Buf Val ((c : Thread nD τ).loc cc0_scratch1)) :
    iprop(((rslot 0).view.loc (c : Thread nD τ) ↦[(rslot 0).view.set]{fullShare} f0)
          ∗ ((rslot 1).view.loc (c : Thread nD τ) ↦[(rslot 1).view.set]{fullShare} f1)
          ∗ ((rslot 2).view.loc (c : Thread nD τ) ↦[(rslot 2).view.set]{fullShare} f2))
      ⊢ (iprop(∃ f : Buf Val ((c : Thread nD τ).loc cc0_scratch1), ((c : Thread nD τ).loc cc0_scratch1) ↦{fullShare} f) : sProp 𝕄) :=
  pointsTo_join3 (ℓ := (c : Thread nD τ).loc cc0_scratch1) rslot_cover (rslot_disjoint (by decide)) (rslot_disjoint (by decide))
    (rslot_disjoint (by decide)) f0 f1 f2

theorem eM_join (c : Dev nD) (f0 f1 : Buf Val ((c : Thread nD τ).loc cc0_scratch2)) :
    iprop(((eslot 0).view.loc (c : Thread nD τ) ↦[(eslot 0).view.set]{fullShare} f0)
          ∗ ((eslot 1).view.loc (c : Thread nD τ) ↦[(eslot 1).view.set]{fullShare} f1))
      ⊢ (iprop(∃ f : Buf Val ((c : Thread nD τ).loc cc0_scratch2), ((c : Thread nD τ).loc cc0_scratch2) ↦{fullShare} f) : sProp 𝕄) :=
  pointsTo_join2 (ℓ := (c : Thread nD τ).loc cc0_scratch2) eslot_cover (eslot_disjoint (by decide)) f0 f1

/-! ## A slot's rectangle lies inside the slot -/

theorem sM_load_sub (s : Fin 3) : (sM).view.setOn (r3 s).toLoadRect.set ⊆ (sslot s).view.set := by
  intro i hi
  rw [sslot_set]
  obtain ⟨x, hx, rfl⟩ := Finset.mem_map.mp hi
  exact hx
theorem rM_load_sub (s : Fin 3) : (rM).view.setOn (r3 s).toLoadRect.set ⊆ (rslot s).view.set := by
  intro i hi
  rw [rslot_set]
  obtain ⟨x, hx, rfl⟩ := Finset.mem_map.mp hi
  exact hx
theorem eM_load_sub (j : Fin 2) : (eM).view.setOn (r2 j).toLoadRect.set ⊆ (eslot j).view.set := by
  intro i hi
  rw [eslot_set]
  obtain ⟨x, hx, rfl⟩ := Finset.mem_map.mp hi
  exact hx
theorem sM_store_sub (s : Fin 3) : ((sM).access (r3 s)).setOn Finset.univ ⊆ (sslot s).view.set :=
  Finset.subset_of_eq (View.set_reshape ((sM).view.slice (r3 s)) squeezes_S1x512x512_S512x512.numel_eq).symm
theorem eM_store_sub (j : Fin 2) : ((eM).access (r2 j)).setOn Finset.univ ⊆ (eslot j).view.set :=
  Finset.subset_of_eq (View.set_reshape ((eM).view.slice (r2 j)) squeezes_S1x512x512_S512x512.numel_eq).symm

/-! ## Reading a slot after a store, and after a copy -/

theorem sM_read_store (s : Fin 3) (f : (cc0_scratch0 : Ref sig .tc).ty.Contents Val) (v : (r3 s).shape.Idx → Val .bf16) :
    (sM).view.readAt Val (r3 s).toLoadRect (((sM).access (r3 s)).write Val f v Finset.univ) = v :=
  View.read_write_univ (v := (sM).access (r3 s)) f v
theorem eM_read_store (j : Fin 2) (f : (cc0_scratch2 : Ref sig .tc).ty.Contents Val) (v : (r2 j).shape.Idx → Val .bf16) :
    (eM).view.readAt Val (r2 j).toLoadRect (((eM).access (r2 j)).write Val f v Finset.univ) = v :=
  View.read_write_univ (v := (eM).access (r2 j)) f v
/-- A ring copy of slot s: the destination slot afterwards reads as the source slot did. -/
theorem rM_read_copy (s : Fin 3) (fd : (cc0_scratch1 : Ref sig .tc).ty.Contents Val) (fs : (cc0_scratch0 : Ref sig .tc).ty.Contents Val) :
    (rM).view.readAt Val (r3 s).toLoadRect ((rslot s).view.write Val fd ((sslot s).view.read Val fs) Finset.univ)
      = (sM).view.readAt Val (r3 s).toLoadRect fs := by
  funext x
  have h := read_write_reshape (Val := Val) ((rM).view.slice (r3 s)) squeezes_S1x512x512_S512x512.numel_eq fd ((sslot s).view.read Val fs) x
  refine h.trans ?_
  have h' := read_reshape (Val := Val) ((sM).view.slice (r3 s)) squeezes_S1x512x512_S512x512.numel_eq fs
    ((Shape.reshapeEquiv squeezes_S1x512x512_S512x512.numel_eq).symm x)
  refine h'.trans ?_
  rw [Equiv.apply_symm_apply]
  rfl
/-- The exchange copy, slot 0 to slot 1. -/
theorem eM_read_copy (fd fs : (cc0_scratch2 : Ref sig .tc).ty.Contents Val) :
    (eM).view.readAt Val (r2 1).toLoadRect ((eslot 1).view.write Val fd ((eslot 0).view.read Val fs) Finset.univ)
      = (eM).view.readAt Val (r2 0).toLoadRect fs := by
  funext x
  have h := read_write_reshape (Val := Val) ((eM).view.slice (r2 1)) squeezes_S1x512x512_S512x512.numel_eq fd ((eslot 0).view.read Val fs) x
  refine h.trans ?_
  have h' := read_reshape (Val := Val) ((eM).view.slice (r2 0)) squeezes_S1x512x512_S512x512.numel_eq fs
    ((Shape.reshapeEquiv squeezes_S1x512x512_S512x512.numel_eq).symm x)
  refine h'.trans ?_
  rw [Equiv.apply_symm_apply]
  rfl

/-! ## The two half stores cover the result -/

variable {F : FTy → Type} [FloatOps F]

theorem outFrom_indep (X : Dev nD → XTy F) (c : Dev nD) (g g' : OTy F) : outFrom X c g = outFrom X c g' := by
  funext i
  unfold outFrom
  by_cases hO : i ∈ ((oM).access (rectOth c)).setOn Finset.univ
  · obtain ⟨y, -, rfl⟩ := Finset.mem_map.mp hO
    rw [View.write_emb_of_mem _ _ (Finset.mem_univ y), View.write_emb_of_mem _ _ (Finset.mem_univ y)]
  · rw [View.write_of_not_mem _ _ _ hO, View.write_of_not_mem _ _ _ hO]
    have hW : i ∈ ((oM).access (rectOwn c)).setOn Finset.univ := by
      rcases mem_own_or_oth c i with h | h
      · have e : ((oM).access (rectOwn c)).setOn Finset.univ = (rectOwn c).set := View.set_slice_whole cc0_stg1_0 (rectOwn c)
        rw [e]; exact h
      · have e : ((oM).access (rectOth c)).setOn Finset.univ = (rectOth c).set := View.set_slice_whole cc0_stg1_0 (rectOth c)
        rw [e] at hO; exact absurd h hO
    obtain ⟨y, -, rfl⟩ := Finset.mem_map.mp hW
    rw [View.write_emb_of_mem _ _ (Finset.mem_univ y), View.write_emb_of_mem _ _ (Finset.mem_univ y)]

end Cert.KernelIdeal.Rs

end
-- ==== Proof.RsSched.lean ====
/-
  The protocol of the ring reduce-scatter, as a schedule of rounds.

  Every device has nine cells, each with one round. Its barrier cell takes three one-unit duties: one from the next
  device along y, which hands over its three receive slots (so that this device may write into them); one from the
  previous device, which hands over nothing; one from the device of the other x, which hands over slot 1 of its
  exchange buffer. Send cell s gives back slot s of the send buffer once the copy has read it. Receive cell s is
  paid by the previous device's copy s and hands over receive slot s holding that device's running sum of step s.
  The exchange send cell gives back exchange slot 0; the exchange receive cell hands over exchange slot 1 holding
  the other device's complete sum, narrowed.

  A device signals its three peers, waits for all three, and then alternates copy, wait-send, wait-receive. Each
  wait sits strictly below everything the device still owes: barrier < send 0 < receive 0 < send 1 < … < exchange
  receive; the pipeline's own staging cells are lowest.
-/
import proofs.«901043_g7700000000001044_dist_rs_v7x_xyz2x4x4_y_m1024_n512_bf16_1_alg».proof.Proof.RsSlots
import proofs.«901043_g7700000000001044_dist_rs_v7x_xyz2x4x4_y_m1024_n512_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties numbered 0, 1, 2) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores and the cells -/

theorem inq3 : ∀ s : Fin 3, ∀ a, (![s.val] : Fin 1 → Nat) a + S1.size a ≤ S3.size a := by decide
abbrev q3 (s : Fin 3) : Rect S3 := Rect.unit (s := S3) ![s.val] S1.size (inq3 s)

abbrev barS : Sem sig := (SemArray.scalar (sig.barrier 0 rfl) : Sems sig S_).sem
abbrev sendS (s : Fin 3) : DmaSem sig := ((cc0_scratch3.slice (q3 s)).squeeze S_ squeezes_S1_S_).sem
abbrev recvS (s : Fin 3) : DmaSem sig := ((cc0_scratch4.slice (q3 s)).squeeze S_ squeezes_S1_S_).sem
abbrev xsendS : DmaSem sig := (cc0_scratch5).sem
abbrev xrecvS : DmaSem sig := (cc0_scratch6).sem

/-- The nine semaphores of the protocol: barrier; send 0, 1, 2; receive 0, 1, 2; exchange send, exchange receive. -/
abbrev csem : Fin 9 → SemLoc sig := fun k =>
  if k = 0 then .reg barS else if k = 1 then .dma (sendS 0) else if k = 2 then .dma (sendS 1) else if k = 3 then .dma (sendS 2)
  else if k = 4 then .dma (recvS 0) else if k = 5 then .dma (recvS 1) else if k = 6 then .dma (recvS 2)
  else if k = 7 then .dma xsendS else .dma xrecvS
abbrev cell (c : Dev nD) (k : Fin 9) : GSem nD τ sig := ((c : Thread nD τ), csem k)
abbrev kcell (ck : Dev nD × Fin 9) : GSem nD τ sig := cell ck.1 ck.2

/-- Which of the nine a semaphore is, if any. -/
def kOf (sm : SemLoc sig) : Option (Fin 9) := (List.finRange 9).find? (fun k => decide (csem k = sm))
theorem kOf_csem : ∀ k : Fin 9, kOf (csem k) = some k := by decide
theorem csem_injective : Function.Injective csem := fun a b h => Option.some.inj ((kOf_csem a).symm.trans ((congrArg kOf h).trans (kOf_csem b)))

/-- The credit of one slot's transfer, on the ring buffers and on the exchange buffer. -/
abbrev N3 : ℕ := (rslot 0).view.dmaCredit
abbrev NE : ℕ := (eslot 1).view.dmaCredit
theorem N3_pos : 0 < N3 := View.dmaCredit_pos _ (by decide)
theorem NE_pos : 0 < NE := View.dmaCredit_pos _ (by decide)

/-! ## What a slot holds -/

/-- Slot s of device c's send / receive buffer, slot j of its exchange buffer, at some contents. -/
def anyS (c : Dev nD) (s : Fin 3) : sProp 𝕄 :=
  iprop(∃ f : Buf (Elt F) ((sslot s).view.loc (c : Thread nD τ)), (sslot s).view.loc (c : Thread nD τ) ↦[(sslot s).view.set]{fullShare} f)
def anyR (c : Dev nD) (s : Fin 3) : sProp 𝕄 :=
  iprop(∃ f : Buf (Elt F) ((rslot s).view.loc (c : Thread nD τ)), (rslot s).view.loc (c : Thread nD τ) ↦[(rslot s).view.set]{fullShare} f)
def anyE (c : Dev nD) (j : Fin 2) : sProp 𝕄 :=
  iprop(∃ f : Buf (Elt F) ((eslot j).view.loc (c : Thread nD τ)), (eslot j).view.loc (c : Thread nD τ) ↦[(eslot j).view.set]{fullShare} f)
/-- Receive slot s of device c holding V: a load of the slot's rectangle reads V. -/
def holdsR (c : Dev nD) (s : Fin 3) (V : Vec F S1x512x512 .bf16) : sProp 𝕄 :=
  iprop(∃ f : Buf (Elt F) ((rslot s).view.loc (c : Thread nD τ)), ⌜(rM).view.readAt (Elt F) (r3 s).toLoadRect f = V⌝
    ∗ ((rslot s).view.loc (c : Thread nD τ) ↦[(rslot s).view.set]{fullShare} f))
/-- Exchange slot 1 of device c holding V. -/
def holdsE (c : Dev nD) (V : Vec F S1x512x512 .bf16) : sProp 𝕄 :=
  iprop(∃ f : Buf (Elt F) ((eslot 1).view.loc (c : Thread nD τ)), ⌜(eM).view.readAt (Elt F) (r2 1).toLoadRect f = V⌝
    ∗ ((eslot 1).view.loc (c : Thread nD τ) ↦[(eslot 1).view.set]{fullShare} f))

instance anyS_storable (c : Dev nD) (s : Fin 3) : BI.Storable (upEmb : UEmb _ 𝕄) (anyS (F := F) c s) := by unfold anyS; infer_instance
instance anyR_storable (c : Dev nD) (s : Fin 3) : BI.Storable (upEmb : UEmb _ 𝕄) (anyR (F := F) c s) := by unfold anyR; infer_instance
instance anyE_storable (c : Dev nD) (j : Fin 2) : BI.Storable (upEmb : UEmb _ 𝕄) (anyE (F := F) c j) := by unfold anyE; infer_instance
instance holdsR_storable (c : Dev nD) (s : Fin 3) (V : Vec F S1x512x512 .bf16) : BI.Storable (upEmb : UEmb _ 𝕄) (holdsR (F := F) c s V) := by
  unfold holdsR; infer_instance
instance holdsE_storable (c : Dev nD) (V : Vec F S1x512x512 .bf16) : BI.Storable (upEmb : UEmb _ 𝕄) (holdsE (F := F) c V) := by
  unfold holdsE; infer_instance

variable (X : Dev nD → XTy F)

/-- The payload of duty d of cell k of device c. -/
def payK (c : Dev nD) (k : Fin 9) (d : Fin 3) : sProp 𝕄 :=
  if k = 0 then (if d = 0 then iprop(anyR (rgt c) 0 ∗ anyR (rgt c) 1 ∗ anyR (rgt c) 2) else if d = 2 then anyE (oth c) 1 else iprop(emp))
  else if k = 1 then anyS c 0 else if k = 2 then anyS c 1 else if k = 3 then anyS c 2
  else if k = 4 then holdsR c 0 (part0 X (lft c)) else if k = 5 then holdsR c 1 (part1 X (lft c))
  else if k = 6 then holdsR c 2 (part2 X (lft c))
  else if k = 7 then anyE c 0 else holdsE c (fullNarrow X (oth c))

/-! ## The schedule -/

def rsRd : Rounds.Schedule (GSem nD τ sig) (Fin 3) 𝕄 where
  duties g r := if r = 0 ∧ g.1.2 = .tc then (match kOf g.2 with | some k => if k = 0 then Finset.univ else {0} | none => ∅) else ∅
  unitless _ := False
  amount g _ _ := match kOf g.2 with | some k => if k = 0 then 1 else if k.val < 7 then N3 else NE | none => 1
  payload g _ d := match kOf g.2 with | some k => payK X g.1.1 k d | none => iprop(emp)
  amount_pos g _ _ _ := by
    show 0 < (match kOf g.2 with | some k => if k = 0 then 1 else if k.val < 7 then N3 else NE | none => 1)
    cases kOf g.2 with
    | none => exact Nat.one_pos
    | some k =>
      show 0 < (if k = 0 then 1 else if k.val < 7 then N3 else NE)
      split
      · exact Nat.one_pos
      split
      · exact N3_pos
      · exact NE_pos

instance rsRd_payload_storable (g : GSem nD τ sig) (r : ℕ) (d : Fin 3) :
    BI.Storable (upEmb : UEmb _ 𝕄) ((rsRd (F := F) X).payload g r d) := by
  show BI.Storable upEmb (match kOf g.2 with | some k => payK X g.1.1 k d | none => iprop(emp))
  cases kOf g.2 with
  | none => infer_instance
  | some k =>
    show BI.Storable upEmb (payK X g.1.1 k d)
    unfold payK
    (repeat' split) <;> infer_instance

section Sched
variable (c : Dev nD)

theorem duties_bar : (rsRd (F := F) X).duties (cell c 0) 0 = Finset.univ := by
  dsimp only [rsRd]; rw [if_pos ⟨rfl, rfl⟩, kOf_csem]; rfl
theorem duties_xfer (k : Fin 9) (hk : k ≠ 0) : (rsRd (F := F) X).duties (cell c k) 0 = {0} := by
  dsimp only [rsRd]; rw [if_pos ⟨rfl, rfl⟩, kOf_csem]; exact if_neg hk
theorem duties_later (g : GSem nD τ sig) : ∀ r, 1 ≤ r → (rsRd (F := F) X).duties g r = ∅ :=
  fun r hr => by dsimp only [rsRd]; exact if_neg (fun h => by omega)

theorem amount_bar (d : Fin 3) : (rsRd (F := F) X).amount (cell c 0) 0 d = 1 := by
  dsimp only [rsRd]; rw [kOf_csem]; rfl
theorem amount_ring (k : Fin 9) (hk : k ≠ 0) (hk7 : k.val < 7) (d : Fin 3) : (rsRd (F := F) X).amount (cell c k) 0 d = N3 := by
  dsimp only [rsRd]; rw [kOf_csem]; show (if k = 0 then 1 else if k.val < 7 then N3 else NE) = N3; rw [if_neg hk, if_pos hk7]
theorem amount_exch (k : Fin 9) (hk7 : 7 ≤ k.val) (d : Fin 3) : (rsRd (F := F) X).amount (cell c k) 0 d = NE := by
  dsimp only [rsRd]; rw [kOf_csem]; show (if k = 0 then 1 else if k.val < 7 then N3 else NE) = NE
  rw [if_neg (fun h => by rw [h] at hk7; exact absurd hk7 (by decide)), if_neg (by omega)]

theorem expect_bar : (rsRd (F := F) X).expect (cell c 0) 0 = 3 := by
  unfold Schedule.expect Schedule.amountOf
  rw [duties_bar, Finset.sum_congr rfl fun d _ => amount_bar X c d, Finset.sum_const, Finset.card_univ, Fintype.card_fin, smul_eq_mul]
theorem expect_ring (k : Fin 9) (hk : k ≠ 0) (hk7 : k.val < 7) : (rsRd (F := F) X).expect (cell c k) 0 = N3 := by
  unfold Schedule.expect Schedule.amountOf; rw [duties_xfer X c k hk, Finset.sum_singleton, amount_ring X c k hk hk7]
theorem expect_exch (k : Fin 9) (hk7 : 7 ≤ k.val) : (rsRd (F := F) X).expect (cell c k) 0 = NE := by
  unfold Schedule.expect Schedule.amountOf
  rw [duties_xfer X c k (fun h => by rw [h] at hk7; exact absurd hk7 (by decide)), Finset.sum_singleton, amount_exch X c k hk7]

theorem payload_cell (k : Fin 9) (d : Fin 3) : (rsRd (F := F) X).payload (cell c k) 0 d = payK X c k d := by
  dsimp only [rsRd]; rw [kOf_csem]

/-- The whole of the barrier cell's round: the next device's three receive slots, nothing, the other device's exchange slot 1. -/
theorem rest_bar : bigSep ((rsRd (F := F) X).duties (cell c 0) 0 \ ∅) (fun d => (rsRd (F := F) X).payload (cell c 0) 0 d)
    = iprop((anyR (rgt c) 0 ∗ anyR (rgt c) 1 ∗ anyR (rgt c) 2) ∗ emp ∗ anyE (oth c) 1) := by
  rw [Finset.sdiff_empty, duties_bar, bigSep_univ_eq_bigSepL [(0 : Fin 3), 1, 2] (by decide) (by decide)]
  simp only [bigSepL_cons_cons, bigSepL_singleton, payload_cell]
  rfl
theorem rest_xfer (k : Fin 9) (hk : k ≠ 0) : bigSep ((rsRd (F := F) X).duties (cell c k) 0 \ ∅) (fun d => (rsRd (F := F) X).payload (cell c k) 0 d)
    = payK X c k 0 := by
  rw [Finset.sdiff_empty, duties_xfer X c k hk, bigSep_singleton, payload_cell]

end Sched

end Cert.KernelIdeal.Rs

end
-- ==== Proof.RsLevels.lean ====
/-
  What a device owes, point by point, and why none of its waits can block for ever.

  At launch device c owes: one unit to each of its three peers' barrier cells, the credit of receive slots 0, 1, 2 of
  its next device along y, and the credit of the exchange receive slot of the device of the other x. It pays them in
  that order, so what it still owes at each point is a tail of that list. Levels: a barrier cell 1; send s at 2 + 2s,
  receive s at 3 + 2s; the exchange send 8 and receive 9; every other cell (the pipeline's staging) 0. At each of its
  waits the cell waited on is strictly below every cell the device still owes.
-/
import proofs.«901043_g7700000000001044_dist_rs_v7x_xyz2x4x4_y_m1024_n512_bf16_1_alg».proof.Proof.RsSched

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What is owed -/

/-- Still owed before the exchange copy; before ring copy 2; 1; 0 (that is, at the barrier wait); before the signal to
    the other x; to the next device; and at launch. -/
def O1 (c : Dev nD) : CellTallies nD τ sig Unit := 0 + tallyAt (cell (oth c) 8) () NE
def O2 (c : Dev nD) : CellTallies nD τ sig Unit := O1 c + tallyAt (cell (rgt c) 6) () N3
def O3 (c : Dev nD) : CellTallies nD τ sig Unit := O2 c + tallyAt (cell (rgt c) 5) () N3
def O4 (c : Dev nD) : CellTallies nD τ sig Unit := O3 c + tallyAt (cell (rgt c) 4) () N3
def O5 (c : Dev nD) : CellTallies nD τ sig Unit := O4 c + tallyAt (cell (oth c) 0) () 1
def O6 (c : Dev nD) : CellTallies nD τ sig Unit := O5 c + tallyAt (cell (rgt c) 0) () 1
def O₀ (c : Dev nD) : CellTallies nD τ sig Unit := O6 c + tallyAt (cell (lft c) 0) () 1

theorem pos_add_tally {A : CellTallies nD τ sig Unit} {g g' : GSem nD τ sig} {n : ℕ} {u : Unit}
    (h : 0 < (A + tallyAt g () n) g' u) : 0 < A g' u ∨ g' = g := by
  rcases Pipeline.add_pos_cases h with h | h
  · exact .inl h
  · right
    rw [tallyAt_apply] at h
    by_contra hn
    rw [if_neg (fun h' => hn h'.1)] at h
    exact Nat.lt_irrefl 0 h

theorem O1_pos {c : Dev nD} {g : GSem nD τ sig} {u : Unit} (h : 0 < O1 c g u) : g = cell (oth c) 8 := by
  rcases pos_add_tally h with h | h
  · exact absurd h (Nat.lt_irrefl 0)
  · exact h
theorem O2_pos {c : Dev nD} {g : GSem nD τ sig} {u : Unit} (h : 0 < O2 c g u) : g = cell (oth c) 8 ∨ g = cell (rgt c) 6 := by
  rcases pos_add_tally h with h | h
  · exact .inl (O1_pos h)
  · exact .inr h
theorem O3_pos {c : Dev nD} {g : GSem nD τ sig} {u : Unit} (h : 0 < O3 c g u) :
    g = cell (oth c) 8 ∨ g = cell (rgt c) 6 ∨ g = cell (rgt c) 5 := by
  rcases pos_add_tally h with h | h
  · rcases O2_pos h with h | h
    · exact .inl h
    · exact .inr (.inl h)
  · exact .inr (.inr h)
theorem O4_pos {c : Dev nD} {g : GSem nD τ sig} {u : Unit} (h : 0 < O4 c g u) :
    g = cell (oth c) 8 ∨ g = cell (rgt c) 6 ∨ g = cell (rgt c) 5 ∨ g = cell (rgt c) 4 := by
  rcases pos_add_tally h with h | h
  · rcases O3_pos h with h | h | h
    · exact .inl h
    · exact .inr (.inl h)
    · exact .inr (.inr (.inl h))
  · exact .inr (.inr (.inr h))
theorem O₀_pos {c : Dev nD} {g : GSem nD τ sig} {u : Unit} (h : 0 < O₀ c g u) :
    g = cell (oth c) 8 ∨ g = cell (rgt c) 6 ∨ g = cell (rgt c) 5 ∨ g = cell (rgt c) 4 ∨ g = cell (oth c) 0 ∨ g = cell (rgt c) 0 ∨ g = cell (lft c) 0 := by
  rcases pos_add_tally h with h | h
  · rcases pos_add_tally h with h | h
    · rcases pos_add_tally h with h | h
      · rcases O4_pos h with h | h | h | h
        · exact .inl h
        · exact .inr (.inl h)
        · exact .inr (.inr (.inl h))
        · exact .inr (.inr (.inr (.inl h)))
      · exact .inr (.inr (.inr (.inr (.inl h))))
    · exact .inr (.inr (.inr (.inr (.inr (.inl h)))))
  · exact .inr (.inr (.inr (.inr (.inr (.inr h)))))

/-! ## The levels -/

def L (g : GSem nD τ sig) : Finset Unit := if g.1.2 = .tc then {()} else ∅
/-- barrier 1; send 0, 1, 2 at 2, 4, 6; receive 0, 1, 2 at 3, 5, 7; exchange send 8, receive 9. -/
def lvK : Fin 9 → ℕ := ![1, 2, 4, 6, 3, 5, 7, 8, 9]
def lv (g : GSem nD τ sig) (_ : Unit) : ℕ := match kOf g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 9) (u : Unit) : lv (cell c k) u = lvK k := by
  show (match kOf (csem k) with | some k => lvK k | none => 0) = lvK k
  rw [kOf_csem]
theorem lv_other (c : Dev nD) (sm : SemLoc sig) (h : kOf sm = none) (u : Unit) : lv ((c : Thread nD τ), sm) u = 0 := by
  show (match kOf sm with | some k => lvK k | none => 0) = 0
  rw [h]

/-- A wait on a cell at level ≤ b while everything owed lies above b. -/
theorem mayWait_cut (c : Dev nD) (sm : SemLoc sig) (b : ℕ) (hb : lv ((c : Thread nD τ), sm) () ≤ b) (O : CellTallies nD τ sig Unit)
    (hO : ∀ g u, 0 < O g u → g.1.2 = .tc ∧ b < lv g u) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hb)
    (fun g u hg => (hO g u hg).2)

/-- The nine waits of device c, each with what it owes there. -/
theorem mayWait_bar (c : Dev nD) : (levAts L lv : sProp 𝕄) ⊢ MayWait (c : Thread nD τ) (csem 0) () (O4 c) :=
  mayWait_cut c _ 1 (by rw [lv_cell]; decide) _ fun g u h => by
    rcases O4_pos h with rfl | rfl | rfl | rfl <;> exact ⟨rfl, by rw [lv_cell]; decide⟩
theorem mayWait_send0 (c : Dev nD) : (levAts L lv : sProp 𝕄) ⊢ MayWait (c : Thread nD τ) (csem 1) () (O3 c) :=
  mayWait_cut c _ 2 (by rw [lv_cell]; decide) _ fun g u h => by
    rcases O3_pos h with rfl | rfl | rfl <;> exact ⟨rfl, by rw [lv_cell]; decide⟩
theorem mayWait_recv0 (c : Dev nD) : (levAts L lv : sProp 𝕄) ⊢ MayWait (c : Thread nD τ) (csem 4) () (O3 c) :=
  mayWait_cut c _ 3 (by rw [lv_cell]; decide) _ fun g u h => by
    rcases O3_pos h with rfl | rfl | rfl <;> exact ⟨rfl, by rw [lv_cell]; decide⟩
theorem mayWait_send1 (c : Dev nD) : (levAts L lv : sProp 𝕄) ⊢ MayWait (c : Thread nD τ) (csem 2) () (O2 c) :=
  mayWait_cut c _ 4 (by rw [lv_cell]; decide) _ fun g u h => by
    rcases O2_pos h with rfl | rfl <;> exact ⟨rfl, by rw [lv_cell]; decide⟩
theorem mayWait_recv1 (c : Dev nD) : (levAts L lv : sProp 𝕄) ⊢ MayWait (c : Thread nD τ) (csem 5) () (O2 c) :=
  mayWait_cut c _ 5 (by rw [lv_cell]; decide) _ fun g u h => by
    rcases O2_pos h with rfl | rfl <;> exact ⟨rfl, by rw [lv_cell]; decide⟩
theorem mayWait_send2 (c : Dev nD) : (levAts L lv : sProp 𝕄) ⊢ MayWait (c : Thread nD τ) (csem 3) () (O1 c) :=
  mayWait_cut c _ 6 (by rw [lv_cell]; decide) _ fun g u h => by
    rw [O1_pos h]; exact ⟨rfl, by rw [lv_cell]; decide⟩
theorem mayWait_recv2 (c : Dev nD) : (levAts L lv : sProp 𝕄) ⊢ MayWait (c : Thread nD τ) (csem 6) () (O1 c) :=
  mayWait_cut c _ 7 (by rw [lv_cell]; decide) _ fun g u h => by
    rw [O1_pos h]; exact ⟨rfl, by rw [lv_cell]; decide⟩

/-- A wait on a cell that is none of the nine (the pipeline's staging cells), whatever of the launch debt is still owed. -/
theorem mayWait_other (c : Dev nD) (sm : SemLoc sig) (hsm : kOf sm = none) (O : CellTallies nD τ sig Unit) (hO : O = O₀ c ∨ O = 0) :
    (levAts L lv : sProp 𝕄) ⊢ MayWait (c : Thread nD τ) sm () O := by
  rcases hO with rfl | rfl
  · exact mayWait_cut c sm 0 (by rw [lv_other c sm hsm]) _ fun g u h => by
      rcases O₀_pos h with rfl | rfl | rfl | rfl | rfl | rfl | rfl <;> exact ⟨rfl, by rw [lv_cell]; decide⟩
  · rw [MayWait_zero]; iintro -; iempintro

end Cert.KernelIdeal.Rs

end
-- ==== Proof.RsInput.lean ====
/-
  The staged input of a device: the pipeline fetches the device's whole argument block (1 × 1024 × 2048) once.
-/
import proofs.«901043_g7700000000001044_dist_rs_v7x_xyz2x4x4_y_m1024_n512_bf16_1_alg».proof.Proof.RsVals

noncomputable section

namespace Cert.KernelIdeal.Rs

open Cert.KernelIdeal Cert.KernelIdeal.Gen
open Idealize.ShloMosaic Idealize.ShloMosaic.TcCoe Idealize.SL.Sem

variable {F : FTy → Type} [FloatOps F]

/-- What device c's input staging buffer holds while the body runs: the one block of its argument array. -/
def xstg (m : (ℓ : Loc nD τ sig) → Buf (Elt F) ℓ) (c : Dev nD) : XTy F :=
  (win0_0.blk (0 : Fin 1)).view.read (Elt F) (m ((c : Thread nD τ).loc main_arg0))

end Cert.KernelIdeal.Rs

end
-- ==== Proof.RsData.lean ====
/-
  The proof data of the ring reduce-scatter: what each device holds when its body starts and when it ends.

  When its body starts device c holds: the invariants of the cells it touches (its own nine; the barrier cells of its
  three peers; the three receive cells of its next device; the exchange receive cell of the other-x device); its
  position at the start of each of its own cells; the tokens of the eleven duties it pays (one on each peer's barrier
  cell, the three receive slots of the next device, the exchange receive slot of the other-x device, and its own four
  send cells); the credit its peers owe its barrier, receive and exchange-receive cells; and its three scratch buffers
  whole. When it ends it holds the three scratch buffers whole again and its eight own DMA cells closed at zero; its
  staged result is the sum described in the values module.
-/
import proofs.«901043_g7700000000001044_dist_rs_v7x_xyz2x4x4_y_m1024_n512_bf16_1_alg».proof.Proof.RsLevels
import proofs.«901043_g7700000000001044_dist_rs_v7x_xyz2x4x4_y_m1024_n512_bf16_1_alg».proof.Proof.RsInput
import proofs.«901043_g7700000000001044_dist_rs_v7x_xyz2x4x4_y_m1024_n512_bf16_1_alg».proof.Proof.Gen.KernelIdeal.Points

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The schedule at this memory's staged inputs. -/
abbrev Rd : Rounds.Schedule (GSem nD τ sig) (Fin 3) 𝕄 := rsRd (F := F) (xstg m)

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device c's body opens, under the names K the launch allocated them at. -/
def invs (K : Dev nD × Fin 9 → ℕ) (c : Dev nD) : sProp 𝕄 :=
  iprop(cellInv ER (Rd m) (K (c, 0)) (cell c 0) ∗ cellInv ER (Rd m) (K (c, 1)) (cell c 1) ∗ cellInv ER (Rd m) (K (c, 2)) (cell c 2)
    ∗ cellInv ER (Rd m) (K (c, 3)) (cell c 3) ∗ cellInv ER (Rd m) (K (c, 4)) (cell c 4) ∗ cellInv ER (Rd m) (K (c, 5)) (cell c 5)
    ∗ cellInv ER (Rd m) (K (c, 6)) (cell c 6) ∗ cellInv ER (Rd m) (K (c, 7)) (cell c 7) ∗ cellInv ER (Rd m) (K (c, 8)) (cell c 8)
    ∗ cellInv ER (Rd m) (K (lft c, 0)) (cell (lft c) 0) ∗ cellInv ER (Rd m) (K (rgt c, 0)) (cell (rgt c) 0) ∗ cellInv ER (Rd m) (K (oth c, 0)) (cell (oth c) 0)
    ∗ cellInv ER (Rd m) (K (rgt c, 4)) (cell (rgt c) 4) ∗ cellInv ER (Rd m) (K (rgt c, 5)) (cell (rgt c) 5) ∗ cellInv ER (Rd m) (K (rgt c, 6)) (cell (rgt c) 6)
    ∗ cellInv ER (Rd m) (K (oth c, 8)) (cell (oth c) 8))

instance invs_persistent (K : Dev nD × Fin 9 → ℕ) (c : Dev nD) : BI.Persistent (invs m K c) := by unfold invs; infer_instance

/-- Device c's positions at the start of its nine cells. -/
def positions (c : Dev nD) : sProp 𝕄 :=
  iprop(atPos ER (cell c 0) 0 ∅ 0 ∗ atPos ER (cell c 1) 0 ∅ 0 ∗ atPos ER (cell c 2) 0 ∅ 0 ∗ atPos ER (cell c 3) 0 ∅ 0 ∗ atPos ER (cell c 4) 0 ∅ 0
    ∗ atPos ER (cell c 5) 0 ∅ 0 ∗ atPos ER (cell c 6) 0 ∅ 0 ∗ atPos ER (cell c 7) 0 ∅ 0 ∗ atPos ER (cell c 8) 0 ∅ 0)

/-- Round 0 reached, of every cell device c pays. -/
def reacheds (c : Dev nD) : sProp 𝕄 :=
  iprop(reached ER (cell (lft c) 0) 0 ∗ reached ER (cell (rgt c) 0) 0 ∗ reached ER (cell (oth c) 0) 0
    ∗ reached ER (cell (rgt c) 4) 0 ∗ reached ER (cell (rgt c) 5) 0 ∗ reached ER (cell (rgt c) 6) 0 ∗ reached ER (cell (oth c) 8) 0
    ∗ reached ER (cell c 1) 0 ∗ reached ER (cell c 2) 0 ∗ reached ER (cell c 3) 0 ∗ reached ER (cell c 7) 0)

instance reacheds_persistent (c : Dev nD) : BI.Persistent (reacheds (F := F) c) := by unfold reacheds; infer_instance

/-- The tokens of the eleven duties device c pays: duty 0 of its previous device's barrier (it is that device's next),
    duty 1 of its next device's barrier, duty 2 of the other-x device's barrier; the next device's three receive
    cells; the other-x device's exchange receive cell; its own three send cells and exchange send cell. -/
def payToks (c : Dev nD) : sProp 𝕄 :=
  iprop(dutyTok ER (cell (lft c) 0) 0 0 ∗ dutyTok ER (cell (rgt c) 0) 0 1 ∗ dutyTok ER (cell (oth c) 0) 0 2
    ∗ dutyTok ER (cell (rgt c) 4) 0 0 ∗ dutyTok ER (cell (rgt c) 5) 0 0 ∗ dutyTok ER (cell (rgt c) 6) 0 0 ∗ dutyTok ER (cell (oth c) 8) 0 0
    ∗ dutyTok ER (cell c 1) 0 0 ∗ dutyTok ER (cell c 2) 0 0 ∗ dutyTok ER (cell c 3) 0 0 ∗ dutyTok ER (cell c 7) 0 0)

/-- The protocol's ghost state device c starts from. -/
def ghost (K : Dev nD × Fin 9 → ℕ) (c : Dev nD) : sProp 𝕄 :=
  iprop(invs m K c ∗ positions c ∗ reacheds c ∗ payToks c)

/-- The credit its peers owe device c: three units on its barrier, a slot's credit on each receive cell and on the
    exchange receive cell. -/
def creds0 (c : Dev nD) : sProp 𝕄 :=
  iprop(cred (tallyAt (cell c 0) () 3) ∗ cred (tallyAt (cell c 4) () N3) ∗ cred (tallyAt (cell c 5) () N3)
    ∗ cred (tallyAt (cell c 6) () N3) ∗ cred (tallyAt (cell c 8) () NE))

/-- The three scratch buffers of device c, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What device c's body starts from, besides the staged windows. -/
def start (c : Dev nD) : sProp 𝕄 :=
  iprop((∃ K, ghost m K c) ∗ creds0 c ∗ levAts L lv)

def Φ₀ (c : Dev nD) : sProp 𝕄 := iprop(start m c ∗ scratch c)

/-- Its eight own DMA cells closed, their counters at zero. -/
def closed8 (c : Dev nD) : sProp 𝕄 :=
  iprop(semVal (cell c 1) 0 ∗ semVal (cell c 2) 0 ∗ semVal (cell c 3) 0 ∗ semVal (cell c 4) 0 ∗ semVal (cell c 5) 0
    ∗ semVal (cell c 6) 0 ∗ semVal (cell c 7) 0 ∗ semVal (cell c 8) 0)

def Φ₁ (c : Dev nD) : sProp 𝕄 := iprop(scratch c ∗ closed8 c)

/-- The pipeline's proof data on device c: the arrays as launched; the input staged whole, the result as computed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt (xstg m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A whole staging buffer at known contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the body of device c starts from, the ghost state's names fixed. -/
def bodyPre (K : Dev nD × Fin 9 → ℕ) (c : Dev nD) : sProp 𝕄 :=
  iprop((ghost m K c ∗ creds0 c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with. -/
def bodyPost (c : Dev nD) : sProp 𝕄 :=
  iprop(Φ₁ c ∗ (dats m ρ 0 c).owesAt () t₀.succ ∗ stg c cc0_stg0_0 (xstg m c) ∗ stg c cc0_stg1_0 (outAt (xstg m) c))

/-- Each window's array after the run, as the pipeline's proof data names it. -/
def finalA (c : Dev nD) (w : Fin cfg0.W) : Buf (Elt F) ((cfg0.win w).arr.view.loc (c : Thread nD τ)) := (dats m ρ 0 c).arrAt w cfg0.N

/-- Every device's arrays end at those contents. -/
def QC : PUnit × MemSt nD τ sig (Elt F) → Prop := fun r =>
  ∀ c : Dev nD, ∀ w : Fin cfg0.W, r.2.mem ((cfg0.win w).arr.view.loc (c : Thread nD τ)) = finalA m ρ c w

end Cert.KernelIdeal.Rs

end
-- ==== Proof.RsStates.lean ====
/-
  What device c holds at the cut points of its body: after the entry handshake, and after each of the three ring steps.

  After the handshake it has given away its three receive slots (to the previous device) and exchange slot 1 (to the
  other-x device) and holds instead the next device's three receive slots and the other-x device's exchange slot 1;
  it still owes the three ring copies and the exchange copy. Each ring step s spends send token s and the next
  device's receive slot s, closes its own send cell s and receive cell s, gets its own receive slot s back, and
  leaves the next running sum in send slot s + 1 (after step 2: its half of the result rows stored, and the complete
  sum, narrowed, in exchange slot 0).
-/
import proofs.«901043_g7700000000001044_dist_rs_v7x_xyz2x4x4_y_m1024_n512_bf16_1_alg».proof.Proof.RsData

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Send slot s of device c holding V: a load of the slot's rectangle reads V. -/
def holdsS (c : Dev nD) (s : Fin 3) (V : Vec F S1x512x512 .bf16) : sProp 𝕄 :=
  iprop(∃ f : Buf (Elt F) ((sslot s).view.loc (c : Thread nD τ)), ⌜(sM).view.readAt (Elt F) (r3 s).toLoadRect f = V⌝
    ∗ ((sslot s).view.loc (c : Thread nD τ) ↦[(sslot s).view.set]{fullShare} f))
/-- Exchange slot 0 of device c holding V. -/
def holdsE0 (c : Dev nD) (V : Vec F S1x512x512 .bf16) : sProp 𝕄 :=
  iprop(∃ f : Buf (Elt F) ((eslot 0).view.loc (c : Thread nD τ)), ⌜(eM).view.readAt (Elt F) (r2 0).toLoadRect f = V⌝
    ∗ ((eslot 0).view.loc (c : Thread nD τ) ↦[(eslot 0).view.set]{fullShare} f))

/-- The staged input, whole; the staged result, whole, at contents g. -/
def stgX (c : Dev nD) : sProp 𝕄 := ((c : Thread nD τ).loc cc0_stg0_0) ↦{fullShare} (xstg m c : Buf (Elt F) ((c : Thread nD τ).loc cc0_stg0_0))
def stgO (c : Dev nD) (g : OTy F) : sProp 𝕄 := ((c : Thread nD τ).loc cc0_stg1_0) ↦{fullShare} (g : Buf (Elt F) ((c : Thread nD τ).loc cc0_stg1_0))

/-- What device c knows for good: the invariants, the rounds reached, the levels. -/
def known (K : Dev nD × Fin 9 → ℕ) (c : Dev nD) : sProp 𝕄 := iprop(invs m K c ∗ reacheds c ∗ levAts L lv)

/-- After the handshake and before ring step 0. -/
def stA (c : Dev nD) : sProp 𝕄 :=
  iprop((atPos ER (cell c 1) 0 ∅ 0 ∗ atPos ER (cell c 2) 0 ∅ 0 ∗ atPos ER (cell c 3) 0 ∅ 0 ∗ atPos ER (cell c 4) 0 ∅ 0
      ∗ atPos ER (cell c 5) 0 ∅ 0 ∗ atPos ER (cell c 6) 0 ∅ 0 ∗ atPos ER (cell c 7) 0 ∅ 0 ∗ atPos ER (cell c 8) 0 ∅ 0)
    ∗ (dutyTok ER (cell (rgt c) 4) 0 0 ∗ dutyTok ER (cell (rgt c) 5) 0 0 ∗ dutyTok ER (cell (rgt c) 6) 0 0 ∗ dutyTok ER (cell (oth c) 8) 0 0
      ∗ dutyTok ER (cell c 1) 0 0 ∗ dutyTok ER (cell c 2) 0 0 ∗ dutyTok ER (cell c 3) 0 0 ∗ dutyTok ER (cell c 7) 0 0)
    ∗ (cred (tallyAt (cell c 4) () N3) ∗ cred (tallyAt (cell c 5) () N3) ∗ cred (tallyAt (cell c 6) () N3) ∗ cred (tallyAt (cell c 8) () NE))
    ∗ (∃ W, owes (c : Thread nD τ) (O4 c) W)
    ∗ (anyS c 0 ∗ anyS c 1 ∗ anyS c 2)
    ∗ (anyR (rgt c) 0 ∗ anyR (rgt c) 1 ∗ anyR (rgt c) 2)
    ∗ (anyE (oth c) 1 ∗ anyE c 0)
    ∗ (stgX m c ∗ ∃ g, stgO c g))

/-- After ring step 0: send slot 1 holds the second running sum. -/
def stB0 (c : Dev nD) : sProp 𝕄 :=
  iprop((atPos ER (cell c 2) 0 ∅ 0 ∗ atPos ER (cell c 3) 0 ∅ 0
      ∗ atPos ER (cell c 5) 0 ∅ 0 ∗ atPos ER (cell c 6) 0 ∅ 0 ∗ atPos ER (cell c 7) 0 ∅ 0 ∗ atPos ER (cell c 8) 0 ∅ 0)
    ∗ (dutyTok ER (cell (rgt c) 5) 0 0 ∗ dutyTok ER (cell (rgt c) 6) 0 0 ∗ dutyTok ER (cell (oth c) 8) 0 0
      ∗ dutyTok ER (cell c 2) 0 0 ∗ dutyTok ER (cell c 3) 0 0 ∗ dutyTok ER (cell c 7) 0 0)
    ∗ (cred (tallyAt (cell c 5) () N3) ∗ cred (tallyAt (cell c 6) () N3) ∗ cred (tallyAt (cell c 8) () NE))
    ∗ (∃ W, owes (c : Thread nD τ) (O3 c) W)
    ∗ (anyS c 0 ∗ holdsS c 1 (part1 (xstg m) c) ∗ anyS c 2)
    ∗ (anyR c 0 ∗ anyR (rgt c) 1 ∗ anyR (rgt c) 2)
    ∗ (anyE (oth c) 1 ∗ anyE c 0)
    ∗ (stgX m c ∗ ∃ g, stgO c g)
    ∗ (semVal (cell c 1) 0 ∗ semVal (cell c 4) 0))

/-- After ring step 1: send slot 2 holds the third running sum. -/
def stB1 (c : Dev nD) : sProp 𝕄 :=
  iprop((atPos ER (cell c 3) 0 ∅ 0 ∗ atPos ER (cell c 6) 0 ∅ 0 ∗ atPos ER (cell c 7) 0 ∅ 0 ∗ atPos ER (cell c 8) 0 ∅ 0)
    ∗ (dutyTok ER (cell (rgt c) 6) 0 0 ∗ dutyTok ER (cell (oth c) 8) 0 0 ∗ dutyTok ER (cell c 3) 0 0 ∗ dutyTok ER (cell c 7) 0 0)
    ∗ (cred (tallyAt (cell c 6) () N3) ∗ cred (tallyAt (cell c 8) () NE))
    ∗ (∃ W, owes (c : Thread nD τ) (O2 c) W)
    ∗ (anyS c 0 ∗ anyS c 1 ∗ holdsS c 2 (part2 (xstg m) c))
    ∗ (anyR c 0 ∗ anyR c 1 ∗ anyR (rgt c) 2)
    ∗ (anyE (oth c) 1 ∗ anyE c 0)
    ∗ (stgX m c ∗ ∃ g, stgO c g)
    ∗ (semVal (cell c 1) 0 ∗ semVal (cell c 4) 0 ∗ semVal (cell c 2) 0 ∗ semVal (cell c 5) 0))

/-- After ring step 2: the device's own half of the result rows is stored and exchange slot 0 holds the complete sum, narrowed. -/
def stB2 (c : Dev nD) : sProp 𝕄 :=
  iprop((atPos ER (cell c 7) 0 ∅ 0 ∗ atPos ER (cell c 8) 0 ∅ 0)
    ∗ (dutyTok ER (cell (oth c) 8) 0 0 ∗ dutyTok ER (cell c 7) 0 0)
    ∗ cred (tallyAt (cell c 8) () NE)
    ∗ (∃ W, owes (c : Thread nD τ) (O1 c) W)
    ∗ (anyS c 0 ∗ anyS c 1 ∗ anyS c 2)
    ∗ (anyR c 0 ∗ anyR c 1 ∗ anyR c 2)
    ∗ (anyE (oth c) 1 ∗ holdsE0 c (fullNarrow (xstg m) c))
    ∗ (stgX m c ∗ ∃ g : OTy F, stgO c (((oM).access (rectOwn c)).write (Elt F) g (full (xstg m) c) Finset.univ))
    ∗ (semVal (cell c 1) 0 ∗ semVal (cell c 4) 0 ∗ semVal (cell c 2) 0 ∗ semVal (cell c 5) 0 ∗ semVal (cell c 3) 0 ∗ semVal (cell c 6) 0))

instance known_persistent (K : Dev nD × Fin 9 → ℕ) (c : Dev nD) : BI.Persistent (known m K c) := by unfold known; infer_instance

/-! ## The payloads, cell by cell -/

section Pay
variable (X : Dev nD → XTy F) (c : Dev nD) (d : Fin 3)

theorem payK_bar0 : payK X c 0 0 = iprop(anyR (rgt c) 0 ∗ anyR (rgt c) 1 ∗ anyR (rgt c) 2) := rfl
theorem payK_bar1 : payK X c 0 1 = (iprop(emp) : sProp 𝕄) := rfl
theorem payK_bar2 : payK X c 0 2 = anyE (oth c) 1 := rfl
theorem payK_send0 : payK X c 1 d = anyS c 0 := rfl
theorem payK_send1 : payK X c 2 d = anyS c 1 := rfl
theorem payK_send2 : payK X c 3 d = anyS c 2 := rfl
theorem payK_recv0 : payK X c 4 d = holdsR c 0 (part0 X (lft c)) := rfl
theorem payK_recv1 : payK X c 5 d = holdsR c 1 (part1 X (lft c)) := rfl
theorem payK_recv2 : payK X c 6 d = holdsR c 2 (part2 X (lft c)) := rfl
theorem payK_xsend : payK X c 7 d = anyE c 0 := rfl
theorem payK_xrecv : payK X c 8 d = holdsE c (fullNarrow X (oth c)) := rfl

end Pay

theorem fetch_0 (t : Fin cfg0.N) : (cfg0.win (0 : Fin 2)).fetch t = true := by rw [fin_N t]; rfl

end Cert.KernelIdeal.Rs

end
-- ==== Proof.RsCells.lean ====
/-
  The schedule's tables for a cell named as the printed program names it.

  The program writes its semaphores as slices of the kernel's semaphore arrays; each is one of the nine cells. The
  tables of the schedule (duties, amounts, expected units, payloads) are restated here for a cell given by any
  spelling p of semaphore k.
-/
import proofs.«901043_g7700000000001044_dist_rs_v7x_xyz2x4x4_y_m1024_n512_bf16_1_alg».proof.Proof.RsStates

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (X : Dev nD → XTy F)

/-- The printed spellings: send 0, 1, 2; receive 0, 1, 2; exchange send, exchange receive. -/
abbrev pS0 : SemLoc sig := .dma ((cc0_scratch3.slice (Rect.unit (s := S3) ![0] S1.size inb_S3_S1_0)).squeeze S_ squeezes_S1_S_).sem
abbrev pS1 : SemLoc sig := .dma ((cc0_scratch3.slice (Rect.unit (s := S3) ![1] S1.size inb_S3_S1_1)).squeeze S_ squeezes_S1_S_).sem
abbrev pS2 : SemLoc sig := .dma ((cc0_scratch3.slice (Rect.unit (s := S3) ![2] S1.size inb_S3_S1_2)).squeeze S_ squeezes_S1_S_).sem
abbrev pR0 : SemLoc sig := .dma ((cc0_scratch4.slice (Rect.unit (s := S3) ![0] S1.size inb_S3_S1_0)).squeeze S_ squeezes_S1_S_).sem
abbrev pR1 : SemLoc sig := .dma ((cc0_scratch4.slice (Rect.unit (s := S3) ![1] S1.size inb_S3_S1_1)).squeeze S_ squeezes_S1_S_).sem
abbrev pR2 : SemLoc sig := .dma ((cc0_scratch4.slice (Rect.unit (s := S3) ![2] S1.size inb_S3_S1_2)).squeeze S_ squeezes_S1_S_).sem
abbrev pXS : SemLoc sig := .dma (cc0_scratch5).sem
abbrev pXR : SemLoc sig := .dma (cc0_scratch6).sem
abbrev pB : SemLoc sig := .reg barS

theorem csem_0 : csem 0 = pB := rfl
theorem csem_1 : csem 1 = pS0 := rfl
theorem csem_2 : csem 2 = pS1 := rfl
theorem csem_3 : csem 3 = pS2 := rfl
theorem csem_4 : csem 4 = pR0 := rfl
theorem csem_5 : csem 5 = pR1 := rfl
theorem csem_6 : csem 6 = pR2 := rfl
theorem csem_7 : csem 7 = pXS := rfl
theorem csem_8 : csem 8 = pXR := rfl

section
variable (c : Dev nD) (p : SemLoc sig) (k : Fin 9) (hp : csem k = p)
include hp

theorem duties_p0 (hk : k = 0) : (rsRd (F := F) X).duties ((c : Thread nD τ), p) 0 = Finset.univ := by
  subst hp; subst hk; exact duties_bar X c
theorem duties_p (hk : k ≠ 0) : (rsRd (F := F) X).duties ((c : Thread nD τ), p) 0 = {0} := by
  subst hp; exact duties_xfer X c k hk
theorem mem_duties_p (hk : k ≠ 0) : (0 : Fin 3) ∈ (rsRd (F := F) X).duties ((c : Thread nD τ), p) 0 := by
  rw [duties_p X c p k hp hk]; exact Finset.mem_singleton_self _
theorem mem_duties_p0 (hk : k = 0) (d : Fin 3) : d ∈ (rsRd (F := F) X).duties ((c : Thread nD τ), p) 0 := by
  rw [duties_p0 X c p k hp hk]; exact Finset.mem_univ _
theorem duties_later_p (r : ℕ) (hr : 1 ≤ r) : (rsRd (F := F) X).duties ((c : Thread nD τ), p) r = ∅ := duties_later X _ r hr
theorem amount_p0 (hk : k = 0) (d : Fin 3) : (rsRd (F := F) X).amount ((c : Thread nD τ), p) 0 d = 1 := by
  subst hp; subst hk; exact amount_bar X c d
theorem amount_pring (hk : k ≠ 0) (hk7 : k.val < 7) (d : Fin 3) : (rsRd (F := F) X).amount ((c : Thread nD τ), p) 0 d = N3 := by
  subst hp; exact amount_ring X c k hk hk7 d
theorem amount_pexch (hk7 : 7 ≤ k.val) (d : Fin 3) : (rsRd (F := F) X).amount ((c : Thread nD τ), p) 0 d = NE := by
  subst hp; exact amount_exch X c k hk7 d
theorem expect_p0 (hk : k = 0) : (rsRd (F := F) X).expect ((c : Thread nD τ), p) 0 = 3 := by
  subst hp; subst hk; exact expect_bar X c
theorem expect_pring (hk : k ≠ 0) (hk7 : k.val < 7) : (rsRd (F := F) X).expect ((c : Thread nD τ), p) 0 = N3 := by
  subst hp; exact expect_ring X c k hk hk7
theorem expect_pexch (hk7 : 7 ≤ k.val) : (rsRd (F := F) X).expect ((c : Thread nD τ), p) 0 = NE := by
  subst hp; exact expect_exch X c k hk7
theorem payload_p (d : Fin 3) : (rsRd (F := F) X).payload ((c : Thread nD τ), p) 0 d = payK X c k d := by
  subst hp; exact payload_cell X c k d
theorem rest_p0 (hk : k = 0) :
    bigSep ((rsRd (F := F) X).duties ((c : Thread nD τ), p) 0 \ ∅) (fun d => (rsRd (F := F) X).payload ((c : Thread nD τ), p) 0 d)
      = iprop((anyR (rgt c) 0 ∗ anyR (rgt c) 1 ∗ anyR (rgt c) 2) ∗ emp ∗ anyE (oth c) 1) := by
  subst hp; subst hk; exact rest_bar X c
theorem rest_p (hk : k ≠ 0) :
    bigSep ((rsRd (F := F) X).duties ((c : Thread nD τ), p) 0 \ ∅) (fun d => (rsRd (F := F) X).payload ((c : Thread nD τ), p) 0 d)
      = payK X c k 0 := by
  subst hp; exact rest_xfer X c k hk

end

/-- The credit a wait on each DMA cell consumes is the credit its round expects. -/
theorem credit_s (s : Fin 3) : (sslot s).view.dmaCredit = N3 := rfl
theorem credit_r (s : Fin 3) : (rslot s).view.dmaCredit = N3 := rfl
theorem credit_e0 : (eslot 0).view.dmaCredit = NE := rfl
theorem credit_e1 : (eslot 1).view.dmaCredit = NE := rfl

end Cert.KernelIdeal.Rs

end
-- ==== Proof.RsStageA.lean ====
/-
  The entry handshake of device c: it signals the barrier cells of its previous, next and other-x devices — handing the
  previous device its own three receive slots, and the other-x device its own exchange slot 1 —, waits for the three
  units of its own barrier cell, which bring the next device's three receive slots and the other-x device's exchange
  slot 1, and loads its first chunk.
-/
import proofs.«901043_g7700000000001044_dist_rs_v7x_xyz2x4x4_y_m1024_n512_bf16_1_alg».proof.Proof.RsCells

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_handshake (K : Dev nD × Fin 9 → ℕ) (c : Dev nD) (v2 v5 v8 v19 v30 v31 v34 : BitVec 32)
    (Kt : (Σ' (v51 : BitVec 32), Vec F S1x512x512 .f32) → sProp 𝕄) :
    iprop(bodyPre m ρ K c ∗ ((known m K c ∗ stA m c) -∗ Kt ⟨Scalar.muli v2 512#32, ldA (xstg m) c⟩))
      ⊢ wp frame (wpE (defs₀ (F := F)) 𝒱₀ c none) Set.univ
          (k0_part2 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v5 v8 v19 v30 v31 (SemArray.scalar (sig.barrier 0 rfl)) v34) Kt := by
  simp only [k0_part2_eq_skeleton]; unfold k0_part2_skel
  simp only [semSignalWord, semWaitWord, Prog.lift, Prog.bind_op, Prog.bind_ret, Prog.pure_eq_ret]
  unfold bodyPre ghost invs positions reacheds payToks creds0 scratch
  iintro ⟨⟨⟨⟨⟨#HI0, #HI1, #HI2, #HI3, #HI4, #HI5, #HI6, #HI7, #HI8, #HIl0, #HIr0, #HIo0, #HIr4, #HIr5, #HIr6, #HIo8⟩,
        ⟨Hp0, Hp1, Hp2, Hp3, Hp4, Hp5, Hp6, Hp7, Hp8⟩,
        ⟨#Rl0, #Rr0, #Ro0, #Rr4, #Rr5, #Rr6, #Ro8, #R1, #R2, #R3, #R7⟩,
        ⟨Tl0, Tr0, To0, Tr4, Tr5, Tr6, To8, T1, T2, T3, T7⟩⟩,
      ⟨C0, C4, C5, C6, C8⟩, #Hlev, ⟨⟨%fs, Hs⟩, ⟨%fr, Hr⟩, ⟨%fe, He⟩⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- its own buffers cut into their slots
  ihave Hs3 := (sM_split (Val := Elt F) c fs) $$ Hs
  icases Hs3 with ⟨Hs0, Hs1, Hs2⟩
  ihave Hr3 := (rM_split (Val := Elt F) c fr) $$ Hr
  icases Hr3 with ⟨Hr0, Hr1, Hr2⟩
  ihave He2 := (eM_split (Val := Elt F) c fe) $$ He
  icases He2 with ⟨He0, He1⟩
  -- the signal to the previous device: duty 0 of its barrier cell, with this device's three receive slots
  unfold O₀
  iapply (Rounds.wp_signal 𝒱₀ ER (Rd m) (c : Thread nD τ) none (dst := (lft c : Thread nD τ)) (sem := barS) (κ := K (lft c, 0))
      (r := 0) (d := 0) (mem_duties_p0 (xstg m) (lft c) pB 0 rfl rfl 0) ((amount_p0 (xstg m) (lft c) pB 0 rfl rfl 0).trans (by decide)) () (O6 c) rfl)
    $$ [HO Tl0 Hr0 Hr1 Hr2]
  · isplitr; · iexact HIl0
    isplitl [HO]; · iexact HO
    isplitl [Tl0]; · iexact Tl0
    isplitl [Hr0 Hr1 Hr2]
    · rw [payload_p (xstg m) (lft c) pB 0 rfl, payK_bar0, rgt_lft]
      unfold anyR
      isplitl [Hr0]; · iexists fr; iexact Hr0
      isplitl [Hr1]; · iexists fr; iexact Hr1
      iexists fr; iexact Hr2
    · iexact Rl0
  iintro HO
  -- to the next device: duty 1 of its barrier cell, nothing to hand over
  unfold O6
  iapply (Rounds.wp_signal 𝒱₀ ER (Rd m) (c : Thread nD τ) none (dst := (rgt c : Thread nD τ)) (sem := barS) (κ := K (rgt c, 0))
      (r := 0) (d := 1) (mem_duties_p0 (xstg m) (rgt c) pB 0 rfl rfl 1) ((amount_p0 (xstg m) (rgt c) pB 0 rfl rfl 1).trans (by decide)) () (O5 c) rfl)
    $$ [HO Tr0]
  · isplitr; · iexact HIr0
    isplitl [HO]; · iexact HO
    isplitl [Tr0]; · iexact Tr0
    isplitr; · rw [payload_p (xstg m) (rgt c) pB 0 rfl, payK_bar1]; iempintro
    iexact Rr0
  iintro HO
  -- to the other-x device: duty 2 of its barrier cell, with this device's exchange slot 1
  unfold O5
  iapply (Rounds.wp_signal 𝒱₀ ER (Rd m) (c : Thread nD τ) none (dst := (oth c : Thread nD τ)) (sem := barS) (κ := K (oth c, 0))
      (r := 0) (d := 2) (mem_duties_p0 (xstg m) (oth c) pB 0 rfl rfl 2) ((amount_p0 (xstg m) (oth c) pB 0 rfl rfl 2).trans (by decide)) () (O4 c) rfl)
    $$ [HO To0 He1]
  · isplitr; · iexact HIo0
    isplitl [HO]; · iexact HO
    isplitl [To0]; · iexact To0
    isplitl [He1]
    · rw [payload_p (xstg m) (oth c) pB 0 rfl, payK_bar2, oth_oth]
      unfold anyE
      iexists fe; iexact He1
    · iexact Ro0
  iintro HO
  -- the wait for the three units of its own barrier cell, still owing the four copies
  iapply (Rounds.wp_wait_rest_token 𝒱₀ ER (Rd m) (c : Thread nD τ) none (κ := K (c, 0))
      (wpE_semWait_eq 𝒱₀ (c : Thread nD τ) none Set.univ) (Set.mem_univ _) () (O := O4 c) (W := W) (R := 0) (m := 0) (T := ∅)
      (by rw [expect_p0 (xstg m) c pB 0 rfl rfl]; decide)) $$ [C0 HO Hp0]
  · isplitr; · iexact HI0
    isplitl [C0]; · iexact C0
    isplitl [HO]; · iexact HO
    isplitr; · iapply (mayWait_bar c); iexact Hlev
    iexact Hp0
  iintro ⟨HO, Hp0, -, Hpay⟩
  ihave Hp := (Entails.of_eq (rest_p0 (xstg m) c pB 0 rfl rfl)) $$ Hpay
  icases Hp with ⟨⟨Hn0, Hn1, Hn2⟩, -, Hoe⟩
  -- the first load: the chunk before its own, rows of its half
  iapply (wp_load 𝒱₀ (c : Thread nD τ) none Set.univ (m := xM) (Finset.subset_univ _)) $$ Hx; iintro Hx
  rw [wp_ret]; imodintro
  unfold ldA rectA
  iapply Hk
  isplitr
  · unfold known invs reacheds
    repeat' (first | iassumption | isplitr)
  unfold stA
  isplitl [Hp1 Hp2 Hp3 Hp4 Hp5 Hp6 Hp7 Hp8]; · iframe
  isplitl [Tr4 Tr5 Tr6 To8 T1 T2 T3 T7]; · iframe
  isplitl [C4 C5 C6 C8]; · iframe
  isplitl [HO]; · iexists _; iexact HO
  isplitl [Hs0 Hs1 Hs2]
  · unfold anyS
    isplitl [Hs0]; · iexists fs; iexact Hs0
    isplitl [Hs1]; · iexists fs; iexact Hs1
    iexists fs; iexact Hs2
  isplitl [Hn0 Hn1 Hn2]; · iframe
  isplitl [Hoe He0]
  · isplitl [Hoe]; · iexact Hoe
    unfold anyE; iexists fe; iexact He0
  isplitl [Hx]; · unfold stgX; iexact Hx
  unfold stgO; iexists g1; iexact Hout

end Cert.KernelIdeal.Rs

end
-- ==== Proof.RsSend.lean ====
/-
  The two kinds of remote copy of the protocol, as rules over the slots.

  A ring copy moves send slot s of device c into receive slot s of its next device along y, paying the one duty of c's
  send cell (the slot comes back to c when the copy has read it) and the one duty of the next device's receive cell
  (which hands that device the slot, reading as the source slot did). The exchange copy does the same from exchange
  slot 0 of c to exchange slot 1 of the device with the other x. The addressed device is given as any n equal to the
  peer, so that the printed device-id chain can stand in the program text.
-/
import proofs.«901043_g7700000000001044_dist_rs_v7x_xyz2x4x4_y_m1024_n512_bf16_1_alg».proof.Proof.RsCells

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 800000 in
theorem wp_send_ring (K : Dev nD × Fin 9 → ℕ) (c n : Dev nD) (hn : n = rgt c) (s : Fin 3) (ks kr : Fin 9)
    (hks : ks ≠ 0) (hks7 : ks.val < 7) (hkr : kr ≠ 0) (hkr7 : kr.val < 7)
    (qS qR : DmaSem sig) (hqS : csem ks = .dma qS) (hqR : csem kr = .dma qR)
    (V : Vec F S1x512x512 .bf16) (hpayS : payK (xstg m) c ks 0 = anyS c s) (hpayR : payK (xstg m) (rgt c) kr 0 = holdsR (rgt c) s V)
    {hsc : (rslot s : Memref sig (Dev.tc n : Thread nD τ).2.kind .vmem S512x512 .bf16).view.ref.isScScratch = false}
    {hsrc : (sslot s).view.WordExact} {hdst : (rslot s).view.WordExact}
    {hsem : DmaTarget.Typed .vmem (.dma qR) (.remote (Dev.tc n : Thread nD τ) (rslot s) (.dma qS) hsc)}
    {α : Type} {Q : α → sProp 𝕄} {k : PUnit → Prog (TpuEff nD τ sig (Elt F) Λ₀ .tc) α}
    (fs : Buf (Elt F) ((sslot s).view.loc (c : Thread nD τ))) (hfs : (sM).view.readAt (Elt F) (r3 s).toLoadRect fs = V)
    (fn : Buf (Elt F) ((rslot s).view.loc (rgt c : Thread nD τ))) (O : CellTallies nD τ sig Unit) (W : Waits sig Unit) :
    iprop(cellInv ER (Rd m) (K (c, ks)) ((c : Thread nD τ), .dma qS) ∗ cellInv ER (Rd m) (K (rgt c, kr)) ((rgt c : Thread nD τ), .dma qR)
        ∗ ((sslot s).view.loc (c : Thread nD τ) ↦[(sslot s).view.set]{fullShare} fs)
        ∗ ((rslot s).view.loc (rgt c : Thread nD τ) ↦[(rslot s).view.set]{fullShare} fn)
        ∗ owes (c : Thread nD τ) (O + tallyAt ((rgt c : Thread nD τ), .dma qR) () N3) W
        ∗ dutyTok ER ((c : Thread nD τ), .dma qS) 0 0 ∗ reached ER ((c : Thread nD τ), .dma qS) 0
        ∗ dutyTok ER ((rgt c : Thread nD τ), .dma qR) 0 0 ∗ reached ER ((rgt c : Thread nD τ), .dma qR) 0)
      ⊢ iprop(((cred (tallyAt ((c : Thread nD τ), .dma qS) () N3) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sslot s) (.remote (Dev.tc n : Thread nD τ) (rslot s) (.dma qS) hsc) (.dma qR) hsrc hdst hsem) k) Q) := by
  subst hn
  exact Rounds.wp_send_pointsTo 𝒱₀ ER (Rd m) (c : Thread nD τ) none (κ₁ := K (c, ks)) (κ₂ := K (rgt c, kr))
    (r₁ := 0) (r₂ := 0) (d₁ := 0) (d₂ := 0) (fd := fn)
    (mem_duties_p (xstg m) c _ ks hqS hks) (mem_duties_p (xstg m) (rgt c) _ kr hqR hkr)
    () () N3 (credit_r s) (amount_pring (xstg m) c _ ks hqS hks hks7 0) (amount_pring (xstg m) (rgt c) _ kr hqR hkr hkr7 0) O rfl (W := W)
    (by rw [payload_p (xstg m) c _ ks hqS, hpayS]; unfold anyS; iintro H; iexists _; iexact H)
    (by
      rw [payload_p (xstg m) (rgt c) _ kr hqR, hpayR]; unfold holdsR
      iintro H; iexists ((rslot s).view.write (Elt F) fn ((sslot s).view.read (Elt F) fs) Finset.univ)
      isplitr
      · ipureintro; rw [rM_read_copy]; exact hfs
      · iexact H)

set_option maxHeartbeats 800000 in
theorem wp_send_exch (K : Dev nD × Fin 9 → ℕ) (c n : Dev nD) (hn : n = oth c)
    (V : Vec F S1x512x512 .bf16) (hpayR : payK (xstg m) (oth c) 8 0 = holdsE (oth c) V)
    {hsc : (eslot 1 : Memref sig (Dev.tc n : Thread nD τ).2.kind .vmem S512x512 .bf16).view.ref.isScScratch = false}
    {hsrc : (eslot 0).view.WordExact} {hdst : (eslot 1).view.WordExact}
    {hsem : DmaTarget.Typed .vmem pXR (.remote (Dev.tc n : Thread nD τ) (eslot 1) pXS hsc)}
    {α : Type} {Q : α → sProp 𝕄} {k : PUnit → Prog (TpuEff nD τ sig (Elt F) Λ₀ .tc) α}
    (fs : Buf (Elt F) ((eslot 0).view.loc (c : Thread nD τ))) (hfs : (eM).view.readAt (Elt F) (r2 0).toLoadRect fs = V)
    (fn : Buf (Elt F) ((eslot 1).view.loc (oth c : Thread nD τ))) (O : CellTallies nD τ sig Unit) (W : Waits sig Unit) :
    iprop(cellInv ER (Rd m) (K (c, 7)) ((c : Thread nD τ), pXS) ∗ cellInv ER (Rd m) (K (oth c, 8)) ((oth c : Thread nD τ), pXR)
        ∗ ((eslot 0).view.loc (c : Thread nD τ) ↦[(eslot 0).view.set]{fullShare} fs)
        ∗ ((eslot 1).view.loc (oth c : Thread nD τ) ↦[(eslot 1).view.set]{fullShare} fn)
        ∗ owes (c : Thread nD τ) (O + tallyAt ((oth c : Thread nD τ), pXR) () NE) W
        ∗ dutyTok ER ((c : Thread nD τ), pXS) 0 0 ∗ reached ER ((c : Thread nD τ), pXS) 0
        ∗ dutyTok ER ((oth c : Thread nD τ), pXR) 0 0 ∗ reached ER ((oth c : Thread nD τ), pXR) 0)
      ⊢ iprop(((cred (tallyAt ((c : Thread nD τ), pXS) () NE) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (eslot 0) (.remote (Dev.tc n : Thread nD τ) (eslot 1) pXS hsc) pXR hsrc hdst hsem) k) Q) := by
  subst hn
  exact Rounds.wp_send_pointsTo 𝒱₀ ER (Rd m) (c : Thread nD τ) none (κ₁ := K (c, 7)) (κ₂ := K (oth c, 8))
    (r₁ := 0) (r₂ := 0) (d₁ := 0) (d₂ := 0) (fd := fn)
    (mem_duties_p (xstg m) c pXS 7 rfl (by decide)) (mem_duties_p (xstg m) (oth c) pXR 8 rfl (by decide))
    () () NE credit_e1 (amount_pexch (xstg m) c pXS 7 rfl (by decide) 0) (amount_pexch (xstg m) (oth c) pXR 8 rfl (by decide) 0) O rfl (W := W)
    (by rw [payload_p (xstg m) c pXS 7 rfl, payK_xsend]; unfold anyE; iintro H; iexists _; iexact H)
    (by
      rw [payload_p (xstg m) (oth c) pXR 8 rfl, hpayR]; unfold holdsE
      iintro H; iexists ((eslot 1).view.write (Elt F) fn ((eslot 0).view.read (Elt F) fs) Finset.univ)
      isplitr
      · ipureintro; rw [eM_read_copy]; exact hfs
      · iexact H)

end Cert.KernelIdeal.Rs

end
-- ==== Proof.RsPart3.lean ====
/-
  Ring step 0, first half: device c stores its first partial sum (its chunk y − 1, narrowed) into send slot 0, starts the
  copy of that slot into receive slot 0 of its next device — which it holds since the handshake —, and waits until the
  copy has read the slot, which then comes back; its send cell 0 is closed.
-/
import proofs.«901043_g7700000000001044_dist_rs_v7x_xyz2x4x4_y_m1024_n512_bf16_1_alg».proof.Proof.RsSend

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_part3 (K : Dev nD × Fin 9 → ℕ) (c : Dev nD) (v2 v8 v19 : BitVec 32) (W : Waits sig Unit) (Kt : BitVec 32 → sProp 𝕄) :
    iprop(known m K c ∗ anyS c 0 ∗ anyR (rgt c) 0 ∗ dutyTok ER (cell c 1) 0 0 ∗ dutyTok ER (cell (rgt c) 4) 0 0
        ∗ atPos ER (cell c 1) 0 ∅ 0 ∗ owes (c : Thread nD τ) (O4 c) W
        ∗ ((anyS c 0 ∗ semVal (cell c 1) 0 ∗ (∃ W', owes (c : Thread nD τ) (O3 c) W')) -∗ Kt (Scalar.addi 0#32 (Scalar.muli v2 16#32))))
      ⊢ wp frame (wpE (defs₀ (F := F)) 𝒱₀ c none) Set.univ
          (k0_part3 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v8 v19 (ldA (xstg m) c)) Kt := by
  simp only [k0_part3_eq_skeleton]; unfold k0_part3_skel
  simp only [Prog.lift, Prog.bind_op, Prog.bind_ret, Prog.pure_eq_ret]
  unfold known invs reacheds anyS anyR
  iintro ⟨⟨⟨#HI0, #HI1, #HI2, #HI3, #HI4, #HI5, #HI6, #HI7, #HI8, #HIl0, #HIr0, #HIo0, #HIr4, #HIr5, #HIr6, #HIo8⟩,
      ⟨#Rl0, #Rr0, #Ro0, #Rr4, #Rr5, #Rr6, #Ro8, #R1, #R2, #R3, #R7⟩, #Hlev⟩, ⟨%f0, Hs0⟩, ⟨%fn, Hn0⟩, T1, Tr4, Hp1, HO, Hk⟩
  -- the slot is read, then the first partial sum is stored into it
  iapply (wp_load 𝒱₀ (c : Thread nD τ) none Set.univ (m := sM) (sM_load_sub 0)) $$ Hs0; iintro Hs0
  iapply (wp_store 𝒱₀ (c : Thread nD τ) none Set.univ (m := sM) (r := r3 0) (Mk := Finset.univ) (sM_store_sub 0)) $$ Hs0; iintro Hs0
  -- the copy of the slot into the next device's receive slot 0
  unfold O4
  iapply (wp_send_ring m K c _ (dev4_eq c) 0 1 4 (by decide) (by decide) (by decide) (by decide) _ _ rfl rfl
      (part0 (xstg m) c) rfl (by rw [payK_recv0, lft_rgt]) _ (sM_read_store 0 f0 _) fn (O3 c) W) $$ [Hs0 Hn0 HO T1 Tr4]
  · isplitr; · iexact HI1
    isplitr; · iexact HIr4
    isplitl [Hs0]; · iexact Hs0
    isplitl [Hn0]; · iexact Hn0
    isplitl [HO]; · iexact HO
    isplitl [T1]; · iexact T1
    isplitr; · iexact R1
    isplitl [Tr4]; · iexact Tr4
    iexact Rr4
  iintro ⟨Cs, HO⟩
  -- the wait until the copy has read the slot: the slot comes back
  iapply (Rounds.wp_wait_rest_token 𝒱₀ ER (Rd m) (c : Thread nD τ) none (κ := K (c, 1))
      (wpE_waitDma2_eq 𝒱₀ (c : Thread nD τ) none Set.univ) (Set.mem_univ _) () (O := O3 c) (W := W) (R := 0) (m := 0) (T := ∅)
      (show 0 + (sslot 0).view.dmaCredit = (Rd m).expect ((c : Thread nD τ), pS0) 0 from by
        rw [Nat.zero_add, expect_pring (xstg m) c pS0 1 rfl (by decide) (by decide)])) $$ [Cs HO Hp1]
  · isplitr; · iexact HI1
    isplitl [Cs]; · iexact Cs
    isplitl [HO]; · iexact HO
    isplitr; · iapply (mayWait_send0 c); iexact Hlev
    iexact Hp1
  iintro ⟨HO, Hp1, -, Hpay⟩
  ihave Hs0 := (Entails.of_eq ((rest_p (xstg m) c pS0 1 rfl (by decide)).trans (payK_send0 (xstg m) c 0))) $$ Hpay
  unfold anyS
  -- nothing more can land on the send cell: it is closed, its counter at zero
  imod (Rounds.cell_close ER (Rd m) (Set.mem_univ (K (c, 1))) (fun h => h) (R := 0 + 1) (duties_later_p (xstg m) c pS0 1 rfl)) $$ [Hp1] with Hz
  · isplitr; · iexact HI1
    iexact Hp1
  rw [wp_ret]; imodintro
  iapply Hk
  isplitl [Hs0]; · iexact Hs0
  isplitl [Hz]; · iexact Hz
  iexists _; iexact HO

end Cert.KernelIdeal.Rs

end
-- ==== Proof.RsPart4.lean ====
/-
  Ring step 0, second half: device c waits for the previous device's copy into its receive slot 0, which comes back holding
  that device's first partial sum; its receive cell 0 is closed. It loads that slot, its own chunk y − 2, adds them, and
  stores the narrowed sum into send slot 1.
-/
import proofs.«901043_g7700000000001044_dist_rs_v7x_xyz2x4x4_y_m1024_n512_bf16_1_alg».proof.Proof.RsSend

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_part4 (K : Dev nD × Fin 9 → ℕ) (c : Dev nD) (v5 v8 v19 v51 v93 : BitVec 32) (W : Waits sig Unit) (Kt : PUnit → sProp 𝕄) :
    iprop(known m K c ∗ cred (tallyAt (cell c 4) () N3) ∗ atPos ER (cell c 4) 0 ∅ 0 ∗ owes (c : Thread nD τ) (O3 c) W
        ∗ stgX m c ∗ anyS c 1
        ∗ ((anyR c 0 ∗ semVal (cell c 4) 0 ∗ (∃ W', owes (c : Thread nD τ) (O3 c) W') ∗ stgX m c ∗ holdsS c 1 (part1 (xstg m) c)) -∗ Kt ⟨⟩))
      ⊢ wp frame (wpE (defs₀ (F := F)) 𝒱₀ c none) Set.univ
          (k0_part4 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v5 v8 v19 v51 v93) Kt := by
  simp only [k0_part4_eq_skeleton]; unfold k0_part4_skel
  simp only [Prog.lift, Prog.bind_op, Prog.bind_ret, Prog.pure_eq_ret]
  unfold known invs reacheds stgX anyS
  iintro ⟨⟨⟨#HI0, #HI1, #HI2, #HI3, #HI4, #HI5, #HI6, #HI7, #HI8, #HIl0, #HIr0, #HIo0, #HIr4, #HIr5, #HIr6, #HIo8⟩,
      ⟨#Rl0, #Rr0, #Ro0, #Rr4, #Rr5, #Rr6, #Ro8, #R1, #R2, #R3, #R7⟩, #Hlev⟩, C4, Hp4, HO, Hx, ⟨%fs, Hs1⟩, Hk⟩
  -- the wait for the previous device's copy into receive slot 0: the slot comes back holding that device's first partial sum
  iapply (Rounds.wp_wait_rest_token 𝒱₀ ER (Rd m) (c : Thread nD τ) none (κ := K (c, 4))
      (wpE_waitDma2_eq 𝒱₀ (c : Thread nD τ) none Set.univ) (Set.mem_univ _) () (O := O3 c) (W := W) (R := 0) (m := 0) (T := ∅)
      (show 0 + (rslot 0).view.dmaCredit = (Rd m).expect ((c : Thread nD τ), pR0) 0 from by
        rw [Nat.zero_add, expect_pring (xstg m) c pR0 4 rfl (by decide) (by decide)])) $$ [C4 HO Hp4]
  · isplitr; · iexact HI4
    isplitl [C4]; · iexact C4
    isplitl [HO]; · iexact HO
    isplitr; · iapply (mayWait_recv0 c); iexact Hlev
    iexact Hp4
  iintro ⟨HO, Hp4, -, Hpay⟩
  ihave Hr0 := (Entails.of_eq ((rest_p (xstg m) c pR0 4 rfl (by decide)).trans (payK_recv0 (xstg m) c 0))) $$ Hpay
  unfold holdsR
  icases Hr0 with ⟨%fr, %hfr, Hr0⟩
  -- nothing more can land on the receive cell: it is closed, its counter at zero
  imod (Rounds.cell_close ER (Rd m) (Set.mem_univ (K (c, 4))) (fun h => h) (R := 0 + 1) (duties_later_p (xstg m) c pR0 4 rfl)) $$ [Hp4] with Hz
  · isplitr; · iexact HI4
    iexact Hp4
  -- the received sum and this device's chunk y − 2; their narrowed sum goes into send slot 1
  iapply (wp_load 𝒱₀ (c : Thread nD τ) none Set.univ (m := rM) (rM_load_sub 0)) $$ Hr0; iintro Hr0
  iapply (wp_load 𝒱₀ (c : Thread nD τ) none Set.univ (m := xM) (Finset.subset_univ _)) $$ Hx; iintro Hx
  iapply (wp_load 𝒱₀ (c : Thread nD τ) none Set.univ (m := sM) (sM_load_sub 1)) $$ Hs1; iintro Hs1
  iapply (wp_store 𝒱₀ (c : Thread nD τ) none Set.univ (m := sM) (r := r3 1) (Mk := Finset.univ) (sM_store_sub 1)) $$ Hs1; iintro Hs1
  rw [wp_ret]; imodintro
  iapply Hk
  isplitl [Hr0]; · unfold anyR; iexists fr; iexact Hr0
  isplitl [Hz]; · iexact Hz
  isplitl [HO]; · iexists _; iexact HO
  isplitl [Hx]; · iexact Hx
  unfold holdsS
  iexists ((sM).access (r3 1)).write (Elt F) fs
    (k0_pay3 ((rM).view.readAt (Elt F) (r3 0).toLoadRect fr) ((xM).view.readAt (Elt F) (rectB c 0).toLoadRect (xstg m c))) Finset.univ
  isplitr
  · ipureintro
    refine (sM_read_store (Val := Elt F) 1 fs _).trans ?_
    unfold part1 ldB
    rw [← hfr]
  · iexact Hs1

end Cert.KernelIdeal.Rs

end
-- ==== Proof.RsPart5.lean ====
/-
  Ring step 1, first half: device c starts the copy of send slot 1, holding its second partial sum, into receive slot 1 of
  its next device, and waits until the copy has read the slot, which then comes back; its send cell 1 is closed.
-/
import proofs.«901043_g7700000000001044_dist_rs_v7x_xyz2x4x4_y_m1024_n512_bf16_1_alg».proof.Proof.RsSend

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_part5 (K : Dev nD × Fin 9 → ℕ) (c : Dev nD) (v2 v8 v19 : BitVec 32) (W : Waits sig Unit) (Kt : PUnit → sProp 𝕄) :
    iprop(known m K c ∗ holdsS c 1 (part1 (xstg m) c) ∗ anyR (rgt c) 1 ∗ dutyTok ER (cell c 2) 0 0 ∗ dutyTok ER (cell (rgt c) 5) 0 0
        ∗ atPos ER (cell c 2) 0 ∅ 0 ∗ owes (c : Thread nD τ) (O3 c) W
        ∗ ((anyS c 1 ∗ semVal (cell c 2) 0 ∗ (∃ W', owes (c : Thread nD τ) (O2 c) W')) -∗ Kt ⟨⟩))
      ⊢ wp frame (wpE (defs₀ (F := F)) 𝒱₀ c none) Set.univ
          (k0_part5 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v8 v19) Kt := by
  simp only [k0_part5_eq_skeleton]; unfold k0_part5_skel
  simp only [Prog.lift, Prog.bind_op, Prog.bind_ret, Prog.pure_eq_ret]
  unfold known invs reacheds holdsS anyR
  iintro ⟨⟨⟨#HI0, #HI1, #HI2, #HI3, #HI4, #HI5, #HI6, #HI7, #HI8, #HIl0, #HIr0, #HIo0, #HIr4, #HIr5, #HIr6, #HIo8⟩,
      ⟨#Rl0, #Rr0, #Ro0, #Rr4, #Rr5, #Rr6, #Ro8, #R1, #R2, #R3, #R7⟩, #Hlev⟩, ⟨%fs, %hfs, Hs1⟩, ⟨%fn, Hn1⟩, T2, Tr5, Hp2, HO, Hk⟩
  -- the copy of send slot 1 into the next device's receive slot 1
  unfold O3
  iapply (wp_send_ring m K c _ (dev5_eq c) 1 2 5 (by decide) (by decide) (by decide) (by decide) _ _ rfl rfl
      (part1 (xstg m) c) rfl (by rw [payK_recv1, lft_rgt]) fs hfs fn (O2 c) W) $$ [Hs1 Hn1 HO T2 Tr5]
  · isplitr; · iexact HI2
    isplitr; · iexact HIr5
    isplitl [Hs1]; · iexact Hs1
    isplitl [Hn1]; · iexact Hn1
    isplitl [HO]; · iexact HO
    isplitl [T2]; · iexact T2
    isplitr; · iexact R2
    isplitl [Tr5]; · iexact Tr5
    iexact Rr5
  iintro ⟨Cs, HO⟩
  -- the wait until the copy has read the slot: the slot comes back
  iapply (Rounds.wp_wait_rest_token 𝒱₀ ER (Rd m) (c : Thread nD τ) none (κ := K (c, 2))
      (wpE_waitDma2_eq 𝒱₀ (c : Thread nD τ) none Set.univ) (Set.mem_univ _) () (O := O2 c) (W := W) (R := 0) (m := 0) (T := ∅)
      (show 0 + (sslot 1).view.dmaCredit = (Rd m).expect ((c : Thread nD τ), pS1) 0 from by
        rw [Nat.zero_add, expect_pring (xstg m) c pS1 2 rfl (by decide) (by decide)])) $$ [Cs HO Hp2]
  · isplitr; · iexact HI2
    isplitl [Cs]; · iexact Cs
    isplitl [HO]; · iexact HO
    isplitr; · iapply (mayWait_send1 c); iexact Hlev
    iexact Hp2
  iintro ⟨HO, Hp2, -, Hpay⟩
  ihave Hs1 := (Entails.of_eq ((rest_p (xstg m) c pS1 2 rfl (by decide)).trans (payK_send1 (xstg m) c 0))) $$ Hpay
  -- nothing more can land on the send cell: it is closed, its counter at zero
  imod (Rounds.cell_close ER (Rd m) (Set.mem_univ (K (c, 2))) (fun h => h) (R := 0 + 1) (duties_later_p (xstg m) c pS1 2 rfl)) $$ [Hp2] with Hz
  · isplitr; · iexact HI2
    iexact Hp2
  rw [wp_ret]; imodintro
  iapply Hk
  isplitl [Hs1]; · iexact Hs1
  isplitl [Hz]; · iexact Hz
  iexists _; iexact HO

end Cert.KernelIdeal.Rs

end
-- ==== Proof.RsPart6.lean ====
/-
  Ring step 1, second half: device c waits for the previous device's copy into its receive slot 1, which comes back holding
  that device's second partial sum; its receive cell 1 is closed. It loads that slot, its own chunk y − 3, adds them, and
  stores the narrowed sum into send slot 2.
-/
import proofs.«901043_g7700000000001044_dist_rs_v7x_xyz2x4x4_y_m1024_n512_bf16_1_alg».proof.Proof.RsSend

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_part6 (K : Dev nD × Fin 9 → ℕ) (c : Dev nD) (v2 v5 v19 v51 : BitVec 32) (W : Waits sig Unit) (Kt : BitVec 32 → sProp 𝕄) :
    iprop(known m K c ∗ cred (tallyAt (cell c 5) () N3) ∗ atPos ER (cell c 5) 0 ∅ 0 ∗ owes (c : Thread nD τ) (O2 c) W
        ∗ stgX m c ∗ anyS c 2
        ∗ ((anyR c 1 ∗ semVal (cell c 5) 0 ∗ (∃ W', owes (c : Thread nD τ) (O2 c) W') ∗ stgX m c ∗ holdsS c 2 (part2 (xstg m) c))
            -∗ Kt (Scalar.addi (Scalar.addi 0#32 (Scalar.muli v2 16#32)) (Scalar.muli v19 4#32))))
      ⊢ wp frame (wpE (defs₀ (F := F)) 𝒱₀ c none) Set.univ
          (k0_part6 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v5 v19 v51) Kt := by
  simp only [k0_part6_eq_skeleton]; unfold k0_part6_skel
  simp only [Prog.lift, Prog.bind_op, Prog.bind_ret, Prog.pure_eq_ret]
  unfold known invs reacheds anyS
  iintro ⟨⟨⟨#HI0, #HI1, #HI2, #HI3, #HI4, #HI5, #HI6, #HI7, #HI8, #HIl0, #HIr0, #HIo0, #HIr4, #HIr5, #HIr6, #HIo8⟩,
      ⟨#Rl0, #Rr0, #Ro0, #Rr4, #Rr5, #Rr6, #Ro8, #R1, #R2, #R3, #R7⟩, #Hlev⟩, C5, Hp5, HO, Hx, ⟨%f2, Hs2⟩, Hk⟩
  -- the wait for the previous device's copy: receive slot 1 comes back holding its second partial sum
  iapply (Rounds.wp_wait_rest_token 𝒱₀ ER (Rd m) (c : Thread nD τ) none (κ := K (c, 5))
      (wpE_waitDma2_eq 𝒱₀ (c : Thread nD τ) none Set.univ) (Set.mem_univ _) () (O := O2 c) (W := W) (R := 0) (m := 0) (T := ∅)
      (show 0 + (rslot 1).view.dmaCredit = (Rd m).expect ((c : Thread nD τ), pR1) 0 from by
        rw [Nat.zero_add, expect_pring (xstg m) c pR1 5 rfl (by decide) (by decide)])) $$ [C5 HO Hp5]
  · isplitr; · iexact HI5
    isplitl [C5]; · iexact C5
    isplitl [HO]; · iexact HO
    isplitr; · iapply (mayWait_recv1 c); iexact Hlev
    iexact Hp5
  iintro ⟨HO, Hp5, -, Hpay⟩
  ihave Hr1 := (Entails.of_eq ((rest_p (xstg m) c pR1 5 rfl (by decide)).trans (payK_recv1 (xstg m) c 0))) $$ Hpay
  -- nothing more can land on the receive cell: it is closed, its counter at zero
  imod (Rounds.cell_close ER (Rd m) (Set.mem_univ (K (c, 5))) (fun h => h) (R := 0 + 1) (duties_later_p (xstg m) c pR1 5 rfl)) $$ [Hp5] with Hz
  · isplitr; · iexact HI5
    iexact Hp5
  unfold holdsR
  icases Hr1 with ⟨%fr, %hfr, Hr⟩
  -- the received sum, the device's own chunk, and the send slot are read; the narrowed sum is stored
  iapply (wp_load 𝒱₀ (c : Thread nD τ) none Set.univ (m := rM) (rM_load_sub 1)) $$ Hr; iintro Hr
  unfold stgX
  iapply (wp_load 𝒱₀ (c : Thread nD τ) none Set.univ (m := xM) (Finset.subset_univ _)) $$ Hx; iintro Hx
  iapply (wp_load 𝒱₀ (c : Thread nD τ) none Set.univ (m := sM) (sM_load_sub 2)) $$ Hs2; iintro Hs2
  iapply (wp_store 𝒱₀ (c : Thread nD τ) none Set.univ (m := sM) (r := r3 2) (Mk := Finset.univ) (sM_store_sub 2)) $$ Hs2; iintro Hs2
  rw [wp_ret]; imodintro
  iapply Hk
  isplitl [Hr]; · unfold anyR; iexists fr; iexact Hr
  isplitl [Hz]; · iexact Hz
  isplitl [HO]; · iexists _; iexact HO
  isplitl [Hx]; · iexact Hx
  unfold holdsS
  iexists (View.write (Elt F) ((sM).access (r3 2)) f2
    (k0_pay4 (View.readAt (Elt F) rM.view (r3 1).toLoadRect fr) (View.readAt (Elt F) xM.view (rectB c 1).toLoadRect (xstg m c))) Finset.univ)
  isplitr
  · ipureintro
    rw [sM_read_store 2]
    unfold part2 ldB
    rw [hfr]
  · iexact Hs2

end Cert.KernelIdeal.Rs

end
-- ==== Proof.RsPart7.lean ====
/-
  Ring step 2, the protocol: device c starts the copy of send slot 2, holding its third partial sum, into receive slot 2 of
  its next device, waits until the copy has read the slot, and waits for the previous device's copy into its own receive
  slot 2, which comes back holding that device's third partial sum; its send cell 2 and receive cell 2 are closed.
-/
import proofs.«901043_g7700000000001044_dist_rs_v7x_xyz2x4x4_y_m1024_n512_bf16_1_alg».proof.Proof.RsSend

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_part7 (K : Dev nD × Fin 9 → ℕ) (c : Dev nD) (v2 v5 v8 v19 v189 : BitVec 32) (W : Waits sig Unit)
    (Kt : (Σ' (v218 : BitVec 32), BitVec 32) → sProp 𝕄) :
    iprop(known m K c ∗ holdsS c 2 (part2 (xstg m) c) ∗ anyR (rgt c) 2 ∗ dutyTok ER (cell c 3) 0 0 ∗ dutyTok ER (cell (rgt c) 6) 0 0
        ∗ atPos ER (cell c 3) 0 ∅ 0 ∗ cred (tallyAt (cell c 6) () N3) ∗ atPos ER (cell c 6) 0 ∅ 0 ∗ owes (c : Thread nD τ) (O2 c) W
        ∗ ((anyS c 2 ∗ semVal (cell c 3) 0 ∗ holdsR c 2 (part2 (xstg m) (lft c)) ∗ semVal (cell c 6) 0 ∗ (∃ W', owes (c : Thread nD τ) (O1 c) W'))
            -∗ Kt ⟨Scalar.subi v5 2#32, 2#32⟩))
      ⊢ wp frame (wpE (defs₀ (F := F)) 𝒱₀ c none) Set.univ
          (k0_part7 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v5 v8 v19 v189) Kt := by
  simp only [k0_part7_eq_skeleton]; unfold k0_part7_skel
  simp only [Prog.lift, Prog.bind_op, Prog.bind_ret, Prog.pure_eq_ret]
  unfold known invs reacheds holdsS anyR
  iintro ⟨⟨⟨#HI0, #HI1, #HI2, #HI3, #HI4, #HI5, #HI6, #HI7, #HI8, #HIl0, #HIr0, #HIo0, #HIr4, #HIr5, #HIr6, #HIo8⟩,
      ⟨#Rl0, #Rr0, #Ro0, #Rr4, #Rr5, #Rr6, #Ro8, #R1, #R2, #R3, #R7⟩, #Hlev⟩, ⟨%fs, %hfs, Hs2⟩, ⟨%fn, Hn2⟩, T3, Tr6, Hp3, Cr, Hp6, HO, Hk⟩
  -- the copy of send slot 2 into the next device's receive slot 2
  unfold O2
  iapply (wp_send_ring m K c _ (dev6_eq c) 2 3 6 (by decide) (by decide) (by decide) (by decide) _ _ rfl rfl
      (part2 (xstg m) c) rfl (by rw [payK_recv2, lft_rgt]) fs hfs fn (O1 c) W) $$ [Hs2 Hn2 HO T3 Tr6]
  · isplitr; · iexact HI3
    isplitr; · iexact HIr6
    isplitl [Hs2]; · iexact Hs2
    isplitl [Hn2]; · iexact Hn2
    isplitl [HO]; · iexact HO
    isplitl [T3]; · iexact T3
    isplitr; · iexact R3
    isplitl [Tr6]; · iexact Tr6
    iexact Rr6
  iintro ⟨Cs, HO⟩
  -- the wait until the copy has read the slot: the slot comes back
  iapply (Rounds.wp_wait_rest_token 𝒱₀ ER (Rd m) (c : Thread nD τ) none (κ := K (c, 3))
      (wpE_waitDma2_eq 𝒱₀ (c : Thread nD τ) none Set.univ) (Set.mem_univ _) () (O := O1 c) (W := W) (R := 0) (m := 0) (T := ∅)
      (show 0 + (sslot 2).view.dmaCredit = (Rd m).expect ((c : Thread nD τ), pS2) 0 from by
        rw [Nat.zero_add, expect_pring (xstg m) c pS2 3 rfl (by decide) (by decide)])) $$ [Cs HO Hp3]
  · isplitr; · iexact HI3
    isplitl [Cs]; · iexact Cs
    isplitl [HO]; · iexact HO
    isplitr; · iapply (mayWait_send2 c); iexact Hlev
    iexact Hp3
  iintro ⟨HO, Hp3, -, Hpay⟩
  ihave Hs2 := (Entails.of_eq ((rest_p (xstg m) c pS2 3 rfl (by decide)).trans (payK_send2 (xstg m) c 0))) $$ Hpay
  -- nothing more can land on the send cell: it is closed, its counter at zero
  imod (Rounds.cell_close ER (Rd m) (Set.mem_univ (K (c, 3))) (fun h => h) (R := 0 + 1) (duties_later_p (xstg m) c pS2 3 rfl)) $$ [Hp3] with Hz3
  · isplitr; · iexact HI3
    iexact Hp3
  -- the wait for the previous device's copy: receive slot 2 comes back holding that device's third partial sum
  iapply (Rounds.wp_wait_rest_token 𝒱₀ ER (Rd m) (c : Thread nD τ) none (κ := K (c, 6))
      (wpE_waitDma2_eq 𝒱₀ (c : Thread nD τ) none Set.univ) (Set.mem_univ _) () (O := O1 c) (W := insert (pS2, ()) W) (R := 0) (m := 0) (T := ∅)
      (show 0 + (rslot 2).view.dmaCredit = (Rd m).expect ((c : Thread nD τ), pR2) 0 from by
        rw [Nat.zero_add, expect_pring (xstg m) c pR2 6 rfl (by decide) (by decide)])) $$ [Cr HO Hp6]
  · isplitr; · iexact HI6
    isplitl [Cr]; · iexact Cr
    isplitl [HO]; · iexact HO
    isplitr; · iapply (mayWait_recv2 c); iexact Hlev
    iexact Hp6
  iintro ⟨HO, Hp6, -, Hpay⟩
  ihave Hr2 := (Entails.of_eq ((rest_p (xstg m) c pR2 6 rfl (by decide)).trans (payK_recv2 (xstg m) c 0))) $$ Hpay
  -- the receive cell is closed, its counter at zero
  imod (Rounds.cell_close ER (Rd m) (Set.mem_univ (K (c, 6))) (fun h => h) (R := 0 + 1) (duties_later_p (xstg m) c pR2 6 rfl)) $$ [Hp6] with Hz6
  · isplitr; · iexact HI6
    iexact Hp6
  rw [wp_ret]; imodintro
  iapply Hk
  isplitl [Hs2]; · iexact Hs2
  isplitl [Hz3]; · iexact Hz3
  isplitl [Hr2]; · iexact Hr2
  isplitl [Hz6]; · iexact Hz6
  iexists _; iexact HO

end Cert.KernelIdeal.Rs

end
-- ==== Proof.RsPart8.lean ====
/-
  Ring step 2, the arithmetic: device c loads its receive slot 2 (the previous device's third partial sum) and its own chunk
  y, adds them — the complete sum of chunk y over the ring, for the rows of its half —, stores it into those rows of the
  staged result, and stores it, narrowed, into exchange slot 0.
-/
import proofs.«901043_g7700000000001044_dist_rs_v7x_xyz2x4x4_y_m1024_n512_bf16_1_alg».proof.Proof.RsSend

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_part8 (c : Dev nD) (v5 v8 v31 v51 v218 c2 : BitVec 32) (g : OTy F) (Kt : PUnit → sProp 𝕄) :
    iprop(holdsR c 2 (part2 (xstg m) (lft c)) ∗ stgX m c ∗ stgO c g ∗ anyE c 0
        ∗ ((anyR c 2 ∗ stgX m c ∗ stgO c (((oM).access (rectOwn c)).write (Elt F) g (full (xstg m) c) Finset.univ)
              ∗ holdsE0 c (fullNarrow (xstg m) c)) -∗ Kt ⟨⟩))
      ⊢ wp frame (wpE (defs₀ (F := F)) 𝒱₀ c none) Set.univ
          (k0_part8 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v5 v8 v31 v51 v218 c2) Kt := by
  simp only [k0_part8_eq_skeleton]; unfold k0_part8_skel
  simp only [Prog.lift, Prog.bind_op, Prog.bind_ret, Prog.pure_eq_ret]
  unfold holdsR stgX stgO anyE
  iintro ⟨⟨%fr, %hfr, Hr⟩, Hx, Ho, ⟨%fe, He⟩, Hk⟩
  -- the previous device's third partial sum, from receive slot 2, and this device's own chunk y
  iapply (wp_load 𝒱₀ (c : Thread nD τ) none Set.univ (m := rM) (rM_load_sub 2)) $$ Hr; iintro Hr
  iapply (wp_load 𝒱₀ (c : Thread nD τ) none Set.univ (m := xM) (Finset.subset_univ _)) $$ Hx; iintro Hx
  -- the complete sum goes into the device's own rows of the staged result
  iapply (wp_load 𝒱₀ (c : Thread nD τ) none Set.univ (m := oM) (Finset.subset_univ _)) $$ Ho; iintro Ho
  iapply (wp_store 𝒱₀ (c : Thread nD τ) none Set.univ (m := oM) (r := rectOwn c) (Mk := Finset.univ) (Finset.subset_univ _)) $$ Ho; iintro Ho
  -- and, narrowed, into exchange slot 0
  iapply (wp_load 𝒱₀ (c : Thread nD τ) none Set.univ (m := eM) (eM_load_sub 0)) $$ He; iintro He
  iapply (wp_store 𝒱₀ (c : Thread nD τ) none Set.univ (m := eM) (r := r2 0) (Mk := Finset.univ) (eM_store_sub 0)) $$ He; iintro He
  rw [wp_ret]; imodintro
  iapply Hk
  isplitl [Hr]; · unfold anyR; iexists fr; iexact Hr
  isplitl [Hx]; · iexact Hx
  isplitl [Ho]
  · unfold full ldB
    rw [← hfr]
    iexact Ho
  unfold holdsE0
  iexists ((eM).access (r2 0)).write (Elt F) fe
    (k0_pay6 ((rM).view.readAt (Elt F) (r3 2).toLoadRect fr) ((xM).view.readAt (Elt F) (rectB c 2).toLoadRect (xstg m c))) Finset.univ
  isplitr
  · ipureintro
    refine (eM_read_store (Val := Elt F) 0 fe _).trans ?_
    unfold fullNarrow ldB
    rw [← hfr]
  · iexact He

end Cert.KernelIdeal.Rs

end
-- ==== Proof.RsBody.lean ====
/-
  The body of one device, from what it holds at the start to what it holds at the end: the entry handshake, the three
  ring steps, and the exchange of the complete sums across x, one after the other, each part using only what it touches.
-/
import proofs.«901043_g7700000000001044_dist_rs_v7x_xyz2x4x4_y_m1024_n512_bf16_1_alg».proof.Proof.RsStageA
import proofs.«901043_g7700000000001044_dist_rs_v7x_xyz2x4x4_y_m1024_n512_bf16_1_alg».proof.Proof.RsPart3
import proofs.«901043_g7700000000001044_dist_rs_v7x_xyz2x4x4_y_m1024_n512_bf16_1_alg».proof.Proof.RsPart4
import proofs.«901043_g7700000000001044_dist_rs_v7x_xyz2x4x4_y_m1024_n512_bf16_1_alg».proof.Proof.RsPart5
import proofs.«901043_g7700000000001044_dist_rs_v7x_xyz2x4x4_y_m1024_n512_bf16_1_alg».proof.Proof.RsPart6
import proofs.«901043_g7700000000001044_dist_rs_v7x_xyz2x4x4_y_m1024_n512_bf16_1_alg».proof.Proof.RsPart7
import proofs.«901043_g7700000000001044_dist_rs_v7x_xyz2x4x4_y_m1024_n512_bf16_1_alg».proof.Proof.RsPart8

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 3200000 in
/-- The body of device c, from `bodyPre` to `bodyPost`. -/
theorem sound_body (K : Dev nD × Fin 9 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton]; unfold cc0_body_skel
  rw [wp_bind]
  simp only [k0_part1_eq_skeleton]; unfold k0_part1_skel
  simp only [Prog.lift, Prog.bind_op, Prog.bind_ret, Prog.pure_eq_ret, wp_deviceId, wp_ret]
  iintro ⟨Hpre, Hpost⟩
  imodintro
  -- the entry handshake and the first load
  rw [wp_bind]
  iapply (wp_handshake m ρ K c _ _ _ _ _ _ _ _)
  isplitl [Hpre]; · iexact Hpre
  iintro ⟨#Hkn, HA⟩
  unfold stA
  icases HA with ⟨⟨Hp1, Hp2, Hp3, Hp4, Hp5, Hp6, Hp7, Hp8⟩, ⟨Tr4, Tr5, Tr6, To8, T1, T2, T3, T7⟩, ⟨C4, C5, C6, C8⟩, ⟨%W1, HO⟩,
    ⟨S0, S1, S2⟩, ⟨N0, N1, N2⟩, ⟨Eo, E0⟩, ⟨Hx, ⟨%g, Hout⟩⟩⟩
  dsimp only
  -- ring step 0
  rw [wp_bind]
  iapply (wp_part3 m K c _ _ _ W1 _)
  isplitr; · iexact Hkn
  isplitl [S0]; · iexact S0
  isplitl [N0]; · iexact N0
  isplitl [T1]; · iexact T1
  isplitl [Tr4]; · iexact Tr4
  isplitl [Hp1]; · iexact Hp1
  isplitl [HO]; · iexact HO
  iintro ⟨S0, Z1, ⟨%W2, HO⟩⟩
  rw [wp_bind]
  iapply (wp_part4 m K c _ _ _ _ _ W2 _)
  isplitr; · iexact Hkn
  isplitl [C4]; · iexact C4
  isplitl [Hp4]; · iexact Hp4
  isplitl [HO]; · iexact HO
  isplitl [Hx]; · iexact Hx
  isplitl [S1]; · iexact S1
  iintro ⟨M0, Z4, ⟨%W3, HO⟩, Hx, S1⟩
  -- ring step 1
  rw [wp_bind]
  iapply (wp_part5 m K c _ _ _ W3 _)
  isplitr; · iexact Hkn
  isplitl [S1]; · iexact S1
  isplitl [N1]; · iexact N1
  isplitl [T2]; · iexact T2
  isplitl [Tr5]; · iexact Tr5
  isplitl [Hp2]; · iexact Hp2
  isplitl [HO]; · iexact HO
  iintro ⟨S1, Z2, ⟨%W4, HO⟩⟩
  rw [wp_bind]
  iapply (wp_part6 m K c _ _ _ _ W4 _)
  isplitr; · iexact Hkn
  isplitl [C5]; · iexact C5
  isplitl [Hp5]; · iexact Hp5
  isplitl [HO]; · iexact HO
  isplitl [Hx]; · iexact Hx
  isplitl [S2]; · iexact S2
  iintro ⟨M1, Z5, ⟨%W5, HO⟩, Hx, S2⟩
  -- ring step 2
  rw [wp_bind]
  iapply (wp_part7 m K c _ _ _ _ _ W5 _)
  isplitr; · iexact Hkn
  isplitl [S2]; · iexact S2
  isplitl [N2]; · iexact N2
  isplitl [T3]; · iexact T3
  isplitl [Tr6]; · iexact Tr6
  isplitl [Hp3]; · iexact Hp3
  isplitl [C6]; · iexact C6
  isplitl [Hp6]; · iexact Hp6
  isplitl [HO]; · iexact HO
  iintro ⟨S2, Z3, R2, Z6, ⟨%W6, HO⟩⟩
  rw [wp_bind]
  iapply (wp_part8 m c _ _ _ _ _ _ g _)
  isplitl [R2]; · iexact R2
  isplitl [Hx]; · iexact Hx
  isplitl [Hout]; · iexact Hout
  isplitl [E0]; · iexact E0
  iintro ⟨M2, Hx, Hout, E0⟩
  -- the exchange across x: the complete sum of this device's half, narrowed, goes to the other-x device
  unfold known invs reacheds
  icases Hkn with ⟨⟨#HI0, #HI1, #HI2, #HI3, #HI4, #HI5, #HI6, #HI7, #HI8, #HIl0, #HIr0, #HIo0, #HIr4, #HIr5, #HIr6, #HIo8⟩,
      ⟨#Rl0, #Rr0, #Ro0, #Rr4, #Rr5, #Rr6, #Ro8, #R1, #R2', #R3, #R7⟩, #Hlev⟩
  unfold holdsE0 anyE
  icases E0 with ⟨%fe, %hfe, E0⟩
  icases Eo with ⟨%fo, Eo⟩
  unfold O1
  iapply (wp_send_exch m K c _ (dev7_eq c) (fullNarrow (xstg m) c) (by rw [payK_xrecv, oth_oth]) fe hfe fo 0 W6) $$ [E0 Eo HO T7 To8]
  · isplitr; · iexact HI7
    isplitr; · iexact HIo8
    isplitl [E0]; · iexact E0
    isplitl [Eo]; · iexact Eo
    isplitl [HO]; · iexact HO
    isplitl [T7]; · iexact T7
    isplitr; · iexact R7
    isplitl [To8]; · iexact To8
    iexact Ro8
  iintro ⟨Cx, HO⟩
  -- the wait until the copy has read exchange slot 0: the slot comes back
  iapply (Rounds.wp_wait_rest_token 𝒱₀ ER (Rd m) (c : Thread nD τ) none (κ := K (c, 7))
      (wpE_waitDma2_eq 𝒱₀ (c : Thread nD τ) none Set.univ) (Set.mem_univ _) () (O := 0) (W := W6) (R := 0) (m := 0) (T := ∅)
      (show 0 + (eslot 0).view.dmaCredit = (Rd m).expect ((c : Thread nD τ), pXS) 0 from by
        rw [Nat.zero_add, expect_pexch (xstg m) c pXS 7 rfl (by decide)])) $$ [Cx HO Hp7]
  · isplitr; · iexact HI7
    isplitl [Cx]; · iexact Cx
    isplitl [HO]; · iexact HO
    isplitr; · rw [MayWait_zero]; iempintro
    iexact Hp7
  iintro ⟨HO, Hp7, -, Hpay⟩
  ihave E0 := (Entails.of_eq ((rest_p (xstg m) c pXS 7 rfl (by decide)).trans (payK_xsend (xstg m) c 0))) $$ Hpay
  imod (Rounds.cell_close ER (Rd m) (Set.mem_univ (K (c, 7))) (fun h => h) (R := 0 + 1) (duties_later_p (xstg m) c pXS 7 rfl)) $$ [Hp7] with Z7
  · isplitr; · iexact HI7
    iexact Hp7
  -- the wait for the other-x device's copy into exchange slot 1, which comes back holding that device's complete sum, narrowed
  iapply (Rounds.wp_wait_rest_token 𝒱₀ ER (Rd m) (c : Thread nD τ) none (κ := K (c, 8))
      (wpE_waitDma2_eq 𝒱₀ (c : Thread nD τ) none Set.univ) (Set.mem_univ _) () (O := 0) (R := 0) (m := 0) (T := ∅)
      (show 0 + (eslot 1).view.dmaCredit = (Rd m).expect ((c : Thread nD τ), pXR) 0 from by
        rw [Nat.zero_add, expect_pexch (xstg m) c pXR 8 rfl (by decide)])) $$ [C8 HO Hp8]
  · isplitr; · iexact HI8
    isplitl [C8]; · iexact C8
    isplitl [HO]; · iexact HO
    isplitr; · rw [MayWait_zero]; iempintro
    iexact Hp8
  iintro ⟨HO, Hp8, -, Hpay⟩
  ihave E1 := (Entails.of_eq ((rest_p (xstg m) c pXR 8 rfl (by decide)).trans (payK_xrecv (xstg m) c 0))) $$ Hpay
  imod (Rounds.cell_close ER (Rd m) (Set.mem_univ (K (c, 8))) (fun h => h) (R := 0 + 1) (duties_later_p (xstg m) c pXR 8 rfl)) $$ [Hp8] with Z8
  · isplitr; · iexact HI8
    iexact Hp8
  unfold holdsE
  icases E1 with ⟨%f1, %hf1, E1⟩
  -- the other half of the rows: the received sum, widened, stored
  iapply (wp_load 𝒱₀ (c : Thread nD τ) none Set.univ (m := eM) (eM_load_sub 1)) $$ E1; iintro E1
  unfold stgO
  iapply (wp_load 𝒱₀ (c : Thread nD τ) none Set.univ (m := oM) (Finset.subset_univ _)) $$ Hout; iintro Hout
  iapply (wp_store 𝒱₀ (c : Thread nD τ) none Set.univ (m := oM) (r := rectOth c) (Mk := Finset.univ) (Finset.subset_univ _)) $$ Hout; iintro Hout
  rw [wp_ret]; imodintro
  -- what the staged result holds is the device's result: both halves of the rows written
  have hout : ((oM).access (rectOth c)).write (Elt F) (((oM).access (rectOwn c)).write (Elt F) g (full (xstg m) c) Finset.univ)
      (k0_pay1 ((eM).view.readAt (Elt F) (r2 1).toLoadRect f1)) Finset.univ = outAt (xstg m) c := by
    rw [hf1]; unfold outAt; rw [outFrom_indep (xstg m) c _ g]; rfl
  iapply Hpost
  unfold bodyPost Φ₁ scratch closed8
  isplitl [S0 S1 S2 M0 M1 M2 E0 E1 Z1 Z2 Z3 Z4 Z5 Z6 Z7 Z8]
  · isplitl [S0 S1 S2 M0 M1 M2 E0 E1]
    · unfold anyS anyR anyE
      icases S0 with ⟨%a0, S0⟩
      icases S1 with ⟨%a1, S1⟩
      icases S2 with ⟨%a2, S2⟩
      icases M0 with ⟨%b0, M0⟩
      icases M1 with ⟨%b1, M1⟩
      icases M2 with ⟨%b2, M2⟩
      icases E0 with ⟨%e0, E0⟩
      isplitl [S0 S1 S2]
      · iapply (sM_join (Val := Elt F) c a0 a1 a2)
        isplitl [S0]; · iexact S0
        isplitl [S1]; · iexact S1
        iexact S2
      isplitl [M0 M1 M2]
      · iapply (rM_join (Val := Elt F) c b0 b1 b2)
        isplitl [M0]; · iexact M0
        isplitl [M1]; · iexact M1
        iexact M2
      iapply (eM_join (Val := Elt F) c e0 f1)
      isplitl [E0]; · iexact E0
      iexact E1
    · isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      iexact Z8
  isplitl [HO]
  · unfold Dat.owesAt Pipeline.owesWithin
    rw [show (dats m ρ 0 c).owed t₀.succ = 0 from rfl]
    iexists (insert (pXR, ()) (insert (pXS, ()) W6))
    isplitr; · ipureintro; exact fun _ _ => Or.inl trivial
    iexact HO
  isplitl [Hx]
  · unfold stgX
    iexists _; isplitr; · (ipureintro; rfl)
    iexact Hx
  iexists _; isplitr; · (ipureintro; exact hout)
  iexact Hout

end Cert.KernelIdeal.Rs

end
-- ==== Proof.RsLaunch.lean ====
/-
  The launch of the ring reduce-scatter on the 32 devices.

  Every device has nine protocol cells. Eight of them are the kernel's own DMA semaphores; the ninth, the barrier, is
  the runtime's and is not scoped to the kernel, so the invariants of all cells are allocated for all devices in one
  step, from every device's counters at zero. The duty tokens minted with a device's own cells are then dealt to the
  devices that pay those duties: a barrier cell's three tokens go to the next device along y, the previous one, and
  the device of the other x; a receive cell's token goes to the previous device; the exchange receive cell's token to
  the device of the other x; the send cells' tokens stay. The credit the launch deals a device is what its three peers
  owe its cells. With that, each device's body runs from its start to its end, and the arrays end as computed.
-/
import proofs.«901043_g7700000000001044_dist_rs_v7x_xyz2x4x4_y_m1024_n512_bf16_1_alg».proof.Proof.RsBody

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

theorem bigSep_W (Φ : Fin cfg0.W → sProp 𝕄) : bigSep Finset.univ Φ = iprop(Φ (0 : Fin 2) ∗ Φ (1 : Fin 2)) := bigSep_W0 Φ

/-- Owning a whole staging buffer at contents Y is a points-to of the whole buffer at Y. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- The body label at the one point, on the staging buffers the pipeline calls it with, is the kernel's function on the
    whole staging buffers. -/
theorem body_prog : defs₀ (F := F) Proc.tc 0 (t₀, cfg0.slots t₀)
    = cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6 := by
  unfold defs₀; rw [Defs.onTc_tc]

set_option maxRecDepth 4000 in
set_option maxHeartbeats 1600000 in
/-- The pipeline's body obligation on device c: the ghost state's names are taken out of the start, and the body runs. -/
theorem body_obligation (c : Dev nD) : BodyObligation (dats (F := F) m ρ 0 c) (defs₀ (F := F)) 𝒱₀ () Set.univ := fun t => by
  rw [fin_N t]
  rw [bigSep_W, bigSep_W]
  simp only [owns_whole_eq]
  rw [body_prog, show (dats m ρ 0 c).Φ t₀.castSucc = Φ₀ m c from rfl, show (dats m ρ 0 c).Φ t₀.succ = Φ₁ c from rfl,
    show (dats m ρ 0 c).after 0 t₀ = xstg m c from rfl, show (dats m ρ 0 c).after 1 t₀ = outAt (xstg m) c from rfl]
  unfold Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-! ## The cells and the tokens minted with them -/

/-- The kernel's own eight semaphores: cells 1 to 8. -/
abbrev osem : Fin 8 → SemLoc sig := fun j => csem j.succ

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- All cells of all devices. -/
def rsCells : Finset (GSem nD τ sig) := Finset.univ.map ⟨kcell, kcell_injective⟩

/-- The eleven duties of a device's own cells: the barrier's three, then one for each of cells 1 to 8. -/
def tokK : Fin 11 → Fin 9 := ![0, 0, 0, 1, 2, 3, 4, 5, 6, 7, 8]
def tokD : Fin 11 → Fin 3 := ![0, 1, 2, 0, 0, 0, 0, 0, 0, 0, 0]
abbrev tokOf (cj : Dev nD × Fin 11) : GSem nD τ sig × ℕ × Fin 3 := (cell cj.1 (tokK cj.2), 0, tokD cj.2)

theorem tokKD_injective : ∀ j j' : Fin 11, tokK j = tokK j' → tokD j = tokD j' → j = j' := by decide

theorem tokOf_injective : Function.Injective (tokOf : Dev nD × Fin 11 → GSem nD τ sig × ℕ × Fin 3) := by
  rintro ⟨c, j⟩ ⟨c', j'⟩ h
  have h1 : c = c' := by have := congrArg (fun x : GSem nD τ sig × ℕ × Fin 3 => x.1.1.1) h; exact this
  subst h1
  have hk : tokK j = tokK j' := csem_injective (congrArg (fun x : GSem nD τ sig × ℕ × Fin 3 => x.1.2) h)
  have hd : tokD j = tokD j' := congrArg (fun x : GSem nD τ sig × ℕ × Fin 3 => x.2.2) h
  rw [tokKD_injective j j' hk hd]

def rsToks : Finset (GSem nD τ sig × ℕ × Fin 3) := Finset.univ.map ⟨tokOf, tokOf_injective⟩

/-- The launch element: the pipeline library's cells and tokens, and the protocol's. -/
def u₀ : UU :=
  (initOf (Pipeline.cells cfgs cellOf_inj) (Pipeline.launchToks cfgs cellOf_inj), initOf rsCells rsToks)

/-- The duty tokens of device c's own cells. -/
def toks (c : Dev nD) : sProp 𝕄 :=
  iprop(dutyTok ER (cell c 0) 0 0 ∗ dutyTok ER (cell c 0) 0 1 ∗ dutyTok ER (cell c 0) 0 2
    ∗ dutyTok ER (cell c 1) 0 0 ∗ dutyTok ER (cell c 2) 0 0 ∗ dutyTok ER (cell c 3) 0 0 ∗ dutyTok ER (cell c 4) 0 0
    ∗ dutyTok ER (cell c 5) 0 0 ∗ dutyTok ER (cell c 6) 0 0 ∗ dutyTok ER (cell c 7) 0 0 ∗ dutyTok ER (cell c 8) 0 0)

/-- What the launch element deals device c: its nine cells' round states, its positions and reached-marks, its tokens. -/
def G (c : Dev nD) : sProp 𝕄 :=
  iprop((bigSep Finset.univ fun k : Fin 9 => roundState ER (Rd m) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-- The protocol's half of the launch element funds every device's share. -/
theorem fund_ring : BI.own (ER (initOf rsCells rsToks)) ⊢ (|==> bigSep Finset.univ (G m) : sProp 𝕄) := by
  have hX (Φ : GSem nD τ sig → sProp 𝕄) : bigSep rsCells Φ = bigSep Finset.univ fun c : Dev nD => bigSep Finset.univ fun k : Fin 9 => Φ (kcell (c, k)) := by
    unfold rsCells; rw [bigSep_map, bigSep_univ_prod]; rfl
  have hT : bigSep rsToks (fun x => (dutyTok ER x.1 x.2.1 x.2.2 : sProp 𝕄)) = bigSep Finset.univ fun c : Dev nD => toks c := by
    unfold rsToks; rw [bigSep_map, bigSep_univ_prod]
    exact bigSep_congr fun c _ => by unfold toks; rw [bigSep_fin11]; rfl
  iintro HX
  imod (Rounds.fund ER (Rd m) rsCells rsToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant, then each device's share -/

/-- The kernel's own semaphores at zero are cells 1 to 8 at zero; -/
theorem ownSems0_eq (c : Dev nD) : (Pipeline.ownSems0 (Ix := Unit) (Name := ℕ) (U := UU) (Lvl := ℕ) (Val := Elt F) (τ := τ) osem c : sProp 𝕄)
    = closed8 c := by
  rw [Pipeline.ownSems0_eq_of_list c osem [0, 1, 2, 3, 4, 5, 6, 7] (by decide) (by decide)]; rfl
/-- the barrier semaphore is the one semaphore not scoped to the kernel. -/
theorem unscopedSems0_eq (c : Dev nD) : (unscopedSems0 c : sProp 𝕄) = semVal (cell c 0) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  unfold closed8
  iintro ⟨⟨H1, H2, H3, H4, H5, H6, H7, H8⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- On one device: its nine counters at zero and its nine round states make its nine cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent facts of the whole machine: every cell's invariant at its name, every cell's round 0 reached. -/
def records (K : Dev nD × Fin 9 → ℕ) : sProp 𝕄 :=
  iprop((bigSep Finset.univ fun ck : Dev nD × Fin 9 => cellInv ER (Rd m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) :
    (bigSep Finset.univ fun ck : Dev nD × Fin 9 => (cellInv ER (Rd m) (K ck) (kcell ck) : sProp 𝕄)) ⊢ cellInv ER (Rd m) (K ck) (kcell ck) :=
  bigSep_elim (Finset.mem_univ ck)
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

/-- What stays with device c alone: its nine positions and the tokens of the duties it pays. -/
def linear (c : Dev nD) : sProp 𝕄 := iprop(positions c ∗ payToks c)

/-- From the machine's persistent facts a device reads the invariants and reached-marks of the cells it touches. -/
theorem ghost_intro (K : Dev nD × Fin 9 → ℕ) (c : Dev nD) : iprop(records m K ∗ linear c) ⊢ G' m c := by
  unfold records linear G' ghost
  iintro ⟨⟨#HI, #HR⟩, Hpos, Htok⟩
  iexists K
  isplitr
  · unfold invs
    isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (c, 7)); iexact HI
    isplitr; · iapply (inv_at m K (c, 8)); iexact HI
    isplitr; · iapply (inv_at m K (lft c, 0)); iexact HI
    isplitr; · iapply (inv_at m K (rgt c, 0)); iexact HI
    isplitr; · iapply (inv_at m K (oth c, 0)); iexact HI
    isplitr; · iapply (inv_at m K (rgt c, 4)); iexact HI
    isplitr; · iapply (inv_at m K (rgt c, 5)); iexact HI
    isplitr; · iapply (inv_at m K (rgt c, 6)); iexact HI
    iapply (inv_at m K (oth c, 8)); iexact HI
  isplitl [Hpos]; · iexact Hpos
  isplitr
  · unfold reacheds
    isplitr; · iapply (reached_at (F := F) (lft c, 0)); iexact HR
    isplitr; · iapply (reached_at (F := F) (rgt c, 0)); iexact HR
    isplitr; · iapply (reached_at (F := F) (oth c, 0)); iexact HR
    isplitr; · iapply (reached_at (F := F) (rgt c, 4)); iexact HR
    isplitr; · iapply (reached_at (F := F) (rgt c, 5)); iexact HR
    isplitr; · iapply (reached_at (F := F) (rgt c, 6)); iexact HR
    isplitr; · iapply (reached_at (F := F) (oth c, 8)); iexact HR
    isplitr; · iapply (reached_at (F := F) (c, 1)); iexact HR
    isplitr; · iapply (reached_at (F := F) (c, 2)); iexact HR
    isplitr; · iapply (reached_at (F := F) (c, 3)); iexact HR
    iapply (reached_at (F := F) (c, 7)); iexact HR
  iexact Htok

/-- The tokens dealt to their payers. Summed over the devices, a barrier's duty 0 is paid by the next device along y
    (whose previous device the cell's owner is), its duty 1 by the previous device, its duty 2 by the device of the
    other x; a receive cell's duty by the previous device; the exchange receive cell's by the device of the other x. -/
theorem toks_around : (bigSep Finset.univ fun c : Dev nD => (toks c : sProp 𝕄)) ⊢ bigSep Finset.univ fun c : Dev nD => payToks c := by
  unfold toks payToks
  simp only [bigSep_sep']
  rw [bigSep_univ_equiv ringY.symm (fun c : Dev nD => (dutyTok ER (cell c 0) 0 0 : sProp 𝕄)),
    bigSep_univ_equiv ringY (fun c : Dev nD => (dutyTok ER (cell c 0) 0 1 : sProp 𝕄)),
    bigSep_univ_equiv swapX (fun c : Dev nD => (dutyTok ER (cell c 0) 0 2 : sProp 𝕄)),
    bigSep_univ_equiv ringY (fun c : Dev nD => (dutyTok ER (cell c 4) 0 0 : sProp 𝕄)),
    bigSep_univ_equiv ringY (fun c : Dev nD => (dutyTok ER (cell c 5) 0 0 : sProp 𝕄)),
    bigSep_univ_equiv ringY (fun c : Dev nD => (dutyTok ER (cell c 6) 0 0 : sProp 𝕄)),
    bigSep_univ_equiv swapX (fun c : Dev nD => (dutyTok ER (cell c 8) 0 0 : sProp 𝕄))]
  iintro ⟨H00, H01, H02, H1, H2, H3, H4, H5, H6, H7, H8⟩
  isplitl [H00]; · iexact H00
  isplitl [H01]; · iexact H01
  isplitl [H02]; · iexact H02
  isplitl [H4]; · iexact H4
  isplitl [H5]; · iexact H5
  isplitl [H6]; · iexact H6
  isplitl [H8]; · iexact H8
  isplitl [H1]; · iexact H1
  isplitl [H2]; · iexact H2
  isplitl [H3]; · iexact H3
  iexact H7

/-- A persistent fact may be used at every member of a separating conjunction. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' allocated cells, regrouped: the names chosen at once, the tokens dealt, each device given its share. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (Rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear positions; rw [bigSep_fin9])))
    isplitl [Hat]; · iexact Hat
    iexact Htk

/-- The global step: from every device's own and unscoped counters at zero and its share of the launch element. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_three (g : GSem nD τ sig) :
    (tallyAt g () 3 : CellTallies nD τ sig Unit) = tallyAt g () 1 + (tallyAt g () 1 + tallyAt g () 1) := by
  rw [tallyAt_add, tallyAt_add]

/-- Three units on one cell are one credit of three. -/
theorem cred_three (g : GSem nD τ sig) :
    iprop(cred (tallyAt g () 1) ∗ cred (tallyAt g () 1) ∗ cred (tallyAt g () 1)) ⊢ (cred (tallyAt g () 3) : sProp 𝕄) := by
  rw [tally_three]
  iintro ⟨H1, H2, H3⟩
  iapply (cred_add _ _).2
  isplitl [H1]; · iexact H1
  iapply (cred_add _ _).2
  isplitl [H2] <;> iassumption

/-- What the launch deals device c: each summand of what a device owes is a one-cell tally on a cell of one of its
    peers, so summed over the devices it is that tally on device c's own cell. Its barrier gets a unit from each of the
    three peers, its three receive cells a slot's credit from the previous device, its exchange receive cell the
    exchange slot's credit from the device of the other x. -/
theorem creds (c : Dev nD) : (Pipeline.launchCred O₀ c : sProp 𝕄) ⊢ creds0 c := by
  have e7 : (O₀ : Dev nD → CellTallies nD τ sig Unit) = fun d => O6 d + tallyAt (cell (lft d) 0) () 1 := rfl
  have e6 : (O6 : Dev nD → CellTallies nD τ sig Unit) = fun d => O5 d + tallyAt (cell (rgt d) 0) () 1 := rfl
  have e5 : (O5 : Dev nD → CellTallies nD τ sig Unit) = fun d => O4 d + tallyAt (cell (oth d) 0) () 1 := rfl
  have e4 : (O4 : Dev nD → CellTallies nD τ sig Unit) = fun d => O3 d + tallyAt (cell (rgt d) 4) () N3 := rfl
  have e3 : (O3 : Dev nD → CellTallies nD τ sig Unit) = fun d => O2 d + tallyAt (cell (rgt d) 5) () N3 := rfl
  have e2 : (O2 : Dev nD → CellTallies nD τ sig Unit) = fun d => O1 d + tallyAt (cell (rgt d) 6) () N3 := rfl
  have e1 : (O1 : Dev nD → CellTallies nD τ sig Unit) = fun d => (fun _ : Dev nD => (0 : CellTallies nD τ sig Unit)) d + tallyAt (cell (oth d) 8) () NE := rfl
  rw [e7, Pipeline.launchCred_add, e6, Pipeline.launchCred_add, e5, Pipeline.launchCred_add, e4, Pipeline.launchCred_add,
    e3, Pipeline.launchCred_add, e2, Pipeline.launchCred_add, e1, Pipeline.launchCred_add, Pipeline.launchCred_zero]
  iintro ⟨⟨⟨⟨⟨⟨⟨-, H8⟩, H6⟩, H5⟩, H4⟩, Hx⟩, Hr⟩, Hl⟩
  ihave C8 := (Pipeline.launchCred_tallyAt (csem 8) oth oth oth_oth oth_oth () NE c) $$ H8
  ihave C6 := (Pipeline.launchCred_tallyAt (csem 6) rgt lft rgt_lft lft_rgt () N3 c) $$ H6
  ihave C5 := (Pipeline.launchCred_tallyAt (csem 5) rgt lft rgt_lft lft_rgt () N3 c) $$ H5
  ihave C4 := (Pipeline.launchCred_tallyAt (csem 4) rgt lft rgt_lft lft_rgt () N3 c) $$ H4
  ihave Cx := (Pipeline.launchCred_tallyAt (csem 0) oth oth oth_oth oth_oth () 1 c) $$ Hx
  ihave Cr := (Pipeline.launchCred_tallyAt (csem 0) rgt lft rgt_lft lft_rgt () 1 c) $$ Hr
  ihave Cl := (Pipeline.launchCred_tallyAt (csem 0) lft rgt lft_rgt rgt_lft () 1 c) $$ Hl
  unfold creds0
  isplitl [Cx Cr Cl]
  · iapply (cred_three (F := F) (cell c 0))
    isplitl [Cx]; · iexact Cx
    isplitl [Cr] <;> iassumption
  isplitl [C4]; · iexact C4
  isplitl [C5]; · iexact C5
  isplitl [C6]; · iexact C6
  iexact C8

/-! ## The launch theorem's side conditions -/

/-- What a device is handed at launch makes its start: the ghost state, the credit its peers owe it, the levels. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- Entering the region, the scoped buffers that are no staging buffer are the three scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- Leaving it, the three scratch buffers and the eight own cells at zero go back. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-- The pipeline's own waits, on its two staging cells, which are none of the nine: below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_other c _ (by fin_cases w <;> fin_cases s <;> decide) _ (by
      rcases t with ⟨_ | _, ht⟩
      · exact Or.inl rfl
      · exact Or.inr rfl)

/-! ## The run -/

set_option maxRecDepth 8000 in
/-- On the 32 devices, for any float values, from any memory with every counter at zero: every weakly fair execution of
    the program terminates, and in every final state each device's arrays hold the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelIdeal.Rs

end
-- ==== Proof.RsFinal.lean ====
/-
  The arrays after the run, read off the pipeline's proof data.

  The kernel has one grid point and each of its two windows' block is the whole array. The argument array is an
  input window: it is fetched and never written back, so it ends as launched. The result array is an output
  window written back at the one point: it ends as its contents at entry with the window's block overwritten by
  what the body left in the staging buffer; the block is the whole array (offsets zero, the array's own sizes,
  no cut), so it ends holding exactly the staged result, the sum the values module describes.
-/
import proofs.«901043_g7700000000001044_dist_rs_v7x_xyz2x4x4_y_m1024_n512_bf16_1_alg».proof.Proof.RsData
import proofs.«901043_g7700000000001044_dist_rs_v7x_xyz2x4x4_y_m1024_n512_bf16_1_alg».proof.Proof.Gen.KernelIdeal.Frame

noncomputable section

namespace Cert.KernelIdeal.Rs

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- An input window is never written back: the argument array ends as launched. -/
theorem finalA_zero (c : Dev nD) : finalA m ρ c 0 = m ((c.tc : Thread nD τ).loc main_arg0) :=
  (dats m ρ 0 c).arrAt_in 0 rfl _

/-- The one block of the result window is the whole result array (offsets zero, the array's own sizes): an
    unmasked write through it replaces the contents by the payload. -/
theorem write_blk1 (c : Dev nD) (f : Buf (Elt F) ((cfg0.win 1).arr.view.loc (c.tc : Thread nD τ)))
    (w : ((cfg0.win 1).xblock (cfg0.grid.coords t₀)).Idx → Elt F (cfg0.win 1).elt) :
    View.write (Elt F) ((cfg0.win 1).blk t₀).view f w Finset.univ = w :=
  Memref.write_access_unit_zero_univ (Elt F) main_v1 (funext fun a => Nat.zero_mul _) _ f w

/-- What the body leaves in the result window's staging buffer, at any point. -/
theorem after_one (c : Dev nD) (t : Fin cfg0.N) : (dats m ρ 0 c).after 1 t = outAt (xstg m) c := by
  unfold dats; rfl

/-- The result array after the one point's write-back: the old contents with the whole array overwritten by the
    staged result (the window is not cut, so all of the staged result is written back). -/
theorem finalA_one (c : Dev nD) : finalA m ρ c 1 = outAt (xstg m) c := by
  have h := (dats m ρ 0 c).arrAt_succ 1 t₀
  rw [flush0_1 t₀, if_pos rfl] at h
  exact Eq.trans (show finalA m ρ c 1 = (dats m ρ 0 c).arrAt 1 (t₀.val + 1) from rfl)
    (h.trans ((write_blk1 c _ _).trans (after_one m ρ c t₀)))

/-- From the run's post: on every device the result array holds the staged result and the argument array is
    as launched. -/
theorem post_of_QC (r : PUnit × MemSt nD τ sig (Elt F)) (h : QC m ρ r) (c : Dev nD) :
    r.2.mem ((c.tc : Thread nD τ).loc main_v1) = outAt (xstg m) c
    ∧ r.2.mem ((c.tc : Thread nD τ).loc main_arg0) = m ((c.tc : Thread nD τ).loc main_arg0) :=
  ⟨(h c 1).trans (finalA_one m ρ c), (h c 0).trans (finalA_zero m ρ c)⟩

end Cert.KernelIdeal.Rs

end
-- ==== Proof.RsRef.lean ====
/-
  The reference: the sum of the four slabs of the whole input along its first axis, read index by index.
-/
import proofs.«901043_g7700000000001044_dist_rs_v7x_xyz2x4x4_y_m1024_n512_bf16_1_alg».proof.Proof.Gen.ReferenceIdeal.Read

noncomputable section

namespace Cert.ReferenceIdeal.RefValue

open Cert.ReferenceIdeal Cert.ReferenceIdeal.Gen
open Idealize.ShloMosaic Idealize.SL.Sem

end Cert.ReferenceIdeal.RefValue

end
-- ==== Proof.RsValue.lean ====
/-
  The value of the ring reduce-scatter over the extended reals.

  The whole input is x : 4 × 1024 × 2048; device (x, y, z) holds slab y. Narrowing and widening are the identity
  on extended reals, so device c's running sums are plain sums: after step 2 it holds, for the rows of its half and
  the columns of chunk y, slab (y+1) + slab (y+2) + slab (y+3) + slab y, grouped as the ring delivered them; the other
  half of the rows comes from the device of the other x, which holds the same slab and did the same along its own
  ring. Addition of extended reals is commutative and associative, so every entry of device c's result is the sum of
  the four slabs at that row and at column 512·y + (column in the chunk): its column block y of the reference's sum.
-/
import proofs.«901043_g7700000000001044_dist_rs_v7x_xyz2x4x4_y_m1024_n512_bf16_1_alg».proof.Proof.RsInput
import proofs.«901043_g7700000000001044_dist_rs_v7x_xyz2x4x4_y_m1024_n512_bf16_1_alg».proof.Proof.RsRef
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rs

open Cert.KernelIdeal Cert.KernelIdeal.Gen
open Idealize.ShloMosaic Idealize.ShloMosaic.TcCoe Idealize.SL.Sem

open Idealize.ShloMosaic.ValueIdx

theorem meshLin_y : ∀ c : Dev nD, Layout.meshLin [2, 4, 4] c.val [1] = c.val / 4 % 4 := by decide
theorem lft_x : ∀ c : Dev nD, (lft c).val / 16 = c.val / 16 := by decide
theorem lft_y : ∀ c : Dev nD, (lft c).val / 4 % 4 = (c.val / 4 % 4 + 3) % 4 := by decide
theorem oth_x : ∀ c : Dev nD, (oth c).val / 16 = 1 - c.val / 16 := by decide
theorem oth_y : ∀ c : Dev nD, (oth c).val / 4 % 4 = c.val / 4 % 4 := by decide

/-- An entry of the whole input by natural-number coordinates (zero outside the array, which is never read). -/
def slabN (Xw : (⟨Cert.ReferenceIdeal.S4x1024x2048, .f32⟩ : BufTy).Contents (Elt Ideal)) (k R C : Nat) : EReal :=
  if h : k < 4 ∧ R < 1024 ∧ C < 2048 then
    Xw (ix3 (⟨k, h.1⟩ : Fin 4) (⟨R, h.2.1⟩ : Fin 1024) (⟨C, h.2.2⟩ : Fin 2048)) else 0

theorem slabN_eq (Xw : (⟨Cert.ReferenceIdeal.S4x1024x2048, .f32⟩ : BufTy).Contents (Elt Ideal))
    {k R C : Nat} (hk : k < 4) (hR : R < 1024) (hC : C < 2048) :
    slabN Xw k R C = Xw (ix3 (⟨k, hk⟩ : Fin 4) (⟨R, hR⟩ : Fin 1024) (⟨C, hC⟩ : Fin 2048)) :=
  dif_pos ⟨hk, hR, hC⟩

theorem slabN_congr (Xw : (⟨Cert.ReferenceIdeal.S4x1024x2048, .f32⟩ : BufTy).Contents (Elt Ideal))
    {k k' R R' C C' : Nat} (ek : k = k') (eR : R = R') (eC : C = C') : slabN Xw k R C = slabN Xw k' R' C' := by
  subst ek; subst eR; subst eC; rfl

/-- The staged input of device c at an index is slab y of the whole input there. -/
theorem xstg_apply (m : (ℓ : Loc nD τ sig) → Buf (Elt Ideal) ℓ)
    (Xw : (⟨Cert.ReferenceIdeal.S4x1024x2048, .f32⟩ : BufTy).Contents (Elt Ideal))
    (hm : ∀ c : Dev nD, m ((c.tc : Thread nD τ).loc main_arg0)
      = Layout.blockN ⟨3, ![1, 1024, 2048]⟩ ⟨3, ![4, 1024, 2048]⟩ (Layout.meshBlock [2, 4, 4] ![[1], [], []] c) Xw)
    (c : Dev nD) (u : Fin 1) (R : Fin 1024) (C : Fin 2048) :
    xstg (F := Ideal) m c (ix3 u R C) = slabN Xw (c.val / 4 % 4) R.val C.val := by
  unfold xstg
  rw [View.read_apply, hm c, Layout.blockN_apply, slabN_eq Xw (Nat.mod_lt _ (by decide)) R.isLt C.isLt]
  refine congrArg Xw (funext fun a => Fin.ext ?_)
  have hu : u.val = 0 := by omega
  match a with
  | ⟨0, _⟩ =>
    show Layout.meshLin [2, 4, 4] c.val [1] * 1 + (0 * 1 + 1 * u.val) = c.val / 4 % 4
    rw [meshLin_y c, hu]; omega
  | ⟨1, _⟩ =>
    show 0 * 1024 + (0 * 1024 + 1 * R.val) = R.val
    omega
  | ⟨2, _⟩ =>
    show 0 * 2048 + (0 * 2048 + 1 * C.val) = C.val
    omega

/-- A load of a 1 × 512 × 512 rectangle of the staged input, at an index: the staged block at the offsets plus the index. -/
theorem readX_apply {F : FTy → Type} [FloatOps F] (Xc : XTy F) (off : Fin 3 → Nat)
    (inb : ∀ a, off a + S1x512x512.size a ≤ S1x1024x2048.size a) (r cc : Nat)
    (h0 : off 0 = 0) (h1 : off 1 = r) (h2 : off 2 = cc) (u : Fin 1) (p q : Fin 512)
    (hr : r + p.val < 1024) (hc : cc + q.val < 2048) :
    (xM).view.readAt (Elt F) (Rect.unit (s := S1x1024x2048) off S1x512x512.size inb).toLoadRect Xc (ix3 u p q)
      = Xc (ix3 (0 : Fin 1) (⟨r + p.val, hr⟩ : Fin 1024) (⟨cc + q.val, hc⟩ : Fin 2048)) := by
  rw [View.readAt_apply, View.read_apply]
  show Xc _ = Xc _
  refine congrArg Xc (funext fun a => Fin.ext ?_)
  have hu : u.val = 0 := by omega
  match a with
  | ⟨0, _⟩ =>
    show off 0 + 1 * u.val = 0
    rw [h0, hu]
  | ⟨1, _⟩ =>
    show off 1 + 1 * p.val = r + p.val
    rw [h1]; omega
  | ⟨2, _⟩ =>
    show off 2 + 1 * q.val = cc + q.val
    rw [h2]; omega

theorem ldA_apply {F : FTy → Type} [FloatOps F] (X : Dev nD → XTy F) (c : Dev nD) (u : Fin 1) (p q : Fin 512) :
    ldA X c (ix3 u p q)
      = X c (ix3 (0 : Fin 1) (⟨512 * (c.val / 16) + p.val, by have h : c.val < 32 := c.isLt; omega⟩ : Fin 1024)
          (⟨512 * ((c.val / 4 % 4 + 3) % 4) + q.val, by omega⟩ : Fin 2048)) := by
  unfold ldA
  exact readX_apply (X c) (k0_off1 c) (k0_off1_inb c) _ _ (by rw [k0_off1_val c]; rfl) (by rw [k0_off1_val c]; rfl)
    (by rw [k0_off1_val c]; rfl) u p q _ _

theorem ldB_apply {F : FTy → Type} [FloatOps F] (X : Dev nD → XTy F) (c : Dev nD) (s : Fin 3) (u : Fin 1) (p q : Fin 512) :
    ldB X c s (ix3 u p q)
      = X c (ix3 (0 : Fin 1) (⟨512 * (c.val / 16) + p.val, by have h : c.val < 32 := c.isLt; omega⟩ : Fin 1024)
          (⟨512 * ((c.val / 4 % 4 + 2 - s.val) % 4) + q.val, by omega⟩ : Fin 2048)) := by
  unfold ldB
  exact readX_apply (X c) (k0_off2 c (BitVec.ofNat 32 s.val)) (k0_off2_inb c s) _ _ (by rw [k0_off2_val c s]; rfl)
    (by rw [k0_off2_val c s]; rfl) (by rw [k0_off2_val c s]; rfl) u p q _ _

/-! The payloads over the extended reals, at an index: narrowing and widening are the identity, a cast between
    1 × 512 × 512 and 512 × 512 keeps the two inner coordinates. -/

theorem pay2_apply (v : Vec Ideal S1x512x512 .f32) (u : Fin 1) (p q : Fin 512) :
    k0_pay2 v (ix3 u p q) = v (ix3 (0 : Fin 1) p q) := by
  unfold k0_pay2
  rw [shapeCast_ab_1ab_apply, truncf_apply, shapeCast_1ab_ab_apply]

theorem pay3_apply (a : Vec Ideal S1x512x512 .bf16) (b : Vec Ideal S1x512x512 .f32) (u : Fin 1) (p q : Fin 512) :
    k0_pay3 a b (ix3 u p q) = (a (ix3 (0 : Fin 1) p q) : EReal) + b (ix3 (0 : Fin 1) p q) := by
  unfold k0_pay3
  rw [shapeCast_ab_1ab_apply, truncf_apply, addf_apply, extf_apply, shapeCast_1ab_ab_apply, shapeCast_1ab_ab_apply]

theorem pay4_apply (a : Vec Ideal S1x512x512 .bf16) (b : Vec Ideal S1x512x512 .f32) (u : Fin 1) (p q : Fin 512) :
    k0_pay4 a b (ix3 u p q) = (a (ix3 (0 : Fin 1) p q) : EReal) + b (ix3 (0 : Fin 1) p q) := by
  unfold k0_pay4
  rw [shapeCast_ab_1ab_apply, truncf_apply, addf_apply, extf_apply, shapeCast_1ab_ab_apply, shapeCast_1ab_ab_apply]

theorem pay5_apply (a : Vec Ideal S1x512x512 .bf16) (b : Vec Ideal S1x512x512 .f32) (p q : Fin 512) :
    k0_pay5 a b (ix2 p q) = (a (ix3 (0 : Fin 1) p q) : EReal) + b (ix3 (0 : Fin 1) p q) := by
  unfold k0_pay5
  rw [addf_apply, extf_apply, shapeCast_1ab_ab_apply, shapeCast_1ab_ab_apply]

theorem pay6_apply (a : Vec Ideal S1x512x512 .bf16) (b : Vec Ideal S1x512x512 .f32) (u : Fin 1) (p q : Fin 512) :
    k0_pay6 a b (ix3 u p q) = (a (ix3 (0 : Fin 1) p q) : EReal) + b (ix3 (0 : Fin 1) p q) := by
  unfold k0_pay6
  rw [shapeCast_ab_1ab_apply, truncf_apply, pay5_apply]

theorem pay1_apply (v : Vec Ideal S1x512x512 .bf16) (p q : Fin 512) :
    k0_pay1 v (ix2 p q) = v (ix3 (0 : Fin 1) p q) := by
  unfold k0_pay1
  rw [extf_apply, shapeCast_1ab_ab_apply]

/-! The running sums at an index: four loads, one from each device of the ring. -/

theorem full_apply (X : Dev nD → XTy Ideal) (c : Dev nD) (p q : Fin 512) :
    full X c (ix2 p q)
      = (((ldA X (lft (lft (lft c))) (ix3 (0 : Fin 1) p q) : EReal) + ldB X (lft (lft c)) 0 (ix3 (0 : Fin 1) p q))
          + ldB X (lft c) 1 (ix3 (0 : Fin 1) p q)) + ldB X c 2 (ix3 (0 : Fin 1) p q) := by
  unfold full part2 part1 part0
  rw [pay5_apply, pay4_apply, pay3_apply, pay2_apply]

theorem otherHalf_apply (X : Dev nD → XTy Ideal) (c : Dev nD) (p q : Fin 512) :
    otherHalf X c (ix2 p q) = full X (oth c) (ix2 p q) := by
  unfold otherHalf fullNarrow full
  rw [pay1_apply, pay6_apply, pay5_apply]

/-! The two half stores at an index. -/

theorem outFrom_own {F : FTy → Type} [FloatOps F] (X : Dev nD → XTy F) (c : Dev nD) (g : OTy F)
    (Rr : Fin 1024) (col p : Fin 512) (h : Rr.val = 512 * (c.val / 16) + p.val) :
    outFrom X c g (ix2 Rr col) = full X c (ix2 p col) := by
  have hc : c.val < 32 := c.isLt
  unfold outFrom
  have hn : ix2 Rr col ∉ ((oM).access (rectOth c)).setOn Finset.univ := by
    rw [View.setOn_univ]
    show _ ∉ ((View.whole cc0_stg1_0).slice (rectOth c)).set
    rw [View.set_slice_whole, Rect.mem_set_unit]
    intro hh
    have h0 : 512 - 512 * (c.val / 16) ≤ Rr.val ∧ Rr.val < 512 - 512 * (c.val / 16) + 512 := by
      have := hh (0 : Fin 2); rw [k0_off4_eq c] at this; exact this
    omega
  rw [View.write_of_not_mem _ _ _ hn]
  have e : ix2 Rr col = ((oM).access (rectOwn c)).emb (ix2 p col) := by
    funext a; apply Fin.ext
    match a with
    | ⟨0, _⟩ =>
      show Rr.val = k0_off3 c (0 : Fin 2) + 1 * p.val
      rw [k0_off3_eq c, h]; show _ = 512 * (c.val / 16) + 1 * p.val; omega
    | ⟨1, _⟩ =>
      show col.val = k0_off3 c (1 : Fin 2) + 1 * col.val
      rw [k0_off3_eq c]; show _ = 0 + 1 * col.val; omega
  rw [e, View.write_emb_of_mem _ _ (Finset.mem_univ _)]
  rfl

theorem outFrom_oth {F : FTy → Type} [FloatOps F] (X : Dev nD → XTy F) (c : Dev nD) (g : OTy F)
    (Rr : Fin 1024) (col p : Fin 512) (h : Rr.val = 512 - 512 * (c.val / 16) + p.val) :
    outFrom X c g (ix2 Rr col) = otherHalf X c (ix2 p col) := by
  unfold outFrom
  have e : ix2 Rr col = ((oM).access (rectOth c)).emb (ix2 p col) := by
    funext a; apply Fin.ext
    match a with
    | ⟨0, _⟩ =>
      show Rr.val = k0_off4 c (0 : Fin 2) + 1 * p.val
      rw [k0_off4_eq c, h]; show _ = 512 - 512 * (c.val / 16) + 1 * p.val; omega
    | ⟨1, _⟩ =>
      show col.val = k0_off4 c (1 : Fin 2) + 1 * col.val
      rw [k0_off4_eq c]; show _ = 0 + 1 * col.val; omega
  rw [e, View.write_emb_of_mem _ _ (Finset.mem_univ _)]
  rfl

/-- Device c's complete sum at an index of its half: the four slabs at its rows and at column chunk y, in the order the
    ring delivered them. -/
theorem full_xstg (m : (ℓ : Loc nD τ sig) → Buf (Elt Ideal) ℓ)
    (Xw : (⟨Cert.ReferenceIdeal.S4x1024x2048, .f32⟩ : BufTy).Contents (Elt Ideal))
    (hm : ∀ c : Dev nD, m ((c.tc : Thread nD τ).loc main_arg0)
      = Layout.blockN ⟨3, ![1, 1024, 2048]⟩ ⟨3, ![4, 1024, 2048]⟩ (Layout.meshBlock [2, 4, 4] ![[1], [], []] c) Xw)
    (c : Dev nD) (p q : Fin 512) :
    full (xstg (F := Ideal) m) c (ix2 p q)
      = ((slabN Xw ((c.val / 4 % 4 + 1) % 4) (512 * (c.val / 16) + p.val) (512 * (c.val / 4 % 4) + q.val)
          + slabN Xw ((c.val / 4 % 4 + 2) % 4) (512 * (c.val / 16) + p.val) (512 * (c.val / 4 % 4) + q.val))
          + slabN Xw ((c.val / 4 % 4 + 3) % 4) (512 * (c.val / 16) + p.val) (512 * (c.val / 4 % 4) + q.val))
          + slabN Xw (c.val / 4 % 4) (512 * (c.val / 16) + p.val) (512 * (c.val / 4 % 4) + q.val) := by
  rw [full_apply, ldA_apply, ldB_apply, ldB_apply, ldB_apply,
    xstg_apply m Xw hm, xstg_apply m Xw hm, xstg_apply m Xw hm, xstg_apply m Xw hm]
  have x1 := lft_x c
  have x2 := lft_x (lft c)
  have x3 := lft_x (lft (lft c))
  have y1 := lft_y c
  have y2 := lft_y (lft c)
  have y3 := lft_y (lft (lft c))
  dsimp only
  refine congrArg₂ (· + ·) (congrArg₂ (· + ·) (congrArg₂ (· + ·) ?_ ?_) ?_) ?_ <;>
    exact slabN_congr Xw (by omega) (by omega) (by omega)

/-- The reference at an index: the sum of the four slabs there. -/
theorem ref_apply (Xw : (⟨Cert.ReferenceIdeal.S4x1024x2048, .f32⟩ : BufTy).Contents (Elt Ideal))
    (R : Fin 1024) (C : Fin 2048) :
    Cert.ReferenceIdeal.Read.val_main_v0 (F := Ideal) Xw (ix2 R C)
      = ((slabN Xw 0 R.val C.val + slabN Xw 1 R.val C.val) + slabN Xw 2 R.val C.val) + slabN Xw 3 R.val C.val := by
  rw [Cert.ReferenceIdeal.Read.val_main_v0_apply, Cert.ReferenceIdeal.Read.val_main_cst_apply, Fin.sum_univ_four]
  rw [show (FloatOps.ofBits .f32 0x00000000#32 : Ideal .f32) = 0 from Ideal.ofBits_zero_f32, zero_add]
  refine congrArg₂ (· + ·) (congrArg₂ (· + ·) (congrArg₂ (· + ·) ?_ ?_) ?_) ?_
  all_goals
    rw [slabN_eq Xw (by decide) R.isLt C.isLt]
    refine congrArg Xw (funext fun a => ?_)
    match a with
    | ⟨0, _⟩ => rfl
    | ⟨1, _⟩ => rfl
    | ⟨2, _⟩ => rfl

/-- Four summands taken round the ring from y + 1 add up to the sum in the order 0, 1, 2, 3. -/
theorem ring_sum (s : Nat → EReal) (y : Nat) (hy : y < 4) :
    ((s ((y + 1) % 4) + s ((y + 2) % 4)) + s ((y + 3) % 4)) + s y = ((s 0 + s 1) + s 2) + s 3 := by
  interval_cases y <;> simp only [Nat.reduceAdd, Nat.reduceMod] <;> ac_rfl

/-- Device c's result, computed from the devices' slabs, is its column block of the sum of the four slabs. -/
theorem out_is_block (m : (ℓ : Loc nD τ sig) → Buf (Elt Ideal) ℓ)
    (Xw : (⟨Cert.ReferenceIdeal.S4x1024x2048, .f32⟩ : BufTy).Contents (Elt Ideal))
    (hm : ∀ c : Dev nD, m ((c.tc : Thread nD τ).loc main_arg0)
      = Layout.blockN ⟨3, ![1, 1024, 2048]⟩ ⟨3, ![4, 1024, 2048]⟩ (Layout.meshBlock [2, 4, 4] ![[1], [], []] c) Xw)
    (c : Dev nD) :
    outAt (F := Ideal) (xstg m) c
      = Layout.blockN ⟨2, ![1024, 512]⟩ ⟨2, ![1024, 2048]⟩ (Layout.meshBlock [2, 4, 4] ![[], [1]] c)
          (Cert.ReferenceIdeal.Read.val_main_v0 (F := Ideal) Xw) := by
  funext i
  obtain ⟨Rr, col, rfl⟩ : ∃ (Rr : Fin 1024) (col : Fin 512), i = ix2 Rr col := ⟨i 0, i 1, eq_ix2 i⟩
  have hc : c.val < 32 := c.isLt
  have hy : c.val / 4 % 4 < 4 := Nat.mod_lt _ (by decide)
  rw [Layout.blockN_apply]
  have hidx : ∀ (hT : Layout.TilesN (⟨2, ![1024, 512]⟩ : Shape) (⟨2, ![1024, 2048]⟩ : Shape) _),
      hT.idx (Layout.meshBlock [2, 4, 4] ![[], [1]] c) (ix2 Rr col)
        = ix2 Rr (⟨512 * (c.val / 4 % 4) + col.val, by omega⟩ : Fin 2048) := by
    intro hT
    funext a; apply Fin.ext
    match a with
    | ⟨0, _⟩ =>
      show 0 * 1024 + Rr.val = Rr.val
      omega
    | ⟨1, _⟩ =>
      show Layout.meshLin [2, 4, 4] c.val [1] * 512 + col.val = 512 * (c.val / 4 % 4) + col.val
      rw [meshLin_y c]; omega
  rw [hidx, ref_apply]
  unfold outAt
  by_cases hown : 512 * (c.val / 16) ≤ Rr.val ∧ Rr.val < 512 * (c.val / 16) + 512
  · rw [outFrom_own _ c _ Rr col (⟨Rr.val - 512 * (c.val / 16), by omega⟩ : Fin 512) (by dsimp only; omega),
      full_xstg m Xw hm]
    dsimp only
    rw [show 512 * (c.val / 16) + (Rr.val - 512 * (c.val / 16)) = Rr.val by omega]
    exact ring_sum (fun k => slabN Xw k Rr.val (512 * (c.val / 4 % 4) + col.val)) (c.val / 4 % 4) hy
  · rw [outFrom_oth _ c _ Rr col (⟨Rr.val - (512 - 512 * (c.val / 16)), by omega⟩ : Fin 512) (by dsimp only; omega),
      otherHalf_apply, full_xstg m Xw hm, oth_x c, oth_y c]
    dsimp only
    rw [show 512 * (1 - c.val / 16) + (Rr.val - (512 - 512 * (c.val / 16))) = Rr.val by omega]
    exact ring_sum (fun k => slabN Xw k Rr.val (512 * (c.val / 4 % 4) + col.val)) (c.val / 4 % 4) hy

end Cert.KernelIdeal.Rs

end
-- ==== Proof.RkMesh.lean ====
/-
  The mesh of the ring reduce-scatter: 32 devices numbered 16·x + 4·y + z over axes x = 2, y = 4, z = 4.
  The kernel talks to three peers: the next and the previous device along y (same x, z) and the device
  with the other x (same y, z). This module names them, shows they are permutations of the devices,
  identifies the printed device-id chains with them, and gives the printed row / column offsets of the
  half-blocks in closed form.
-/
import proofs.«901043_g7700000000001044_dist_rs_v7x_xyz2x4x4_y_m1024_n512_bf16_1_alg».proof.Proof.Gen.Kernel

namespace Cert.Kernel.Rs

open Cert.Kernel Cert.Kernel.Gen
open Idealize.ShloMosaic Idealize.SL.Sem

/-- The next device along y: y + 1 mod 4, same x and z. -/
def rgt (c : Dev nD) : Dev nD := ⟨16 * (c.val / 16) + 4 * ((c.val / 4 % 4 + 1) % 4) + c.val % 4, by have h : c.val < 32 := c.isLt; show _ < 32; omega⟩
/-- The previous device along y: y − 1 mod 4, same x and z. -/
def lft (c : Dev nD) : Dev nD := ⟨16 * (c.val / 16) + 4 * ((c.val / 4 % 4 + 3) % 4) + c.val % 4, by have h : c.val < 32 := c.isLt; show _ < 32; omega⟩
/-- The device with the other x coordinate, same y and z. -/
def oth (c : Dev nD) : Dev nD := ⟨16 * (1 - c.val / 16) + 4 * (c.val / 4 % 4) + c.val % 4, by have h : c.val < 32 := c.isLt; show _ < 32; omega⟩

theorem lft_rgt : ∀ c : Dev nD, lft (rgt c) = c := by decide
theorem rgt_lft : ∀ c : Dev nD, rgt (lft c) = c := by decide
theorem oth_oth : ∀ c : Dev nD, oth (oth c) = c := by decide
theorem rgt_ne_lft : ∀ c : Dev nD, rgt c ≠ lft c := by decide
theorem rgt_ne_oth : ∀ c : Dev nD, rgt c ≠ oth c := by decide
theorem lft_ne_oth : ∀ c : Dev nD, lft c ≠ oth c := by decide
theorem rgt_ne_self : ∀ c : Dev nD, rgt c ≠ c := by decide
theorem lft_ne_self : ∀ c : Dev nD, lft c ≠ c := by decide
theorem oth_ne_self : ∀ c : Dev nD, oth c ≠ c := by decide

/-- The ring along y, as a permutation of the devices. -/
def ringY : Dev nD ≃ Dev nD := ⟨rgt, lft, lft_rgt, rgt_lft⟩
/-- The exchange across x, an involution. -/
def swapX : Dev nD ≃ Dev nD := ⟨oth, oth, oth_oth, oth_oth⟩

/-! The printed device-id chains. -/
theorem k0_dev1_val : ∀ c : Dev nD, k0_dev1 c = (lft c).val := by decide +kernel
theorem k0_dev2_val : ∀ c : Dev nD, k0_dev2 c = (rgt c).val := by decide +kernel
theorem k0_dev3_val : ∀ c : Dev nD, k0_dev3 c = (oth c).val := by decide +kernel
theorem k0_dev4_val : ∀ c : Dev nD, k0_dev4 c = (rgt c).val := by decide +kernel
theorem k0_dev5_val : ∀ c : Dev nD, k0_dev5 c = (rgt c).val := by decide +kernel
theorem k0_dev6_val : ∀ c : Dev nD, k0_dev6 c = (rgt c).val := by decide +kernel
theorem k0_dev7_val : ∀ c : Dev nD, k0_dev7 c = (oth c).val := by decide +kernel

theorem dev1_eq (c : Dev nD) : (⟨k0_dev1 c, k0_dev1_lt c⟩ : Dev nD) = lft c := Fin.ext (k0_dev1_val c)
theorem dev2_eq (c : Dev nD) : (⟨k0_dev2 c, k0_dev2_lt c⟩ : Dev nD) = rgt c := Fin.ext (k0_dev2_val c)
theorem dev3_eq (c : Dev nD) : (⟨k0_dev3 c, k0_dev3_lt c⟩ : Dev nD) = oth c := Fin.ext (k0_dev3_val c)
theorem dev4_eq (c : Dev nD) : (⟨k0_dev4 c, k0_dev4_lt c⟩ : Dev nD) = rgt c := Fin.ext (k0_dev4_val c)
theorem dev5_eq (c : Dev nD) : (⟨k0_dev5 c, k0_dev5_lt c⟩ : Dev nD) = rgt c := Fin.ext (k0_dev5_val c)
theorem dev6_eq (c : Dev nD) : (⟨k0_dev6 c, k0_dev6_lt c⟩ : Dev nD) = rgt c := Fin.ext (k0_dev6_val c)
theorem dev7_eq (c : Dev nD) : (⟨k0_dev7 c, k0_dev7_lt c⟩ : Dev nD) = oth c := Fin.ext (k0_dev7_val c)

/-! The printed offsets: the half of the rows device x works on, and the column chunk of each step. -/
theorem k0_off1_val : ∀ c : Dev nD, k0_off1 c = ![0, 512 * (c.val / 16), 512 * ((c.val / 4 % 4 + 3) % 4)] := by decide +kernel
theorem k0_off2_val : ∀ c : Dev nD, ∀ s : Fin 3, k0_off2 c (BitVec.ofNat 32 s.val) = ![0, 512 * (c.val / 16), 512 * ((c.val / 4 % 4 + 2 - s.val) % 4)] := by decide +kernel

end Cert.Kernel.Rs
-- ==== Proof.RkVals.lean ====
/-
  What each device holds at each step of the ring reduce-scatter, as pure terms of the devices' staged
  inputs (generic in the float instance).

  Device c, at mesh coordinates (x, y, z), works on the half of the rows x names. It first sends the column
  chunk y − 1 of its own block, narrowed to bf16, to its next device along y. In step s it receives from the
  previous device a running sum, widens it, adds its own chunk y − 2 − s, and either forwards the narrowed sum
  (s < 2) or, at s = 2, holds the complete sum of chunk y over the four devices of its ring: that is its half
  of the result rows, and, narrowed, what it exchanges with the device of the other x, whose half it writes
  into the other rows.
-/
import proofs.«901043_g7700000000001044_dist_rs_v7x_xyz2x4x4_y_m1024_n512_bf16_1_alg».proof.Proof.Gen.Kernel.Skeleton
import proofs.«901043_g7700000000001044_dist_rs_v7x_xyz2x4x4_y_m1024_n512_bf16_1_alg».proof.Proof.RkMesh

noncomputable section

namespace Cert.Kernel.Rs

open Cert.Kernel Cert.Kernel.Gen
open Idealize.ShloMosaic Idealize.SL.Sem

variable {F : FTy → Type} [FloatOps F]

/-- The contents of the staged input block (1 × 1024 × 2048, f32) and of the staged result (1024 × 512, f32). -/
abbrev XTy (F : FTy → Type) [FloatOps F] : Type := (cc0_stg0_0 : Ref sig .tc).ty.Contents (Elt F)
abbrev OTy (F : FTy → Type) [FloatOps F] : Type := (cc0_stg1_0 : Ref sig .tc).ty.Contents (Elt F)

abbrev xM : Memref sig .tc .vmem S1x1024x2048 .f32 := Memref.whole cc0_stg0_0
abbrev oM : Memref sig .tc .vmem S1024x512 .f32 := Memref.whole cc0_stg1_0
abbrev sM : Memref sig .tc .vmem S3x512x512 .bf16 := Memref.whole cc0_scratch0
abbrev rM : Memref sig .tc .vmem S3x512x512 .bf16 := Memref.whole cc0_scratch1
abbrev eM : Memref sig .tc .vmem S2x512x512 .bf16 := Memref.whole cc0_scratch2

/-- The rectangle of the first load: rows of half x, column chunk y − 1. -/
abbrev rectA (c : Dev nD) : Rect S1x1024x2048 := Rect.unit (s := S1x1024x2048) (k0_off1 c) S1x512x512.size (k0_off1_inb c)
/-- The rectangle of step s's load: rows of half x, column chunk y − 2 − s. -/
abbrev rectB (c : Dev nD) (s : Fin 3) : Rect S1x1024x2048 :=
  Rect.unit (s := S1x1024x2048) (k0_off2 c (BitVec.ofNat 32 s.val)) S1x512x512.size (k0_off2_inb c s)
/-- The rows of the result this device computes itself, and the rows it receives from the other x. -/
abbrev rectOwn (c : Dev nD) : Rect S1024x512 := Rect.unit (s := S1024x512) (k0_off3 c) S512x512.size (k0_off3_inb c)
abbrev rectOth (c : Dev nD) : Rect S1024x512 := Rect.unit (s := S1024x512) (k0_off4 c) S512x512.size (k0_off4_inb c)

variable (X : Dev nD → XTy F)

/-- Device c's own chunk y − 1, rows of its half. -/
def ldA (c : Dev nD) : Vec F S1x512x512 .f32 := (xM).view.readAt (Elt F) (rectA c).toLoadRect (X c)
/-- Device c's own chunk y − 2 − s, rows of its half. -/
def ldB (c : Dev nD) (s : Fin 3) : Vec F S1x512x512 .f32 := (xM).view.readAt (Elt F) (rectB c s).toLoadRect (X c)

/-- What device c sends in step 0: its chunk y − 1, narrowed. -/
def part0 (c : Dev nD) : Vec F S1x512x512 .bf16 := k0_pay2 (ldA X c)
/-- What it sends in step 1: what it received in step 0 plus its chunk y − 2, narrowed. -/
def part1 (c : Dev nD) : Vec F S1x512x512 .bf16 := k0_pay3 (part0 X (lft c)) (ldB X c 0)
/-- What it sends in step 2: what it received in step 1 plus its chunk y − 3, narrowed. -/
def part2 (c : Dev nD) : Vec F S1x512x512 .bf16 := k0_pay4 (part1 X (lft c)) (ldB X c 1)
/-- The complete sum of chunk y over the ring, rows of device c's half: what it received in step 2 plus its own chunk y. -/
def full (c : Dev nD) : Vec F S512x512 .f32 := k0_pay5 (part2 X (lft c)) (ldB X c 2)
/-- The same, narrowed, as it is exchanged across x. -/
def fullNarrow (c : Dev nD) : Vec F S1x512x512 .bf16 := k0_pay6 (part2 X (lft c)) (ldB X c 2)
/-- The other half of the rows: the other-x device's complete sum, widened again. -/
def otherHalf (c : Dev nD) : Vec F S512x512 .f32 := k0_pay1 (fullNarrow X (oth c))

/-- The staged result after the two half stores, from contents g before them. -/
def outFrom (c : Dev nD) (g : OTy F) : OTy F :=
  ((oM).access (rectOth c)).write (Elt F) (((oM).access (rectOwn c)).write (Elt F) g (full X c) Finset.univ) (otherHalf X c) Finset.univ

variable [∀ e, Nonempty (Elt F e)]

/-- The staged result of device c: its own half and the other half, every row written. -/
def outAt (c : Dev nD) : OTy F := outFrom X c (fun _ => Classical.arbitrary _)

end Cert.Kernel.Rs

end
-- ==== Proof.RkSlots.lean ====
/-
  The slots of the three scratch buffers and what reading, storing and copying through them does.

  The send buffer and the receive buffer have three slots of 512 × 512 bf16, one per ring step; the exchange
  buffer has two (slot 0 goes out to the other x, slot 1 comes in from it). A remote copy moves one slot, seen as
  a 512 × 512 view; a store writes, and a load reads, one slot seen as a 1 × 512 × 512 rectangle of the whole
  buffer. The facts below say: a whole buffer is the separate union of its slots; a slot's rectangle lies inside
  the slot; reading a slot right after storing v into it gives v; reading a destination slot after a copy gives
  what the source slot held; and the two half stores into the result cover every row.
-/
import proofs.«901043_g7700000000001044_dist_rs_v7x_xyz2x4x4_y_m1024_n512_bf16_1_alg».proof.Proof.RkVals
import Idealize.ShloMosaic.Lib.Memref
import Idealize.ShloMosaic.Lib.Pipeline.Value
import Idealize.ShloMosaic.Lib.Tactic

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

theorem inb3 : ∀ s : Fin 3, ∀ a, (![s.val, 0, 0] : Fin 3 → Nat) a + S1x512x512.size a ≤ S3x512x512.size a := by decide
theorem inb2 : ∀ j : Fin 2, ∀ a, (![j.val, 0, 0] : Fin 3 → Nat) a + S1x512x512.size a ≤ S2x512x512.size a := by decide

/-- The rectangle of slot s of a three-slot buffer, and of slot j of the two-slot buffer. -/
abbrev r3 (s : Fin 3) : Rect S3x512x512 := Rect.unit (s := S3x512x512) ![s.val, 0, 0] S1x512x512.size (inb3 s)
abbrev r2 (j : Fin 2) : Rect S2x512x512 := Rect.unit (s := S2x512x512) ![j.val, 0, 0] S1x512x512.size (inb2 j)

/-- Slot s of the send buffer, of the receive buffer, and slot j of the exchange buffer, as the 512 × 512 views
    the remote copies move. -/
abbrev sslot (s : Fin 3) : Memref sig .tc .vmem S512x512 .bf16 := ((sM).slice (r3 s) (fun _ => rfl)).squeeze S512x512 squeezes_S1x512x512_S512x512
abbrev rslot (s : Fin 3) : Memref sig .tc .vmem S512x512 .bf16 := ((rM).slice (r3 s) (fun _ => rfl)).squeeze S512x512 squeezes_S1x512x512_S512x512
abbrev eslot (j : Fin 2) : Memref sig .tc .vmem S512x512 .bf16 := ((eM).slice (r2 j) (fun _ => rfl)).squeeze S512x512 squeezes_S1x512x512_S512x512

variable {Val : EltTy → Type}
variable {Ix : Type} [DecidableEq Ix] {Name : Type} [DecidableEq Name] {U : Type} [URA U] {Lvl : Type}

local notation "𝕄" => MT nD τ sig Ix Val Name U Lvl

/-! ## Which elements a slot's rectangle holds -/

private theorem forall_fin3 {P : Fin 3 → Prop} : (∀ a, P a) ↔ P 0 ∧ P 1 ∧ P 2 := by
  constructor
  · intro h; exact ⟨h 0, h 1, h 2⟩
  · rintro ⟨h0, h1, h2⟩ a; fin_cases a <;> assumption

/-- An element is in slot s exactly when its first coordinate is s. -/
theorem mem_r3 (s : Fin 3) (i : S3x512x512.Idx) : i ∈ (r3 s).set ↔ (i 0).val = s.val := by
  rw [Rect.mem_set_unit, forall_fin3]
  have h1 : (i 1).val < 512 := (i 1).isLt
  have h2 : (i 2).val < 512 := (i 2).isLt
  show ((s.val ≤ (i 0).val ∧ (i 0).val < s.val + 1) ∧ (0 ≤ (i 1).val ∧ (i 1).val < 0 + 512) ∧ (0 ≤ (i 2).val ∧ (i 2).val < 0 + 512)) ↔ _
  omega
theorem mem_r2 (j : Fin 2) (i : S2x512x512.Idx) : i ∈ (r2 j).set ↔ (i 0).val = j.val := by
  rw [Rect.mem_set_unit, forall_fin3]
  have h1 : (i 1).val < 512 := (i 1).isLt
  have h2 : (i 2).val < 512 := (i 2).isLt
  show ((j.val ≤ (i 0).val ∧ (i 0).val < j.val + 1) ∧ (0 ≤ (i 1).val ∧ (i 1).val < 0 + 512) ∧ (0 ≤ (i 2).val ∧ (i 2).val < 0 + 512)) ↔ _
  omega

theorem r3_disjoint {s t : Fin 3} (h : s ≠ t) : Disjoint (r3 s).set (r3 t).set :=
  Finset.disjoint_left.mpr fun i hs ht => h (Fin.ext (((mem_r3 s i).mp hs).symm.trans ((mem_r3 t i).mp ht)))
theorem r2_disjoint {s t : Fin 2} (h : s ≠ t) : Disjoint (r2 s).set (r2 t).set :=
  Finset.disjoint_left.mpr fun i hs ht => h (Fin.ext (((mem_r2 s i).mp hs).symm.trans ((mem_r2 t i).mp ht)))

theorem r3_cover : (Finset.univ : Finset S3x512x512.Idx) = (r3 0).set ∪ ((r3 1).set ∪ (r3 2).set) := by
  ext i
  simp only [Finset.mem_univ, Finset.mem_union, mem_r3, true_iff]
  have h0 : (i 0).val < 3 := (i 0).isLt
  show (i 0).val = 0 ∨ (i 0).val = 1 ∨ (i 0).val = 2
  omega
theorem r2_cover : (Finset.univ : Finset S2x512x512.Idx) = (r2 0).set ∪ (r2 1).set := by
  ext i
  simp only [Finset.mem_univ, Finset.mem_union, mem_r2, true_iff]
  have h0 : (i 0).val < 2 := (i 0).isLt
  show (i 0).val = 0 ∨ (i 0).val = 1
  omega

/-! ## A points-to over three, or two, separate sets that cover the buffer -/

section PointsTo
variable {ℓ : Loc nD τ sig} {q : PosShare TreeShare}

private theorem pointsTo_split3 {A0 A1 A2 : Finset (Idx ℓ)} (hc : Finset.univ = A0 ∪ (A1 ∪ A2)) (h01 : Disjoint A0 A1) (h02 : Disjoint A0 A2)
    (h12 : Disjoint A1 A2) (f : Buf Val ℓ) :
    (ℓ ↦{q} f : sProp 𝕄) ⊢ iprop((ℓ ↦[A0]{q} f) ∗ (ℓ ↦[A1]{q} f) ∗ (ℓ ↦[A2]{q} f)) := by
  rw [hc]
  refine (pointsTo_union (Finset.disjoint_union_right.mpr ⟨h01, h02⟩)).1.trans ?_
  iintro ⟨H0, H12⟩
  isplitl [H0]; · iexact H0
  iapply (pointsTo_union h12).1
  iexact H12

private theorem pointsTo_split2 {A0 A1 : Finset (Idx ℓ)} (hc : Finset.univ = A0 ∪ A1) (h01 : Disjoint A0 A1) (f : Buf Val ℓ) :
    (ℓ ↦{q} f : sProp 𝕄) ⊢ iprop((ℓ ↦[A0]{q} f) ∗ (ℓ ↦[A1]{q} f)) := by
  rw [hc]
  exact (pointsTo_union h01).1

private theorem pointsTo_join3 {A0 A1 A2 : Finset (Idx ℓ)} (hc : Finset.univ = A0 ∪ (A1 ∪ A2)) (h01 : Disjoint A0 A1) (h02 : Disjoint A0 A2)
    (h12 : Disjoint A1 A2) (f0 f1 f2 : Buf Val ℓ) :
    iprop((ℓ ↦[A0]{q} f0) ∗ (ℓ ↦[A1]{q} f1) ∗ (ℓ ↦[A2]{q} f2)) ⊢ (iprop(∃ f : Buf Val ℓ, ℓ ↦{q} f) : sProp 𝕄) := by
  classical
  iintro ⟨H0, H1, H2⟩
  iexists (A1 ∪ A2).piecewise (A2.piecewise f2 f1) f0
  rw [hc]
  iapply (pointsTo_join (Finset.disjoint_union_right.mpr ⟨h01, h02⟩))
  isplitl [H0]; · iexact H0
  iapply (pointsTo_join h12)
  isplitl [H1]; · iexact H1
  iexact H2

private theorem pointsTo_join2 {A0 A1 : Finset (Idx ℓ)} (hc : Finset.univ = A0 ∪ A1) (h01 : Disjoint A0 A1) (f0 f1 : Buf Val ℓ) :
    iprop((ℓ ↦[A0]{q} f0) ∗ (ℓ ↦[A1]{q} f1)) ⊢ (iprop(∃ f : Buf Val ℓ, ℓ ↦{q} f) : sProp 𝕄) := by
  classical
  iintro ⟨H0, H1⟩
  iexists A1.piecewise f1 f0
  rw [hc]
  iapply (pointsTo_join h01)
  isplitl [H0]; · iexact H0
  iexact H1

end PointsTo

/-! ## The slots' element sets -/

theorem sslot_set (s : Fin 3) : (sslot s).view.set = (r3 s).set :=
  (View.set_reshape ((sM).view.slice (r3 s)) squeezes_S1x512x512_S512x512.numel_eq).trans (View.set_slice_whole cc0_scratch0 (r3 s))
theorem rslot_set (s : Fin 3) : (rslot s).view.set = (r3 s).set :=
  (View.set_reshape ((rM).view.slice (r3 s)) squeezes_S1x512x512_S512x512.numel_eq).trans (View.set_slice_whole cc0_scratch1 (r3 s))
theorem eslot_set (j : Fin 2) : (eslot j).view.set = (r2 j).set :=
  (View.set_reshape ((eM).view.slice (r2 j)) squeezes_S1x512x512_S512x512.numel_eq).trans (View.set_slice_whole cc0_scratch2 (r2 j))

/-! ## The slots cover their buffer and are separate -/

theorem sslot_cover : (Finset.univ : Finset S3x512x512.Idx) = (sslot 0).view.set ∪ ((sslot 1).view.set ∪ (sslot 2).view.set) := by
  rw [sslot_set, sslot_set, sslot_set]; exact r3_cover
theorem rslot_cover : (Finset.univ : Finset S3x512x512.Idx) = (rslot 0).view.set ∪ ((rslot 1).view.set ∪ (rslot 2).view.set) := by
  rw [rslot_set, rslot_set, rslot_set]; exact r3_cover
theorem eslot_cover : (Finset.univ : Finset S2x512x512.Idx) = (eslot 0).view.set ∪ (eslot 1).view.set := by
  rw [eslot_set, eslot_set]; exact r2_cover
theorem sslot_disjoint {s t : Fin 3} (h : s ≠ t) : Disjoint (sslot s).view.set (sslot t).view.set := by
  rw [sslot_set, sslot_set]; exact r3_disjoint h
theorem rslot_disjoint {s t : Fin 3} (h : s ≠ t) : Disjoint (rslot s).view.set (rslot t).view.set := by
  rw [rslot_set, rslot_set]; exact r3_disjoint h
theorem eslot_disjoint {s t : Fin 2} (h : s ≠ t) : Disjoint (eslot s).view.set (eslot t).view.set := by
  rw [eslot_set, eslot_set]; exact r2_disjoint h

/-! ## A view and a re-indexing of it -/

/-- Reading through a view after an unmasked write through a re-indexing of it: at each index, the payload at the
    matched index. -/
private theorem read_write_reshape {κ : Kind} {sp : Space} {s s' : Shape} {e : EltTy} (v : View sig κ sp s e) (h : s'.numel = s.numel)
    (f : v.ty.Contents Val) (w : s'.Idx → Val e) (x : s.Idx) :
    v.read Val ((v.reshape s' h).write Val f w Finset.univ) x = w ((Shape.reshapeEquiv h).symm x) := by
  have hx : v.emb x = (v.reshape s' h).emb ((Shape.reshapeEquiv h).symm x) := by
    rw [View.emb_reshape, Function.Embedding.trans_apply, Equiv.coe_toEmbedding, Equiv.apply_symm_apply]
  rw [View.read_apply, hx, View.write_emb_of_mem _ _ (Finset.mem_univ _), cast_cast, cast_eq]

/-- A re-indexed view reads, at each index, what the view reads at the matched index. -/
private theorem read_reshape {κ : Kind} {sp : Space} {s s' : Shape} {e : EltTy} (v : View sig κ sp s e) (h : s'.numel = s.numel)
    (f : v.ty.Contents Val) (y : s'.Idx) :
    (v.reshape s' h).read Val f y = v.read Val f (Shape.reshapeEquiv h y) := rfl

/-! ## The rows of the result -/

/-- Every element of the result lies in the rows the device computes itself or in the rows it receives: the two
    row offsets are 0 and 512 in one order or the other. -/
theorem mem_own_or_oth (c : Dev nD) (i : S1024x512.Idx) : i ∈ (rectOwn c).set ∨ i ∈ (rectOth c).set := by
  rw [Rect.mem_set_unit, Rect.mem_set_unit, Gen.k0_off3_eq, Gen.k0_off4_eq, Fin.forall_fin_two, Fin.forall_fin_two]
  have hc : c.val < 32 := c.isLt
  have h0 : (i 0).val < 1024 := (i 0).isLt
  have h1 : (i 1).val < 512 := (i 1).isLt
  show ((512 * (c.val / 16) ≤ (i 0).val ∧ (i 0).val < 512 * (c.val / 16) + 512) ∧ (0 ≤ (i 1).val ∧ (i 1).val < 0 + 512)) ∨
       ((512 - 512 * (c.val / 16) ≤ (i 0).val ∧ (i 0).val < 512 - 512 * (c.val / 16) + 512) ∧ (0 ≤ (i 1).val ∧ (i 1).val < 0 + 512))
  omega

/-! ## A buffer is the separate union of its slots -/

theorem sM_split (c : Dev nD) (f : Buf Val ((c : Thread nD τ).loc cc0_scratch0)) :
    ((((c : Thread nD τ).loc cc0_scratch0) ↦{fullShare} f : sProp 𝕄))
      ⊢ iprop(((sslot 0).view.loc (c : Thread nD τ) ↦[(sslot 0).view.set]{fullShare} f)
          ∗ ((sslot 1).view.loc (c : Thread nD τ) ↦[(sslot 1).view.set]{fullShare} f)
          ∗ ((sslot 2).view.loc (c : Thread nD τ) ↦[(sslot 2).view.set]{fullShare} f)) :=
  pointsTo_split3 (ℓ := (c : Thread nD τ).loc cc0_scratch0) sslot_cover (sslot_disjoint (by decide)) (sslot_disjoint (by decide))
    (sslot_disjoint (by decide)) f

theorem rM_split (c : Dev nD) (f : Buf Val ((c : Thread nD τ).loc cc0_scratch1)) :
    ((((c : Thread nD τ).loc cc0_scratch1) ↦{fullShare} f : sProp 𝕄))
      ⊢ iprop(((rslot 0).view.loc (c : Thread nD τ) ↦[(rslot 0).view.set]{fullShare} f)
          ∗ ((rslot 1).view.loc (c : Thread nD τ) ↦[(rslot 1).view.set]{fullShare} f)
          ∗ ((rslot 2).view.loc (c : Thread nD τ) ↦[(rslot 2).view.set]{fullShare} f)) :=
  pointsTo_split3 (ℓ := (c : Thread nD τ).loc cc0_scratch1) rslot_cover (rslot_disjoint (by decide)) (rslot_disjoint (by decide))
    (rslot_disjoint (by decide)) f

theorem eM_split (c : Dev nD) (f : Buf Val ((c : Thread nD τ).loc cc0_scratch2)) :
    ((((c : Thread nD τ).loc cc0_scratch2) ↦{fullShare} f : sProp 𝕄))
      ⊢ iprop(((eslot 0).view.loc (c : Thread nD τ) ↦[(eslot 0).view.set]{fullShare} f)
          ∗ ((eslot 1).view.loc (c : Thread nD τ) ↦[(eslot 1).view.set]{fullShare} f)) :=
  pointsTo_split2 (ℓ := (c : Thread nD τ).loc cc0_scratch2) eslot_cover (eslot_disjoint (by decide)) f

theorem sM_join (c : Dev nD) (f0 f1 f2 : Buf Val ((c : Thread nD τ).loc cc0_scratch0)) :
    iprop(((sslot 0).view.loc (c : Thread nD τ) ↦[(sslot 0).view.set]{fullShare} f0)
          ∗ ((sslot 1).view.loc (c : Thread nD τ) ↦[(sslot 1).view.set]{fullShare} f1)
          ∗ ((sslot 2).view.loc (c : Thread nD τ) ↦[(sslot 2).view.set]{fullShare} f2))
      ⊢ (iprop(∃ f : Buf Val ((c : Thread nD τ).loc cc0_scratch0), ((c : Thread nD τ).loc cc0_scratch0) ↦{fullShare} f) : sProp 𝕄) :=
  pointsTo_join3 (ℓ := (c : Thread nD τ).loc cc0_scratch0) sslot_cover (sslot_disjoint (by decide)) (sslot_disjoint (by decide))
    (sslot_disjoint (by decide)) f0 f1 f2

theorem rM_join (c : Dev nD) (f0 f1 f2 : Buf Val ((c : Thread nD τ).loc cc0_scratch1)) :
    iprop(((rslot 0).view.loc (c : Thread nD τ) ↦[(rslot 0).view.set]{fullShare} f0)
          ∗ ((rslot 1).view.loc (c : Thread nD τ) ↦[(rslot 1).view.set]{fullShare} f1)
          ∗ ((rslot 2).view.loc (c : Thread nD τ) ↦[(rslot 2).view.set]{fullShare} f2))
      ⊢ (iprop(∃ f : Buf Val ((c : Thread nD τ).loc cc0_scratch1), ((c : Thread nD τ).loc cc0_scratch1) ↦{fullShare} f) : sProp 𝕄) :=
  pointsTo_join3 (ℓ := (c : Thread nD τ).loc cc0_scratch1) rslot_cover (rslot_disjoint (by decide)) (rslot_disjoint (by decide))
    (rslot_disjoint (by decide)) f0 f1 f2

theorem eM_join (c : Dev nD) (f0 f1 : Buf Val ((c : Thread nD τ).loc cc0_scratch2)) :
    iprop(((eslot 0).view.loc (c : Thread nD τ) ↦[(eslot 0).view.set]{fullShare} f0)
          ∗ ((eslot 1).view.loc (c : Thread nD τ) ↦[(eslot 1).view.set]{fullShare} f1))
      ⊢ (iprop(∃ f : Buf Val ((c : Thread nD τ).loc cc0_scratch2), ((c : Thread nD τ).loc cc0_scratch2) ↦{fullShare} f) : sProp 𝕄) :=
  pointsTo_join2 (ℓ := (c : Thread nD τ).loc cc0_scratch2) eslot_cover (eslot_disjoint (by decide)) f0 f1

/-! ## A slot's rectangle lies inside the slot -/

theorem sM_load_sub (s : Fin 3) : (sM).view.setOn (r3 s).toLoadRect.set ⊆ (sslot s).view.set := by
  intro i hi
  rw [sslot_set]
  obtain ⟨x, hx, rfl⟩ := Finset.mem_map.mp hi
  exact hx
theorem rM_load_sub (s : Fin 3) : (rM).view.setOn (r3 s).toLoadRect.set ⊆ (rslot s).view.set := by
  intro i hi
  rw [rslot_set]
  obtain ⟨x, hx, rfl⟩ := Finset.mem_map.mp hi
  exact hx
theorem eM_load_sub (j : Fin 2) : (eM).view.setOn (r2 j).toLoadRect.set ⊆ (eslot j).view.set := by
  intro i hi
  rw [eslot_set]
  obtain ⟨x, hx, rfl⟩ := Finset.mem_map.mp hi
  exact hx
theorem sM_store_sub (s : Fin 3) : ((sM).access (r3 s)).setOn Finset.univ ⊆ (sslot s).view.set :=
  Finset.subset_of_eq (View.set_reshape ((sM).view.slice (r3 s)) squeezes_S1x512x512_S512x512.numel_eq).symm
theorem eM_store_sub (j : Fin 2) : ((eM).access (r2 j)).setOn Finset.univ ⊆ (eslot j).view.set :=
  Finset.subset_of_eq (View.set_reshape ((eM).view.slice (r2 j)) squeezes_S1x512x512_S512x512.numel_eq).symm

/-! ## Reading a slot after a store, and after a copy -/

theorem sM_read_store (s : Fin 3) (f : (cc0_scratch0 : Ref sig .tc).ty.Contents Val) (v : (r3 s).shape.Idx → Val .bf16) :
    (sM).view.readAt Val (r3 s).toLoadRect (((sM).access (r3 s)).write Val f v Finset.univ) = v :=
  View.read_write_univ (v := (sM).access (r3 s)) f v
theorem eM_read_store (j : Fin 2) (f : (cc0_scratch2 : Ref sig .tc).ty.Contents Val) (v : (r2 j).shape.Idx → Val .bf16) :
    (eM).view.readAt Val (r2 j).toLoadRect (((eM).access (r2 j)).write Val f v Finset.univ) = v :=
  View.read_write_univ (v := (eM).access (r2 j)) f v
/-- A ring copy of slot s: the destination slot afterwards reads as the source slot did. -/
theorem rM_read_copy (s : Fin 3) (fd : (cc0_scratch1 : Ref sig .tc).ty.Contents Val) (fs : (cc0_scratch0 : Ref sig .tc).ty.Contents Val) :
    (rM).view.readAt Val (r3 s).toLoadRect ((rslot s).view.write Val fd ((sslot s).view.read Val fs) Finset.univ)
      = (sM).view.readAt Val (r3 s).toLoadRect fs := by
  funext x
  have h := read_write_reshape (Val := Val) ((rM).view.slice (r3 s)) squeezes_S1x512x512_S512x512.numel_eq fd ((sslot s).view.read Val fs) x
  refine h.trans ?_
  have h' := read_reshape (Val := Val) ((sM).view.slice (r3 s)) squeezes_S1x512x512_S512x512.numel_eq fs
    ((Shape.reshapeEquiv squeezes_S1x512x512_S512x512.numel_eq).symm x)
  refine h'.trans ?_
  rw [Equiv.apply_symm_apply]
  rfl
/-- The exchange copy, slot 0 to slot 1. -/
theorem eM_read_copy (fd fs : (cc0_scratch2 : Ref sig .tc).ty.Contents Val) :
    (eM).view.readAt Val (r2 1).toLoadRect ((eslot 1).view.write Val fd ((eslot 0).view.read Val fs) Finset.univ)
      = (eM).view.readAt Val (r2 0).toLoadRect fs := by
  funext x
  have h := read_write_reshape (Val := Val) ((eM).view.slice (r2 1)) squeezes_S1x512x512_S512x512.numel_eq fd ((eslot 0).view.read Val fs) x
  refine h.trans ?_
  have h' := read_reshape (Val := Val) ((eM).view.slice (r2 0)) squeezes_S1x512x512_S512x512.numel_eq fs
    ((Shape.reshapeEquiv squeezes_S1x512x512_S512x512.numel_eq).symm x)
  refine h'.trans ?_
  rw [Equiv.apply_symm_apply]
  rfl

/-! ## The two half stores cover the result -/

variable {F : FTy → Type} [FloatOps F]

theorem outFrom_indep (X : Dev nD → XTy F) (c : Dev nD) (g g' : OTy F) : outFrom X c g = outFrom X c g' := by
  funext i
  unfold outFrom
  by_cases hO : i ∈ ((oM).access (rectOth c)).setOn Finset.univ
  · obtain ⟨y, -, rfl⟩ := Finset.mem_map.mp hO
    rw [View.write_emb_of_mem _ _ (Finset.mem_univ y), View.write_emb_of_mem _ _ (Finset.mem_univ y)]
  · rw [View.write_of_not_mem _ _ _ hO, View.write_of_not_mem _ _ _ hO]
    have hW : i ∈ ((oM).access (rectOwn c)).setOn Finset.univ := by
      rcases mem_own_or_oth c i with h | h
      · have e : ((oM).access (rectOwn c)).setOn Finset.univ = (rectOwn c).set := View.set_slice_whole cc0_stg1_0 (rectOwn c)
        rw [e]; exact h
      · have e : ((oM).access (rectOth c)).setOn Finset.univ = (rectOth c).set := View.set_slice_whole cc0_stg1_0 (rectOth c)
        rw [e] at hO; exact absurd h hO
    obtain ⟨y, -, rfl⟩ := Finset.mem_map.mp hW
    rw [View.write_emb_of_mem _ _ (Finset.mem_univ y), View.write_emb_of_mem _ _ (Finset.mem_univ y)]

end Cert.Kernel.Rs

end
-- ==== Proof.RkSched.lean ====
/-
  The protocol of the ring reduce-scatter, as a schedule of rounds.

  Every device has nine cells, each with one round. Its barrier cell takes three one-unit duties: one from the next
  device along y, which hands over its three receive slots (so that this device may write into them); one from the
  previous device, which hands over nothing; one from the device of the other x, which hands over slot 1 of its
  exchange buffer. Send cell s gives back slot s of the send buffer once the copy has read it. Receive cell s is
  paid by the previous device's copy s and hands over receive slot s holding that device's running sum of step s.
  The exchange send cell gives back exchange slot 0; the exchange receive cell hands over exchange slot 1 holding
  the other device's complete sum, narrowed.

  A device signals its three peers, waits for all three, and then alternates copy, wait-send, wait-receive. Each
  wait sits strictly below everything the device still owes: barrier < send 0 < receive 0 < send 1 < … < exchange
  receive; the pipeline's own staging cells are lowest.
-/
import proofs.«901043_g7700000000001044_dist_rs_v7x_xyz2x4x4_y_m1024_n512_bf16_1_alg».proof.Proof.RkSlots
import proofs.«901043_g7700000000001044_dist_rs_v7x_xyz2x4x4_y_m1024_n512_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties numbered 0, 1, 2) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores and the cells -/

theorem inq3 : ∀ s : Fin 3, ∀ a, (![s.val] : Fin 1 → Nat) a + S1.size a ≤ S3.size a := by decide
abbrev q3 (s : Fin 3) : Rect S3 := Rect.unit (s := S3) ![s.val] S1.size (inq3 s)

abbrev barS : Sem sig := (SemArray.scalar (sig.barrier 0 rfl) : Sems sig S_).sem
abbrev sendS (s : Fin 3) : DmaSem sig := ((cc0_scratch3.slice (q3 s)).squeeze S_ squeezes_S1_S_).sem
abbrev recvS (s : Fin 3) : DmaSem sig := ((cc0_scratch4.slice (q3 s)).squeeze S_ squeezes_S1_S_).sem
abbrev xsendS : DmaSem sig := (cc0_scratch5).sem
abbrev xrecvS : DmaSem sig := (cc0_scratch6).sem

/-- The nine semaphores of the protocol: barrier; send 0, 1, 2; receive 0, 1, 2; exchange send, exchange receive. -/
abbrev csem : Fin 9 → SemLoc sig := fun k =>
  if k = 0 then .reg barS else if k = 1 then .dma (sendS 0) else if k = 2 then .dma (sendS 1) else if k = 3 then .dma (sendS 2)
  else if k = 4 then .dma (recvS 0) else if k = 5 then .dma (recvS 1) else if k = 6 then .dma (recvS 2)
  else if k = 7 then .dma xsendS else .dma xrecvS
abbrev cell (c : Dev nD) (k : Fin 9) : GSem nD τ sig := ((c : Thread nD τ), csem k)
abbrev kcell (ck : Dev nD × Fin 9) : GSem nD τ sig := cell ck.1 ck.2

/-- Which of the nine a semaphore is, if any. -/
def kOf (sm : SemLoc sig) : Option (Fin 9) := (List.finRange 9).find? (fun k => decide (csem k = sm))
theorem kOf_csem : ∀ k : Fin 9, kOf (csem k) = some k := by decide
theorem csem_injective : Function.Injective csem := fun a b h => Option.some.inj ((kOf_csem a).symm.trans ((congrArg kOf h).trans (kOf_csem b)))

/-- The credit of one slot's transfer, on the ring buffers and on the exchange buffer. -/
abbrev N3 : ℕ := (rslot 0).view.dmaCredit
abbrev NE : ℕ := (eslot 1).view.dmaCredit
theorem N3_pos : 0 < N3 := View.dmaCredit_pos _ (by decide)
theorem NE_pos : 0 < NE := View.dmaCredit_pos _ (by decide)

/-! ## What a slot holds -/

/-- Slot s of device c's send / receive buffer, slot j of its exchange buffer, at some contents. -/
def anyS (c : Dev nD) (s : Fin 3) : sProp 𝕄 :=
  iprop(∃ f : Buf (Elt F) ((sslot s).view.loc (c : Thread nD τ)), (sslot s).view.loc (c : Thread nD τ) ↦[(sslot s).view.set]{fullShare} f)
def anyR (c : Dev nD) (s : Fin 3) : sProp 𝕄 :=
  iprop(∃ f : Buf (Elt F) ((rslot s).view.loc (c : Thread nD τ)), (rslot s).view.loc (c : Thread nD τ) ↦[(rslot s).view.set]{fullShare} f)
def anyE (c : Dev nD) (j : Fin 2) : sProp 𝕄 :=
  iprop(∃ f : Buf (Elt F) ((eslot j).view.loc (c : Thread nD τ)), (eslot j).view.loc (c : Thread nD τ) ↦[(eslot j).view.set]{fullShare} f)
/-- Receive slot s of device c holding V: a load of the slot's rectangle reads V. -/
def holdsR (c : Dev nD) (s : Fin 3) (V : Vec F S1x512x512 .bf16) : sProp 𝕄 :=
  iprop(∃ f : Buf (Elt F) ((rslot s).view.loc (c : Thread nD τ)), ⌜(rM).view.readAt (Elt F) (r3 s).toLoadRect f = V⌝
    ∗ ((rslot s).view.loc (c : Thread nD τ) ↦[(rslot s).view.set]{fullShare} f))
/-- Exchange slot 1 of device c holding V. -/
def holdsE (c : Dev nD) (V : Vec F S1x512x512 .bf16) : sProp 𝕄 :=
  iprop(∃ f : Buf (Elt F) ((eslot 1).view.loc (c : Thread nD τ)), ⌜(eM).view.readAt (Elt F) (r2 1).toLoadRect f = V⌝
    ∗ ((eslot 1).view.loc (c : Thread nD τ) ↦[(eslot 1).view.set]{fullShare} f))

instance anyS_storable (c : Dev nD) (s : Fin 3) : BI.Storable (upEmb : UEmb _ 𝕄) (anyS (F := F) c s) := by unfold anyS; infer_instance
instance anyR_storable (c : Dev nD) (s : Fin 3) : BI.Storable (upEmb : UEmb _ 𝕄) (anyR (F := F) c s) := by unfold anyR; infer_instance
instance anyE_storable (c : Dev nD) (j : Fin 2) : BI.Storable (upEmb : UEmb _ 𝕄) (anyE (F := F) c j) := by unfold anyE; infer_instance
instance holdsR_storable (c : Dev nD) (s : Fin 3) (V : Vec F S1x512x512 .bf16) : BI.Storable (upEmb : UEmb _ 𝕄) (holdsR (F := F) c s V) := by
  unfold holdsR; infer_instance
instance holdsE_storable (c : Dev nD) (V : Vec F S1x512x512 .bf16) : BI.Storable (upEmb : UEmb _ 𝕄) (holdsE (F := F) c V) := by
  unfold holdsE; infer_instance

variable (X : Dev nD → XTy F)

/-- The payload of duty d of cell k of device c. -/
def payK (c : Dev nD) (k : Fin 9) (d : Fin 3) : sProp 𝕄 :=
  if k = 0 then (if d = 0 then iprop(anyR (rgt c) 0 ∗ anyR (rgt c) 1 ∗ anyR (rgt c) 2) else if d = 2 then anyE (oth c) 1 else iprop(emp))
  else if k = 1 then anyS c 0 else if k = 2 then anyS c 1 else if k = 3 then anyS c 2
  else if k = 4 then holdsR c 0 (part0 X (lft c)) else if k = 5 then holdsR c 1 (part1 X (lft c))
  else if k = 6 then holdsR c 2 (part2 X (lft c))
  else if k = 7 then anyE c 0 else holdsE c (fullNarrow X (oth c))

/-! ## The schedule -/

def rsRd : Rounds.Schedule (GSem nD τ sig) (Fin 3) 𝕄 where
  duties g r := if r = 0 ∧ g.1.2 = .tc then (match kOf g.2 with | some k => if k = 0 then Finset.univ else {0} | none => ∅) else ∅
  unitless _ := False
  amount g _ _ := match kOf g.2 with | some k => if k = 0 then 1 else if k.val < 7 then N3 else NE | none => 1
  payload g _ d := match kOf g.2 with | some k => payK X g.1.1 k d | none => iprop(emp)
  amount_pos g _ _ _ := by
    show 0 < (match kOf g.2 with | some k => if k = 0 then 1 else if k.val < 7 then N3 else NE | none => 1)
    cases kOf g.2 with
    | none => exact Nat.one_pos
    | some k =>
      show 0 < (if k = 0 then 1 else if k.val < 7 then N3 else NE)
      split
      · exact Nat.one_pos
      split
      · exact N3_pos
      · exact NE_pos

instance rsRd_payload_storable (g : GSem nD τ sig) (r : ℕ) (d : Fin 3) :
    BI.Storable (upEmb : UEmb _ 𝕄) ((rsRd (F := F) X).payload g r d) := by
  show BI.Storable upEmb (match kOf g.2 with | some k => payK X g.1.1 k d | none => iprop(emp))
  cases kOf g.2 with
  | none => infer_instance
  | some k =>
    show BI.Storable upEmb (payK X g.1.1 k d)
    unfold payK
    (repeat' split) <;> infer_instance

section Sched
variable (c : Dev nD)

theorem duties_bar : (rsRd (F := F) X).duties (cell c 0) 0 = Finset.univ := by
  dsimp only [rsRd]; rw [if_pos ⟨rfl, rfl⟩, kOf_csem]; rfl
theorem duties_xfer (k : Fin 9) (hk : k ≠ 0) : (rsRd (F := F) X).duties (cell c k) 0 = {0} := by
  dsimp only [rsRd]; rw [if_pos ⟨rfl, rfl⟩, kOf_csem]; exact if_neg hk
theorem duties_later (g : GSem nD τ sig) : ∀ r, 1 ≤ r → (rsRd (F := F) X).duties g r = ∅ :=
  fun r hr => by dsimp only [rsRd]; exact if_neg (fun h => by omega)

theorem amount_bar (d : Fin 3) : (rsRd (F := F) X).amount (cell c 0) 0 d = 1 := by
  dsimp only [rsRd]; rw [kOf_csem]; rfl
theorem amount_ring (k : Fin 9) (hk : k ≠ 0) (hk7 : k.val < 7) (d : Fin 3) : (rsRd (F := F) X).amount (cell c k) 0 d = N3 := by
  dsimp only [rsRd]; rw [kOf_csem]; show (if k = 0 then 1 else if k.val < 7 then N3 else NE) = N3; rw [if_neg hk, if_pos hk7]
theorem amount_exch (k : Fin 9) (hk7 : 7 ≤ k.val) (d : Fin 3) : (rsRd (F := F) X).amount (cell c k) 0 d = NE := by
  dsimp only [rsRd]; rw [kOf_csem]; show (if k = 0 then 1 else if k.val < 7 then N3 else NE) = NE
  rw [if_neg (fun h => by rw [h] at hk7; exact absurd hk7 (by decide)), if_neg (by omega)]

theorem expect_bar : (rsRd (F := F) X).expect (cell c 0) 0 = 3 := by
  unfold Schedule.expect Schedule.amountOf
  rw [duties_bar, Finset.sum_congr rfl fun d _ => amount_bar X c d, Finset.sum_const, Finset.card_univ, Fintype.card_fin, smul_eq_mul]
theorem expect_ring (k : Fin 9) (hk : k ≠ 0) (hk7 : k.val < 7) : (rsRd (F := F) X).expect (cell c k) 0 = N3 := by
  unfold Schedule.expect Schedule.amountOf; rw [duties_xfer X c k hk, Finset.sum_singleton, amount_ring X c k hk hk7]
theorem expect_exch (k : Fin 9) (hk7 : 7 ≤ k.val) : (rsRd (F := F) X).expect (cell c k) 0 = NE := by
  unfold Schedule.expect Schedule.amountOf
  rw [duties_xfer X c k (fun h => by rw [h] at hk7; exact absurd hk7 (by decide)), Finset.sum_singleton, amount_exch X c k hk7]

theorem payload_cell (k : Fin 9) (d : Fin 3) : (rsRd (F := F) X).payload (cell c k) 0 d = payK X c k d := by
  dsimp only [rsRd]; rw [kOf_csem]

/-- The whole of the barrier cell's round: the next device's three receive slots, nothing, the other device's exchange slot 1. -/
theorem rest_bar : bigSep ((rsRd (F := F) X).duties (cell c 0) 0 \ ∅) (fun d => (rsRd (F := F) X).payload (cell c 0) 0 d)
    = iprop((anyR (rgt c) 0 ∗ anyR (rgt c) 1 ∗ anyR (rgt c) 2) ∗ emp ∗ anyE (oth c) 1) := by
  rw [Finset.sdiff_empty, duties_bar, bigSep_univ_eq_bigSepL [(0 : Fin 3), 1, 2] (by decide) (by decide)]
  simp only [bigSepL_cons_cons, bigSepL_singleton, payload_cell]
  rfl
theorem rest_xfer (k : Fin 9) (hk : k ≠ 0) : bigSep ((rsRd (F := F) X).duties (cell c k) 0 \ ∅) (fun d => (rsRd (F := F) X).payload (cell c k) 0 d)
    = payK X c k 0 := by
  rw [Finset.sdiff_empty, duties_xfer X c k hk, bigSep_singleton, payload_cell]

end Sched

end Cert.Kernel.Rs

end
-- ==== Proof.RkLevels.lean ====
/-
  What a device owes, point by point, and why none of its waits can block for ever.

  At launch device c owes: one unit to each of its three peers' barrier cells, the credit of receive slots 0, 1, 2 of
  its next device along y, and the credit of the exchange receive slot of the device of the other x. It pays them in
  that order, so what it still owes at each point is a tail of that list. Levels: a barrier cell 1; send s at 2 + 2s,
  receive s at 3 + 2s; the exchange send 8 and receive 9; every other cell (the pipeline's staging) 0. At each of its
  waits the cell waited on is strictly below every cell the device still owes.
-/
import proofs.«901043_g7700000000001044_dist_rs_v7x_xyz2x4x4_y_m1024_n512_bf16_1_alg».proof.Proof.RkSched

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What is owed -/

/-- Still owed before the exchange copy; before ring copy 2; 1; 0 (that is, at the barrier wait); before the signal to
    the other x; to the next device; and at launch. -/
def O1 (c : Dev nD) : CellTallies nD τ sig Unit := 0 + tallyAt (cell (oth c) 8) () NE
def O2 (c : Dev nD) : CellTallies nD τ sig Unit := O1 c + tallyAt (cell (rgt c) 6) () N3
def O3 (c : Dev nD) : CellTallies nD τ sig Unit := O2 c + tallyAt (cell (rgt c) 5) () N3
def O4 (c : Dev nD) : CellTallies nD τ sig Unit := O3 c + tallyAt (cell (rgt c) 4) () N3
def O5 (c : Dev nD) : CellTallies nD τ sig Unit := O4 c + tallyAt (cell (oth c) 0) () 1
def O6 (c : Dev nD) : CellTallies nD τ sig Unit := O5 c + tallyAt (cell (rgt c) 0) () 1
def O₀ (c : Dev nD) : CellTallies nD τ sig Unit := O6 c + tallyAt (cell (lft c) 0) () 1

theorem pos_add_tally {A : CellTallies nD τ sig Unit} {g g' : GSem nD τ sig} {n : ℕ} {u : Unit}
    (h : 0 < (A + tallyAt g () n) g' u) : 0 < A g' u ∨ g' = g := by
  rcases Pipeline.add_pos_cases h with h | h
  · exact .inl h
  · right
    rw [tallyAt_apply] at h
    by_contra hn
    rw [if_neg (fun h' => hn h'.1)] at h
    exact Nat.lt_irrefl 0 h

theorem O1_pos {c : Dev nD} {g : GSem nD τ sig} {u : Unit} (h : 0 < O1 c g u) : g = cell (oth c) 8 := by
  rcases pos_add_tally h with h | h
  · exact absurd h (Nat.lt_irrefl 0)
  · exact h
theorem O2_pos {c : Dev nD} {g : GSem nD τ sig} {u : Unit} (h : 0 < O2 c g u) : g = cell (oth c) 8 ∨ g = cell (rgt c) 6 := by
  rcases pos_add_tally h with h | h
  · exact .inl (O1_pos h)
  · exact .inr h
theorem O3_pos {c : Dev nD} {g : GSem nD τ sig} {u : Unit} (h : 0 < O3 c g u) :
    g = cell (oth c) 8 ∨ g = cell (rgt c) 6 ∨ g = cell (rgt c) 5 := by
  rcases pos_add_tally h with h | h
  · rcases O2_pos h with h | h
    · exact .inl h
    · exact .inr (.inl h)
  · exact .inr (.inr h)
theorem O4_pos {c : Dev nD} {g : GSem nD τ sig} {u : Unit} (h : 0 < O4 c g u) :
    g = cell (oth c) 8 ∨ g = cell (rgt c) 6 ∨ g = cell (rgt c) 5 ∨ g = cell (rgt c) 4 := by
  rcases pos_add_tally h with h | h
  · rcases O3_pos h with h | h | h
    · exact .inl h
    · exact .inr (.inl h)
    · exact .inr (.inr (.inl h))
  · exact .inr (.inr (.inr h))
theorem O₀_pos {c : Dev nD} {g : GSem nD τ sig} {u : Unit} (h : 0 < O₀ c g u) :
    g = cell (oth c) 8 ∨ g = cell (rgt c) 6 ∨ g = cell (rgt c) 5 ∨ g = cell (rgt c) 4 ∨ g = cell (oth c) 0 ∨ g = cell (rgt c) 0 ∨ g = cell (lft c) 0 := by
  rcases pos_add_tally h with h | h
  · rcases pos_add_tally h with h | h
    · rcases pos_add_tally h with h | h
      · rcases O4_pos h with h | h | h | h
        · exact .inl h
        · exact .inr (.inl h)
        · exact .inr (.inr (.inl h))
        · exact .inr (.inr (.inr (.inl h)))
      · exact .inr (.inr (.inr (.inr (.inl h))))
    · exact .inr (.inr (.inr (.inr (.inr (.inl h)))))
  · exact .inr (.inr (.inr (.inr (.inr (.inr h)))))

/-! ## The levels -/

def L (g : GSem nD τ sig) : Finset Unit := if g.1.2 = .tc then {()} else ∅
/-- barrier 1; send 0, 1, 2 at 2, 4, 6; receive 0, 1, 2 at 3, 5, 7; exchange send 8, receive 9. -/
def lvK : Fin 9 → ℕ := ![1, 2, 4, 6, 3, 5, 7, 8, 9]
def lv (g : GSem nD τ sig) (_ : Unit) : ℕ := match kOf g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 9) (u : Unit) : lv (cell c k) u = lvK k := by
  show (match kOf (csem k) with | some k => lvK k | none => 0) = lvK k
  rw [kOf_csem]
theorem lv_other (c : Dev nD) (sm : SemLoc sig) (h : kOf sm = none) (u : Unit) : lv ((c : Thread nD τ), sm) u = 0 := by
  show (match kOf sm with | some k => lvK k | none => 0) = 0
  rw [h]

/-- A wait on a cell at level ≤ b while everything owed lies above b. -/
theorem mayWait_cut (c : Dev nD) (sm : SemLoc sig) (b : ℕ) (hb : lv ((c : Thread nD τ), sm) () ≤ b) (O : CellTallies nD τ sig Unit)
    (hO : ∀ g u, 0 < O g u → g.1.2 = .tc ∧ b < lv g u) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hb)
    (fun g u hg => (hO g u hg).2)

/-- The nine waits of device c, each with what it owes there. -/
theorem mayWait_bar (c : Dev nD) : (levAts L lv : sProp 𝕄) ⊢ MayWait (c : Thread nD τ) (csem 0) () (O4 c) :=
  mayWait_cut c _ 1 (by rw [lv_cell]; decide) _ fun g u h => by
    rcases O4_pos h with rfl | rfl | rfl | rfl <;> exact ⟨rfl, by rw [lv_cell]; decide⟩
theorem mayWait_send0 (c : Dev nD) : (levAts L lv : sProp 𝕄) ⊢ MayWait (c : Thread nD τ) (csem 1) () (O3 c) :=
  mayWait_cut c _ 2 (by rw [lv_cell]; decide) _ fun g u h => by
    rcases O3_pos h with rfl | rfl | rfl <;> exact ⟨rfl, by rw [lv_cell]; decide⟩
theorem mayWait_recv0 (c : Dev nD) : (levAts L lv : sProp 𝕄) ⊢ MayWait (c : Thread nD τ) (csem 4) () (O3 c) :=
  mayWait_cut c _ 3 (by rw [lv_cell]; decide) _ fun g u h => by
    rcases O3_pos h with rfl | rfl | rfl <;> exact ⟨rfl, by rw [lv_cell]; decide⟩
theorem mayWait_send1 (c : Dev nD) : (levAts L lv : sProp 𝕄) ⊢ MayWait (c : Thread nD τ) (csem 2) () (O2 c) :=
  mayWait_cut c _ 4 (by rw [lv_cell]; decide) _ fun g u h => by
    rcases O2_pos h with rfl | rfl <;> exact ⟨rfl, by rw [lv_cell]; decide⟩
theorem mayWait_recv1 (c : Dev nD) : (levAts L lv : sProp 𝕄) ⊢ MayWait (c : Thread nD τ) (csem 5) () (O2 c) :=
  mayWait_cut c _ 5 (by rw [lv_cell]; decide) _ fun g u h => by
    rcases O2_pos h with rfl | rfl <;> exact ⟨rfl, by rw [lv_cell]; decide⟩
theorem mayWait_send2 (c : Dev nD) : (levAts L lv : sProp 𝕄) ⊢ MayWait (c : Thread nD τ) (csem 3) () (O1 c) :=
  mayWait_cut c _ 6 (by rw [lv_cell]; decide) _ fun g u h => by
    rw [O1_pos h]; exact ⟨rfl, by rw [lv_cell]; decide⟩
theorem mayWait_recv2 (c : Dev nD) : (levAts L lv : sProp 𝕄) ⊢ MayWait (c : Thread nD τ) (csem 6) () (O1 c) :=
  mayWait_cut c _ 7 (by rw [lv_cell]; decide) _ fun g u h => by
    rw [O1_pos h]; exact ⟨rfl, by rw [lv_cell]; decide⟩

/-- A wait on a cell that is none of the nine (the pipeline's staging cells), whatever of the launch debt is still owed. -/
theorem mayWait_other (c : Dev nD) (sm : SemLoc sig) (hsm : kOf sm = none) (O : CellTallies nD τ sig Unit) (hO : O = O₀ c ∨ O = 0) :
    (levAts L lv : sProp 𝕄) ⊢ MayWait (c : Thread nD τ) sm () O := by
  rcases hO with rfl | rfl
  · exact mayWait_cut c sm 0 (by rw [lv_other c sm hsm]) _ fun g u h => by
      rcases O₀_pos h with rfl | rfl | rfl | rfl | rfl | rfl | rfl <;> exact ⟨rfl, by rw [lv_cell]; decide⟩
  · rw [MayWait_zero]; iintro -; iempintro

end Cert.Kernel.Rs

end
-- ==== Proof.RkInput.lean ====
/-
  The staged input of a device: the pipeline fetches the device's whole argument block (1 × 1024 × 2048) once.
-/
import proofs.«901043_g7700000000001044_dist_rs_v7x_xyz2x4x4_y_m1024_n512_bf16_1_alg».proof.Proof.RkVals

noncomputable section

namespace Cert.Kernel.Rs

open Cert.Kernel Cert.Kernel.Gen
open Idealize.ShloMosaic Idealize.ShloMosaic.TcCoe Idealize.SL.Sem

variable {F : FTy → Type} [FloatOps F]

/-- What device c's input staging buffer holds while the body runs: the one block of its argument array. -/
def xstg (m : (ℓ : Loc nD τ sig) → Buf (Elt F) ℓ) (c : Dev nD) : XTy F :=
  (win0_0.blk (0 : Fin 1)).view.read (Elt F) (m ((c : Thread nD τ).loc main_arg0))

end Cert.Kernel.Rs

end
-- ==== Proof.RkData.lean ====
/-
  The proof data of the ring reduce-scatter: what each device holds when its body starts and when it ends.

  When its body starts device c holds: the invariants of the cells it touches (its own nine; the barrier cells of its
  three peers; the three receive cells of its next device; the exchange receive cell of the other-x device); its
  position at the start of each of its own cells; the tokens of the eleven duties it pays (one on each peer's barrier
  cell, the three receive slots of the next device, the exchange receive slot of the other-x device, and its own four
  send cells); the credit its peers owe its barrier, receive and exchange-receive cells; and its three scratch buffers
  whole. When it ends it holds the three scratch buffers whole again and its eight own DMA cells closed at zero; its
  staged result is the sum described in the values module.
-/
import proofs.«901043_g7700000000001044_dist_rs_v7x_xyz2x4x4_y_m1024_n512_bf16_1_alg».proof.Proof.RkLevels
import proofs.«901043_g7700000000001044_dist_rs_v7x_xyz2x4x4_y_m1024_n512_bf16_1_alg».proof.Proof.RkInput
import proofs.«901043_g7700000000001044_dist_rs_v7x_xyz2x4x4_y_m1024_n512_bf16_1_alg».proof.Proof.Gen.Kernel.Points

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The schedule at this memory's staged inputs. -/
abbrev Rd : Rounds.Schedule (GSem nD τ sig) (Fin 3) 𝕄 := rsRd (F := F) (xstg m)

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device c's body opens, under the names K the launch allocated them at. -/
def invs (K : Dev nD × Fin 9 → ℕ) (c : Dev nD) : sProp 𝕄 :=
  iprop(cellInv ER (Rd m) (K (c, 0)) (cell c 0) ∗ cellInv ER (Rd m) (K (c, 1)) (cell c 1) ∗ cellInv ER (Rd m) (K (c, 2)) (cell c 2)
    ∗ cellInv ER (Rd m) (K (c, 3)) (cell c 3) ∗ cellInv ER (Rd m) (K (c, 4)) (cell c 4) ∗ cellInv ER (Rd m) (K (c, 5)) (cell c 5)
    ∗ cellInv ER (Rd m) (K (c, 6)) (cell c 6) ∗ cellInv ER (Rd m) (K (c, 7)) (cell c 7) ∗ cellInv ER (Rd m) (K (c, 8)) (cell c 8)
    ∗ cellInv ER (Rd m) (K (lft c, 0)) (cell (lft c) 0) ∗ cellInv ER (Rd m) (K (rgt c, 0)) (cell (rgt c) 0) ∗ cellInv ER (Rd m) (K (oth c, 0)) (cell (oth c) 0)
    ∗ cellInv ER (Rd m) (K (rgt c, 4)) (cell (rgt c) 4) ∗ cellInv ER (Rd m) (K (rgt c, 5)) (cell (rgt c) 5) ∗ cellInv ER (Rd m) (K (rgt c, 6)) (cell (rgt c) 6)
    ∗ cellInv ER (Rd m) (K (oth c, 8)) (cell (oth c) 8))

instance invs_persistent (K : Dev nD × Fin 9 → ℕ) (c : Dev nD) : BI.Persistent (invs m K c) := by unfold invs; infer_instance

/-- Device c's positions at the start of its nine cells. -/
def positions (c : Dev nD) : sProp 𝕄 :=
  iprop(atPos ER (cell c 0) 0 ∅ 0 ∗ atPos ER (cell c 1) 0 ∅ 0 ∗ atPos ER (cell c 2) 0 ∅ 0 ∗ atPos ER (cell c 3) 0 ∅ 0 ∗ atPos ER (cell c 4) 0 ∅ 0
    ∗ atPos ER (cell c 5) 0 ∅ 0 ∗ atPos ER (cell c 6) 0 ∅ 0 ∗ atPos ER (cell c 7) 0 ∅ 0 ∗ atPos ER (cell c 8) 0 ∅ 0)

/-- Round 0 reached, of every cell device c pays. -/
def reacheds (c : Dev nD) : sProp 𝕄 :=
  iprop(reached ER (cell (lft c) 0) 0 ∗ reached ER (cell (rgt c) 0) 0 ∗ reached ER (cell (oth c) 0) 0
    ∗ reached ER (cell (rgt c) 4) 0 ∗ reached ER (cell (rgt c) 5) 0 ∗ reached ER (cell (rgt c) 6) 0 ∗ reached ER (cell (oth c) 8) 0
    ∗ reached ER (cell c 1) 0 ∗ reached ER (cell c 2) 0 ∗ reached ER (cell c 3) 0 ∗ reached ER (cell c 7) 0)

instance reacheds_persistent (c : Dev nD) : BI.Persistent (reacheds (F := F) c) := by unfold reacheds; infer_instance

/-- The tokens of the eleven duties device c pays: duty 0 of its previous device's barrier (it is that device's next),
    duty 1 of its next device's barrier, duty 2 of the other-x device's barrier; the next device's three receive
    cells; the other-x device's exchange receive cell; its own three send cells and exchange send cell. -/
def payToks (c : Dev nD) : sProp 𝕄 :=
  iprop(dutyTok ER (cell (lft c) 0) 0 0 ∗ dutyTok ER (cell (rgt c) 0) 0 1 ∗ dutyTok ER (cell (oth c) 0) 0 2
    ∗ dutyTok ER (cell (rgt c) 4) 0 0 ∗ dutyTok ER (cell (rgt c) 5) 0 0 ∗ dutyTok ER (cell (rgt c) 6) 0 0 ∗ dutyTok ER (cell (oth c) 8) 0 0
    ∗ dutyTok ER (cell c 1) 0 0 ∗ dutyTok ER (cell c 2) 0 0 ∗ dutyTok ER (cell c 3) 0 0 ∗ dutyTok ER (cell c 7) 0 0)

/-- The protocol's ghost state device c starts from. -/
def ghost (K : Dev nD × Fin 9 → ℕ) (c : Dev nD) : sProp 𝕄 :=
  iprop(invs m K c ∗ positions c ∗ reacheds c ∗ payToks c)

/-- The credit its peers owe device c: three units on its barrier, a slot's credit on each receive cell and on the
    exchange receive cell. -/
def creds0 (c : Dev nD) : sProp 𝕄 :=
  iprop(cred (tallyAt (cell c 0) () 3) ∗ cred (tallyAt (cell c 4) () N3) ∗ cred (tallyAt (cell c 5) () N3)
    ∗ cred (tallyAt (cell c 6) () N3) ∗ cred (tallyAt (cell c 8) () NE))

/-- The three scratch buffers of device c, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What device c's body starts from, besides the staged windows. -/
def start (c : Dev nD) : sProp 𝕄 :=
  iprop((∃ K, ghost m K c) ∗ creds0 c ∗ levAts L lv)

def Φ₀ (c : Dev nD) : sProp 𝕄 := iprop(start m c ∗ scratch c)

/-- Its eight own DMA cells closed, their counters at zero. -/
def closed8 (c : Dev nD) : sProp 𝕄 :=
  iprop(semVal (cell c 1) 0 ∗ semVal (cell c 2) 0 ∗ semVal (cell c 3) 0 ∗ semVal (cell c 4) 0 ∗ semVal (cell c 5) 0
    ∗ semVal (cell c 6) 0 ∗ semVal (cell c 7) 0 ∗ semVal (cell c 8) 0)

def Φ₁ (c : Dev nD) : sProp 𝕄 := iprop(scratch c ∗ closed8 c)

/-- The pipeline's proof data on device c: the arrays as launched; the input staged whole, the result as computed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt (xstg m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A whole staging buffer at known contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the body of device c starts from, the ghost state's names fixed. -/
def bodyPre (K : Dev nD × Fin 9 → ℕ) (c : Dev nD) : sProp 𝕄 :=
  iprop((ghost m K c ∗ creds0 c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with. -/
def bodyPost (c : Dev nD) : sProp 𝕄 :=
  iprop(Φ₁ c ∗ (dats m ρ 0 c).owesAt () t₀.succ ∗ stg c cc0_stg0_0 (xstg m c) ∗ stg c cc0_stg1_0 (outAt (xstg m) c))

/-- Each window's array after the run, as the pipeline's proof data names it. -/
def finalA (c : Dev nD) (w : Fin cfg0.W) : Buf (Elt F) ((cfg0.win w).arr.view.loc (c : Thread nD τ)) := (dats m ρ 0 c).arrAt w cfg0.N

/-- Every device's arrays end at those contents. -/
def QC : PUnit × MemSt nD τ sig (Elt F) → Prop := fun r =>
  ∀ c : Dev nD, ∀ w : Fin cfg0.W, r.2.mem ((cfg0.win w).arr.view.loc (c : Thread nD τ)) = finalA m ρ c w

end Cert.Kernel.Rs

end
-- ==== Proof.RkStates.lean ====
/-
  What device c holds at the cut points of its body: after the entry handshake, and after each of the three ring steps.

  After the handshake it has given away its three receive slots (to the previous device) and exchange slot 1 (to the
  other-x device) and holds instead the next device's three receive slots and the other-x device's exchange slot 1;
  it still owes the three ring copies and the exchange copy. Each ring step s spends send token s and the next
  device's receive slot s, closes its own send cell s and receive cell s, gets its own receive slot s back, and
  leaves the next running sum in send slot s + 1 (after step 2: its half of the result rows stored, and the complete
  sum, narrowed, in exchange slot 0).
-/
import proofs.«901043_g7700000000001044_dist_rs_v7x_xyz2x4x4_y_m1024_n512_bf16_1_alg».proof.Proof.RkData

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Send slot s of device c holding V: a load of the slot's rectangle reads V. -/
def holdsS (c : Dev nD) (s : Fin 3) (V : Vec F S1x512x512 .bf16) : sProp 𝕄 :=
  iprop(∃ f : Buf (Elt F) ((sslot s).view.loc (c : Thread nD τ)), ⌜(sM).view.readAt (Elt F) (r3 s).toLoadRect f = V⌝
    ∗ ((sslot s).view.loc (c : Thread nD τ) ↦[(sslot s).view.set]{fullShare} f))
/-- Exchange slot 0 of device c holding V. -/
def holdsE0 (c : Dev nD) (V : Vec F S1x512x512 .bf16) : sProp 𝕄 :=
  iprop(∃ f : Buf (Elt F) ((eslot 0).view.loc (c : Thread nD τ)), ⌜(eM).view.readAt (Elt F) (r2 0).toLoadRect f = V⌝
    ∗ ((eslot 0).view.loc (c : Thread nD τ) ↦[(eslot 0).view.set]{fullShare} f))

/-- The staged input, whole; the staged result, whole, at contents g. -/
def stgX (c : Dev nD) : sProp 𝕄 := ((c : Thread nD τ).loc cc0_stg0_0) ↦{fullShare} (xstg m c : Buf (Elt F) ((c : Thread nD τ).loc cc0_stg0_0))
def stgO (c : Dev nD) (g : OTy F) : sProp 𝕄 := ((c : Thread nD τ).loc cc0_stg1_0) ↦{fullShare} (g : Buf (Elt F) ((c : Thread nD τ).loc cc0_stg1_0))

/-- What device c knows for good: the invariants, the rounds reached, the levels. -/
def known (K : Dev nD × Fin 9 → ℕ) (c : Dev nD) : sProp 𝕄 := iprop(invs m K c ∗ reacheds c ∗ levAts L lv)

/-- After the handshake and before ring step 0. -/
def stA (c : Dev nD) : sProp 𝕄 :=
  iprop((atPos ER (cell c 1) 0 ∅ 0 ∗ atPos ER (cell c 2) 0 ∅ 0 ∗ atPos ER (cell c 3) 0 ∅ 0 ∗ atPos ER (cell c 4) 0 ∅ 0
      ∗ atPos ER (cell c 5) 0 ∅ 0 ∗ atPos ER (cell c 6) 0 ∅ 0 ∗ atPos ER (cell c 7) 0 ∅ 0 ∗ atPos ER (cell c 8) 0 ∅ 0)
    ∗ (dutyTok ER (cell (rgt c) 4) 0 0 ∗ dutyTok ER (cell (rgt c) 5) 0 0 ∗ dutyTok ER (cell (rgt c) 6) 0 0 ∗ dutyTok ER (cell (oth c) 8) 0 0
      ∗ dutyTok ER (cell c 1) 0 0 ∗ dutyTok ER (cell c 2) 0 0 ∗ dutyTok ER (cell c 3) 0 0 ∗ dutyTok ER (cell c 7) 0 0)
    ∗ (cred (tallyAt (cell c 4) () N3) ∗ cred (tallyAt (cell c 5) () N3) ∗ cred (tallyAt (cell c 6) () N3) ∗ cred (tallyAt (cell c 8) () NE))
    ∗ (∃ W, owes (c : Thread nD τ) (O4 c) W)
    ∗ (anyS c 0 ∗ anyS c 1 ∗ anyS c 2)
    ∗ (anyR (rgt c) 0 ∗ anyR (rgt c) 1 ∗ anyR (rgt c) 2)
    ∗ (anyE (oth c) 1 ∗ anyE c 0)
    ∗ (stgX m c ∗ ∃ g, stgO c g))

/-- After ring step 0: send slot 1 holds the second running sum. -/
def stB0 (c : Dev nD) : sProp 𝕄 :=
  iprop((atPos ER (cell c 2) 0 ∅ 0 ∗ atPos ER (cell c 3) 0 ∅ 0
      ∗ atPos ER (cell c 5) 0 ∅ 0 ∗ atPos ER (cell c 6) 0 ∅ 0 ∗ atPos ER (cell c 7) 0 ∅ 0 ∗ atPos ER (cell c 8) 0 ∅ 0)
    ∗ (dutyTok ER (cell (rgt c) 5) 0 0 ∗ dutyTok ER (cell (rgt c) 6) 0 0 ∗ dutyTok ER (cell (oth c) 8) 0 0
      ∗ dutyTok ER (cell c 2) 0 0 ∗ dutyTok ER (cell c 3) 0 0 ∗ dutyTok ER (cell c 7) 0 0)
    ∗ (cred (tallyAt (cell c 5) () N3) ∗ cred (tallyAt (cell c 6) () N3) ∗ cred (tallyAt (cell c 8) () NE))
    ∗ (∃ W, owes (c : Thread nD τ) (O3 c) W)
    ∗ (anyS c 0 ∗ holdsS c 1 (part1 (xstg m) c) ∗ anyS c 2)
    ∗ (anyR c 0 ∗ anyR (rgt c) 1 ∗ anyR (rgt c) 2)
    ∗ (anyE (oth c) 1 ∗ anyE c 0)
    ∗ (stgX m c ∗ ∃ g, stgO c g)
    ∗ (semVal (cell c 1) 0 ∗ semVal (cell c 4) 0))

/-- After ring step 1: send slot 2 holds the third running sum. -/
def stB1 (c : Dev nD) : sProp 𝕄 :=
  iprop((atPos ER (cell c 3) 0 ∅ 0 ∗ atPos ER (cell c 6) 0 ∅ 0 ∗ atPos ER (cell c 7) 0 ∅ 0 ∗ atPos ER (cell c 8) 0 ∅ 0)
    ∗ (dutyTok ER (cell (rgt c) 6) 0 0 ∗ dutyTok ER (cell (oth c) 8) 0 0 ∗ dutyTok ER (cell c 3) 0 0 ∗ dutyTok ER (cell c 7) 0 0)
    ∗ (cred (tallyAt (cell c 6) () N3) ∗ cred (tallyAt (cell c 8) () NE))
    ∗ (∃ W, owes (c : Thread nD τ) (O2 c) W)
    ∗ (anyS c 0 ∗ anyS c 1 ∗ holdsS c 2 (part2 (xstg m) c))
    ∗ (anyR c 0 ∗ anyR c 1 ∗ anyR (rgt c) 2)
    ∗ (anyE (oth c) 1 ∗ anyE c 0)
    ∗ (stgX m c ∗ ∃ g, stgO c g)
    ∗ (semVal (cell c 1) 0 ∗ semVal (cell c 4) 0 ∗ semVal (cell c 2) 0 ∗ semVal (cell c 5) 0))

/-- After ring step 2: the device's own half of the result rows is stored and exchange slot 0 holds the complete sum, narrowed. -/
def stB2 (c : Dev nD) : sProp 𝕄 :=
  iprop((atPos ER (cell c 7) 0 ∅ 0 ∗ atPos ER (cell c 8) 0 ∅ 0)
    ∗ (dutyTok ER (cell (oth c) 8) 0 0 ∗ dutyTok ER (cell c 7) 0 0)
    ∗ cred (tallyAt (cell c 8) () NE)
    ∗ (∃ W, owes (c : Thread nD τ) (O1 c) W)
    ∗ (anyS c 0 ∗ anyS c 1 ∗ anyS c 2)
    ∗ (anyR c 0 ∗ anyR c 1 ∗ anyR c 2)
    ∗ (anyE (oth c) 1 ∗ holdsE0 c (fullNarrow (xstg m) c))
    ∗ (stgX m c ∗ ∃ g : OTy F, stgO c (((oM).access (rectOwn c)).write (Elt F) g (full (xstg m) c) Finset.univ))
    ∗ (semVal (cell c 1) 0 ∗ semVal (cell c 4) 0 ∗ semVal (cell c 2) 0 ∗ semVal (cell c 5) 0 ∗ semVal (cell c 3) 0 ∗ semVal (cell c 6) 0))

instance known_persistent (K : Dev nD × Fin 9 → ℕ) (c : Dev nD) : BI.Persistent (known m K c) := by unfold known; infer_instance

/-! ## The payloads, cell by cell -/

section Pay
variable (X : Dev nD → XTy F) (c : Dev nD) (d : Fin 3)

theorem payK_bar0 : payK X c 0 0 = iprop(anyR (rgt c) 0 ∗ anyR (rgt c) 1 ∗ anyR (rgt c) 2) := rfl
theorem payK_bar1 : payK X c 0 1 = (iprop(emp) : sProp 𝕄) := rfl
theorem payK_bar2 : payK X c 0 2 = anyE (oth c) 1 := rfl
theorem payK_send0 : payK X c 1 d = anyS c 0 := rfl
theorem payK_send1 : payK X c 2 d = anyS c 1 := rfl
theorem payK_send2 : payK X c 3 d = anyS c 2 := rfl
theorem payK_recv0 : payK X c 4 d = holdsR c 0 (part0 X (lft c)) := rfl
theorem payK_recv1 : payK X c 5 d = holdsR c 1 (part1 X (lft c)) := rfl
theorem payK_recv2 : payK X c 6 d = holdsR c 2 (part2 X (lft c)) := rfl
theorem payK_xsend : payK X c 7 d = anyE c 0 := rfl
theorem payK_xrecv : payK X c 8 d = holdsE c (fullNarrow X (oth c)) := rfl

end Pay

theorem fetch_0 (t : Fin cfg0.N) : (cfg0.win (0 : Fin 2)).fetch t = true := by rw [fin_N t]; rfl

end Cert.Kernel.Rs

end
-- ==== Proof.RkCells.lean ====
/-
  The schedule's tables for a cell named as the printed program names it.

  The program writes its semaphores as slices of the kernel's semaphore arrays; each is one of the nine cells. The
  tables of the schedule (duties, amounts, expected units, payloads) are restated here for a cell given by any
  spelling p of semaphore k.
-/
import proofs.«901043_g7700000000001044_dist_rs_v7x_xyz2x4x4_y_m1024_n512_bf16_1_alg».proof.Proof.RkStates

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (X : Dev nD → XTy F)

/-- The printed spellings: send 0, 1, 2; receive 0, 1, 2; exchange send, exchange receive. -/
abbrev pS0 : SemLoc sig := .dma ((cc0_scratch3.slice (Rect.unit (s := S3) ![0] S1.size inb_S3_S1_0)).squeeze S_ squeezes_S1_S_).sem
abbrev pS1 : SemLoc sig := .dma ((cc0_scratch3.slice (Rect.unit (s := S3) ![1] S1.size inb_S3_S1_1)).squeeze S_ squeezes_S1_S_).sem
abbrev pS2 : SemLoc sig := .dma ((cc0_scratch3.slice (Rect.unit (s := S3) ![2] S1.size inb_S3_S1_2)).squeeze S_ squeezes_S1_S_).sem
abbrev pR0 : SemLoc sig := .dma ((cc0_scratch4.slice (Rect.unit (s := S3) ![0] S1.size inb_S3_S1_0)).squeeze S_ squeezes_S1_S_).sem
abbrev pR1 : SemLoc sig := .dma ((cc0_scratch4.slice (Rect.unit (s := S3) ![1] S1.size inb_S3_S1_1)).squeeze S_ squeezes_S1_S_).sem
abbrev pR2 : SemLoc sig := .dma ((cc0_scratch4.slice (Rect.unit (s := S3) ![2] S1.size inb_S3_S1_2)).squeeze S_ squeezes_S1_S_).sem
abbrev pXS : SemLoc sig := .dma (cc0_scratch5).sem
abbrev pXR : SemLoc sig := .dma (cc0_scratch6).sem
abbrev pB : SemLoc sig := .reg barS

theorem csem_0 : csem 0 = pB := rfl
theorem csem_1 : csem 1 = pS0 := rfl
theorem csem_2 : csem 2 = pS1 := rfl
theorem csem_3 : csem 3 = pS2 := rfl
theorem csem_4 : csem 4 = pR0 := rfl
theorem csem_5 : csem 5 = pR1 := rfl
theorem csem_6 : csem 6 = pR2 := rfl
theorem csem_7 : csem 7 = pXS := rfl
theorem csem_8 : csem 8 = pXR := rfl

section
variable (c : Dev nD) (p : SemLoc sig) (k : Fin 9) (hp : csem k = p)
include hp

theorem duties_p0 (hk : k = 0) : (rsRd (F := F) X).duties ((c : Thread nD τ), p) 0 = Finset.univ := by
  subst hp; subst hk; exact duties_bar X c
theorem duties_p (hk : k ≠ 0) : (rsRd (F := F) X).duties ((c : Thread nD τ), p) 0 = {0} := by
  subst hp; exact duties_xfer X c k hk
theorem mem_duties_p (hk : k ≠ 0) : (0 : Fin 3) ∈ (rsRd (F := F) X).duties ((c : Thread nD τ), p) 0 := by
  rw [duties_p X c p k hp hk]; exact Finset.mem_singleton_self _
theorem mem_duties_p0 (hk : k = 0) (d : Fin 3) : d ∈ (rsRd (F := F) X).duties ((c : Thread nD τ), p) 0 := by
  rw [duties_p0 X c p k hp hk]; exact Finset.mem_univ _
theorem duties_later_p (r : ℕ) (hr : 1 ≤ r) : (rsRd (F := F) X).duties ((c : Thread nD τ), p) r = ∅ := duties_later X _ r hr
theorem amount_p0 (hk : k = 0) (d : Fin 3) : (rsRd (F := F) X).amount ((c : Thread nD τ), p) 0 d = 1 := by
  subst hp; subst hk; exact amount_bar X c d
theorem amount_pring (hk : k ≠ 0) (hk7 : k.val < 7) (d : Fin 3) : (rsRd (F := F) X).amount ((c : Thread nD τ), p) 0 d = N3 := by
  subst hp; exact amount_ring X c k hk hk7 d
theorem amount_pexch (hk7 : 7 ≤ k.val) (d : Fin 3) : (rsRd (F := F) X).amount ((c : Thread nD τ), p) 0 d = NE := by
  subst hp; exact amount_exch X c k hk7 d
theorem expect_p0 (hk : k = 0) : (rsRd (F := F) X).expect ((c : Thread nD τ), p) 0 = 3 := by
  subst hp; subst hk; exact expect_bar X c
theorem expect_pring (hk : k ≠ 0) (hk7 : k.val < 7) : (rsRd (F := F) X).expect ((c : Thread nD τ), p) 0 = N3 := by
  subst hp; exact expect_ring X c k hk hk7
theorem expect_pexch (hk7 : 7 ≤ k.val) : (rsRd (F := F) X).expect ((c : Thread nD τ), p) 0 = NE := by
  subst hp; exact expect_exch X c k hk7
theorem payload_p (d : Fin 3) : (rsRd (F := F) X).payload ((c : Thread nD τ), p) 0 d = payK X c k d := by
  subst hp; exact payload_cell X c k d
theorem rest_p0 (hk : k = 0) :
    bigSep ((rsRd (F := F) X).duties ((c : Thread nD τ), p) 0 \ ∅) (fun d => (rsRd (F := F) X).payload ((c : Thread nD τ), p) 0 d)
      = iprop((anyR (rgt c) 0 ∗ anyR (rgt c) 1 ∗ anyR (rgt c) 2) ∗ emp ∗ anyE (oth c) 1) := by
  subst hp; subst hk; exact rest_bar X c
theorem rest_p (hk : k ≠ 0) :
    bigSep ((rsRd (F := F) X).duties ((c : Thread nD τ), p) 0 \ ∅) (fun d => (rsRd (F := F) X).payload ((c : Thread nD τ), p) 0 d)
      = payK X c k 0 := by
  subst hp; exact rest_xfer X c k hk

end

/-- The credit a wait on each DMA cell consumes is the credit its round expects. -/
theorem credit_s (s : Fin 3) : (sslot s).view.dmaCredit = N3 := rfl
theorem credit_r (s : Fin 3) : (rslot s).view.dmaCredit = N3 := rfl
theorem credit_e0 : (eslot 0).view.dmaCredit = NE := rfl
theorem credit_e1 : (eslot 1).view.dmaCredit = NE := rfl

end Cert.Kernel.Rs

end
-- ==== Proof.RkStageA.lean ====
/-
  The entry handshake of device c: it signals the barrier cells of its previous, next and other-x devices — handing the
  previous device its own three receive slots, and the other-x device its own exchange slot 1 —, waits for the three
  units of its own barrier cell, which bring the next device's three receive slots and the other-x device's exchange
  slot 1, and loads its first chunk.
-/
import proofs.«901043_g7700000000001044_dist_rs_v7x_xyz2x4x4_y_m1024_n512_bf16_1_alg».proof.Proof.RkCells

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_handshake (K : Dev nD × Fin 9 → ℕ) (c : Dev nD) (v2 v5 v8 v19 v30 v31 v34 : BitVec 32)
    (Kt : (Σ' (v51 : BitVec 32), Vec F S1x512x512 .f32) → sProp 𝕄) :
    iprop(bodyPre m ρ K c ∗ ((known m K c ∗ stA m c) -∗ Kt ⟨Scalar.muli v2 512#32, ldA (xstg m) c⟩))
      ⊢ wp frame (wpE (defs₀ (F := F)) 𝒱₀ c none) Set.univ
          (k0_part2 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v5 v8 v19 v30 v31 (SemArray.scalar (sig.barrier 0 rfl)) v34) Kt := by
  simp only [k0_part2_eq_skeleton]; unfold k0_part2_skel
  simp only [semSignalWord, semWaitWord, Prog.lift, Prog.bind_op, Prog.bind_ret, Prog.pure_eq_ret]
  unfold bodyPre ghost invs positions reacheds payToks creds0 scratch
  iintro ⟨⟨⟨⟨⟨#HI0, #HI1, #HI2, #HI3, #HI4, #HI5, #HI6, #HI7, #HI8, #HIl0, #HIr0, #HIo0, #HIr4, #HIr5, #HIr6, #HIo8⟩,
        ⟨Hp0, Hp1, Hp2, Hp3, Hp4, Hp5, Hp6, Hp7, Hp8⟩,
        ⟨#Rl0, #Rr0, #Ro0, #Rr4, #Rr5, #Rr6, #Ro8, #R1, #R2, #R3, #R7⟩,
        ⟨Tl0, Tr0, To0, Tr4, Tr5, Tr6, To8, T1, T2, T3, T7⟩⟩,
      ⟨C0, C4, C5, C6, C8⟩, #Hlev, ⟨⟨%fs, Hs⟩, ⟨%fr, Hr⟩, ⟨%fe, He⟩⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- its own buffers cut into their slots
  ihave Hs3 := (sM_split (Val := Elt F) c fs) $$ Hs
  icases Hs3 with ⟨Hs0, Hs1, Hs2⟩
  ihave Hr3 := (rM_split (Val := Elt F) c fr) $$ Hr
  icases Hr3 with ⟨Hr0, Hr1, Hr2⟩
  ihave He2 := (eM_split (Val := Elt F) c fe) $$ He
  icases He2 with ⟨He0, He1⟩
  -- the signal to the previous device: duty 0 of its barrier cell, with this device's three receive slots
  unfold O₀
  iapply (Rounds.wp_signal 𝒱₀ ER (Rd m) (c : Thread nD τ) none (dst := (lft c : Thread nD τ)) (sem := barS) (κ := K (lft c, 0))
      (r := 0) (d := 0) (mem_duties_p0 (xstg m) (lft c) pB 0 rfl rfl 0) ((amount_p0 (xstg m) (lft c) pB 0 rfl rfl 0).trans (by decide)) () (O6 c) rfl)
    $$ [HO Tl0 Hr0 Hr1 Hr2]
  · isplitr; · iexact HIl0
    isplitl [HO]; · iexact HO
    isplitl [Tl0]; · iexact Tl0
    isplitl [Hr0 Hr1 Hr2]
    · rw [payload_p (xstg m) (lft c) pB 0 rfl, payK_bar0, rgt_lft]
      unfold anyR
      isplitl [Hr0]; · iexists fr; iexact Hr0
      isplitl [Hr1]; · iexists fr; iexact Hr1
      iexists fr; iexact Hr2
    · iexact Rl0
  iintro HO
  -- to the next device: duty 1 of its barrier cell, nothing to hand over
  unfold O6
  iapply (Rounds.wp_signal 𝒱₀ ER (Rd m) (c : Thread nD τ) none (dst := (rgt c : Thread nD τ)) (sem := barS) (κ := K (rgt c, 0))
      (r := 0) (d := 1) (mem_duties_p0 (xstg m) (rgt c) pB 0 rfl rfl 1) ((amount_p0 (xstg m) (rgt c) pB 0 rfl rfl 1).trans (by decide)) () (O5 c) rfl)
    $$ [HO Tr0]
  · isplitr; · iexact HIr0
    isplitl [HO]; · iexact HO
    isplitl [Tr0]; · iexact Tr0
    isplitr; · rw [payload_p (xstg m) (rgt c) pB 0 rfl, payK_bar1]; iempintro
    iexact Rr0
  iintro HO
  -- to the other-x device: duty 2 of its barrier cell, with this device's exchange slot 1
  unfold O5
  iapply (Rounds.wp_signal 𝒱₀ ER (Rd m) (c : Thread nD τ) none (dst := (oth c : Thread nD τ)) (sem := barS) (κ := K (oth c, 0))
      (r := 0) (d := 2) (mem_duties_p0 (xstg m) (oth c) pB 0 rfl rfl 2) ((amount_p0 (xstg m) (oth c) pB 0 rfl rfl 2).trans (by decide)) () (O4 c) rfl)
    $$ [HO To0 He1]
  · isplitr; · iexact HIo0
    isplitl [HO]; · iexact HO
    isplitl [To0]; · iexact To0
    isplitl [He1]
    · rw [payload_p (xstg m) (oth c) pB 0 rfl, payK_bar2, oth_oth]
      unfold anyE
      iexists fe; iexact He1
    · iexact Ro0
  iintro HO
  -- the wait for the three units of its own barrier cell, still owing the four copies
  iapply (Rounds.wp_wait_rest_token 𝒱₀ ER (Rd m) (c : Thread nD τ) none (κ := K (c, 0))
      (wpE_semWait_eq 𝒱₀ (c : Thread nD τ) none Set.univ) (Set.mem_univ _) () (O := O4 c) (W := W) (R := 0) (m := 0) (T := ∅)
      (by rw [expect_p0 (xstg m) c pB 0 rfl rfl]; decide)) $$ [C0 HO Hp0]
  · isplitr; · iexact HI0
    isplitl [C0]; · iexact C0
    isplitl [HO]; · iexact HO
    isplitr; · iapply (mayWait_bar c); iexact Hlev
    iexact Hp0
  iintro ⟨HO, Hp0, -, Hpay⟩
  ihave Hp := (Entails.of_eq (rest_p0 (xstg m) c pB 0 rfl rfl)) $$ Hpay
  icases Hp with ⟨⟨Hn0, Hn1, Hn2⟩, -, Hoe⟩
  -- the first load: the chunk before its own, rows of its half
  iapply (wp_load 𝒱₀ (c : Thread nD τ) none Set.univ (m := xM) (Finset.subset_univ _)) $$ Hx; iintro Hx
  rw [wp_ret]; imodintro
  unfold ldA rectA
  iapply Hk
  isplitr
  · unfold known invs reacheds
    repeat' (first | iassumption | isplitr)
  unfold stA
  isplitl [Hp1 Hp2 Hp3 Hp4 Hp5 Hp6 Hp7 Hp8]; · iframe
  isplitl [Tr4 Tr5 Tr6 To8 T1 T2 T3 T7]; · iframe
  isplitl [C4 C5 C6 C8]; · iframe
  isplitl [HO]; · iexists _; iexact HO
  isplitl [Hs0 Hs1 Hs2]
  · unfold anyS
    isplitl [Hs0]; · iexists fs; iexact Hs0
    isplitl [Hs1]; · iexists fs; iexact Hs1
    iexists fs; iexact Hs2
  isplitl [Hn0 Hn1 Hn2]; · iframe
  isplitl [Hoe He0]
  · isplitl [Hoe]; · iexact Hoe
    unfold anyE; iexists fe; iexact He0
  isplitl [Hx]; · unfold stgX; iexact Hx
  unfold stgO; iexists g1; iexact Hout

end Cert.Kernel.Rs

end
-- ==== Proof.RkSend.lean ====
/-
  The two kinds of remote copy of the protocol, as rules over the slots.

  A ring copy moves send slot s of device c into receive slot s of its next device along y, paying the one duty of c's
  send cell (the slot comes back to c when the copy has read it) and the one duty of the next device's receive cell
  (which hands that device the slot, reading as the source slot did). The exchange copy does the same from exchange
  slot 0 of c to exchange slot 1 of the device with the other x. The addressed device is given as any n equal to the
  peer, so that the printed device-id chain can stand in the program text.
-/
import proofs.«901043_g7700000000001044_dist_rs_v7x_xyz2x4x4_y_m1024_n512_bf16_1_alg».proof.Proof.RkCells

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 800000 in
theorem wp_send_ring (K : Dev nD × Fin 9 → ℕ) (c n : Dev nD) (hn : n = rgt c) (s : Fin 3) (ks kr : Fin 9)
    (hks : ks ≠ 0) (hks7 : ks.val < 7) (hkr : kr ≠ 0) (hkr7 : kr.val < 7)
    (qS qR : DmaSem sig) (hqS : csem ks = .dma qS) (hqR : csem kr = .dma qR)
    (V : Vec F S1x512x512 .bf16) (hpayS : payK (xstg m) c ks 0 = anyS c s) (hpayR : payK (xstg m) (rgt c) kr 0 = holdsR (rgt c) s V)
    {hsc : (rslot s : Memref sig (Dev.tc n : Thread nD τ).2.kind .vmem S512x512 .bf16).view.ref.isScScratch = false}
    {hsrc : (sslot s).view.WordExact} {hdst : (rslot s).view.WordExact}
    {hsem : DmaTarget.Typed .vmem (.dma qR) (.remote (Dev.tc n : Thread nD τ) (rslot s) (.dma qS) hsc)}
    {α : Type} {Q : α → sProp 𝕄} {k : PUnit → Prog (TpuEff nD τ sig (Elt F) Λ₀ .tc) α}
    (fs : Buf (Elt F) ((sslot s).view.loc (c : Thread nD τ))) (hfs : (sM).view.readAt (Elt F) (r3 s).toLoadRect fs = V)
    (fn : Buf (Elt F) ((rslot s).view.loc (rgt c : Thread nD τ))) (O : CellTallies nD τ sig Unit) (W : Waits sig Unit) :
    iprop(cellInv ER (Rd m) (K (c, ks)) ((c : Thread nD τ), .dma qS) ∗ cellInv ER (Rd m) (K (rgt c, kr)) ((rgt c : Thread nD τ), .dma qR)
        ∗ ((sslot s).view.loc (c : Thread nD τ) ↦[(sslot s).view.set]{fullShare} fs)
        ∗ ((rslot s).view.loc (rgt c : Thread nD τ) ↦[(rslot s).view.set]{fullShare} fn)
        ∗ owes (c : Thread nD τ) (O + tallyAt ((rgt c : Thread nD τ), .dma qR) () N3) W
        ∗ dutyTok ER ((c : Thread nD τ), .dma qS) 0 0 ∗ reached ER ((c : Thread nD τ), .dma qS) 0
        ∗ dutyTok ER ((rgt c : Thread nD τ), .dma qR) 0 0 ∗ reached ER ((rgt c : Thread nD τ), .dma qR) 0)
      ⊢ iprop(((cred (tallyAt ((c : Thread nD τ), .dma qS) () N3) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sslot s) (.remote (Dev.tc n : Thread nD τ) (rslot s) (.dma qS) hsc) (.dma qR) hsrc hdst hsem) k) Q) := by
  subst hn
  exact Rounds.wp_send_pointsTo 𝒱₀ ER (Rd m) (c : Thread nD τ) none (κ₁ := K (c, ks)) (κ₂ := K (rgt c, kr))
    (r₁ := 0) (r₂ := 0) (d₁ := 0) (d₂ := 0) (fd := fn)
    (mem_duties_p (xstg m) c _ ks hqS hks) (mem_duties_p (xstg m) (rgt c) _ kr hqR hkr)
    () () N3 (credit_r s) (amount_pring (xstg m) c _ ks hqS hks hks7 0) (amount_pring (xstg m) (rgt c) _ kr hqR hkr hkr7 0) O rfl (W := W)
    (by rw [payload_p (xstg m) c _ ks hqS, hpayS]; unfold anyS; iintro H; iexists _; iexact H)
    (by
      rw [payload_p (xstg m) (rgt c) _ kr hqR, hpayR]; unfold holdsR
      iintro H; iexists ((rslot s).view.write (Elt F) fn ((sslot s).view.read (Elt F) fs) Finset.univ)
      isplitr
      · ipureintro; rw [rM_read_copy]; exact hfs
      · iexact H)

set_option maxHeartbeats 800000 in
theorem wp_send_exch (K : Dev nD × Fin 9 → ℕ) (c n : Dev nD) (hn : n = oth c)
    (V : Vec F S1x512x512 .bf16) (hpayR : payK (xstg m) (oth c) 8 0 = holdsE (oth c) V)
    {hsc : (eslot 1 : Memref sig (Dev.tc n : Thread nD τ).2.kind .vmem S512x512 .bf16).view.ref.isScScratch = false}
    {hsrc : (eslot 0).view.WordExact} {hdst : (eslot 1).view.WordExact}
    {hsem : DmaTarget.Typed .vmem pXR (.remote (Dev.tc n : Thread nD τ) (eslot 1) pXS hsc)}
    {α : Type} {Q : α → sProp 𝕄} {k : PUnit → Prog (TpuEff nD τ sig (Elt F) Λ₀ .tc) α}
    (fs : Buf (Elt F) ((eslot 0).view.loc (c : Thread nD τ))) (hfs : (eM).view.readAt (Elt F) (r2 0).toLoadRect fs = V)
    (fn : Buf (Elt F) ((eslot 1).view.loc (oth c : Thread nD τ))) (O : CellTallies nD τ sig Unit) (W : Waits sig Unit) :
    iprop(cellInv ER (Rd m) (K (c, 7)) ((c : Thread nD τ), pXS) ∗ cellInv ER (Rd m) (K (oth c, 8)) ((oth c : Thread nD τ), pXR)
        ∗ ((eslot 0).view.loc (c : Thread nD τ) ↦[(eslot 0).view.set]{fullShare} fs)
        ∗ ((eslot 1).view.loc (oth c : Thread nD τ) ↦[(eslot 1).view.set]{fullShare} fn)
        ∗ owes (c : Thread nD τ) (O + tallyAt ((oth c : Thread nD τ), pXR) () NE) W
        ∗ dutyTok ER ((c : Thread nD τ), pXS) 0 0 ∗ reached ER ((c : Thread nD τ), pXS) 0
        ∗ dutyTok ER ((oth c : Thread nD τ), pXR) 0 0 ∗ reached ER ((oth c : Thread nD τ), pXR) 0)
      ⊢ iprop(((cred (tallyAt ((c : Thread nD τ), pXS) () NE) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (eslot 0) (.remote (Dev.tc n : Thread nD τ) (eslot 1) pXS hsc) pXR hsrc hdst hsem) k) Q) := by
  subst hn
  exact Rounds.wp_send_pointsTo 𝒱₀ ER (Rd m) (c : Thread nD τ) none (κ₁ := K (c, 7)) (κ₂ := K (oth c, 8))
    (r₁ := 0) (r₂ := 0) (d₁ := 0) (d₂ := 0) (fd := fn)
    (mem_duties_p (xstg m) c pXS 7 rfl (by decide)) (mem_duties_p (xstg m) (oth c) pXR 8 rfl (by decide))
    () () NE credit_e1 (amount_pexch (xstg m) c pXS 7 rfl (by decide) 0) (amount_pexch (xstg m) (oth c) pXR 8 rfl (by decide) 0) O rfl (W := W)
    (by rw [payload_p (xstg m) c pXS 7 rfl, payK_xsend]; unfold anyE; iintro H; iexists _; iexact H)
    (by
      rw [payload_p (xstg m) (oth c) pXR 8 rfl, hpayR]; unfold holdsE
      iintro H; iexists ((eslot 1).view.write (Elt F) fn ((eslot 0).view.read (Elt F) fs) Finset.univ)
      isplitr
      · ipureintro; rw [eM_read_copy]; exact hfs
      · iexact H)

end Cert.Kernel.Rs

end
-- ==== Proof.RkPart3.lean ====
/-
  Ring step 0, first half: device c stores its first partial sum (its chunk y − 1, narrowed) into send slot 0, starts the
  copy of that slot into receive slot 0 of its next device — which it holds since the handshake —, and waits until the
  copy has read the slot, which then comes back; its send cell 0 is closed.
-/
import proofs.«901043_g7700000000001044_dist_rs_v7x_xyz2x4x4_y_m1024_n512_bf16_1_alg».proof.Proof.RkSend

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_part3 (K : Dev nD × Fin 9 → ℕ) (c : Dev nD) (v2 v8 v19 : BitVec 32) (W : Waits sig Unit) (Kt : BitVec 32 → sProp 𝕄) :
    iprop(known m K c ∗ anyS c 0 ∗ anyR (rgt c) 0 ∗ dutyTok ER (cell c 1) 0 0 ∗ dutyTok ER (cell (rgt c) 4) 0 0
        ∗ atPos ER (cell c 1) 0 ∅ 0 ∗ owes (c : Thread nD τ) (O4 c) W
        ∗ ((anyS c 0 ∗ semVal (cell c 1) 0 ∗ (∃ W', owes (c : Thread nD τ) (O3 c) W')) -∗ Kt (Scalar.addi 0#32 (Scalar.muli v2 16#32))))
      ⊢ wp frame (wpE (defs₀ (F := F)) 𝒱₀ c none) Set.univ
          (k0_part3 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v8 v19 (ldA (xstg m) c)) Kt := by
  simp only [k0_part3_eq_skeleton]; unfold k0_part3_skel
  simp only [Prog.lift, Prog.bind_op, Prog.bind_ret, Prog.pure_eq_ret]
  unfold known invs reacheds anyS anyR
  iintro ⟨⟨⟨#HI0, #HI1, #HI2, #HI3, #HI4, #HI5, #HI6, #HI7, #HI8, #HIl0, #HIr0, #HIo0, #HIr4, #HIr5, #HIr6, #HIo8⟩,
      ⟨#Rl0, #Rr0, #Ro0, #Rr4, #Rr5, #Rr6, #Ro8, #R1, #R2, #R3, #R7⟩, #Hlev⟩, ⟨%f0, Hs0⟩, ⟨%fn, Hn0⟩, T1, Tr4, Hp1, HO, Hk⟩
  -- the slot is read, then the first partial sum is stored into it
  iapply (wp_load 𝒱₀ (c : Thread nD τ) none Set.univ (m := sM) (sM_load_sub 0)) $$ Hs0; iintro Hs0
  iapply (wp_store 𝒱₀ (c : Thread nD τ) none Set.univ (m := sM) (r := r3 0) (Mk := Finset.univ) (sM_store_sub 0)) $$ Hs0; iintro Hs0
  -- the copy of the slot into the next device's receive slot 0
  unfold O4
  iapply (wp_send_ring m K c _ (dev4_eq c) 0 1 4 (by decide) (by decide) (by decide) (by decide) _ _ rfl rfl
      (part0 (xstg m) c) rfl (by rw [payK_recv0, lft_rgt]) _ (sM_read_store 0 f0 _) fn (O3 c) W) $$ [Hs0 Hn0 HO T1 Tr4]
  · isplitr; · iexact HI1
    isplitr; · iexact HIr4
    isplitl [Hs0]; · iexact Hs0
    isplitl [Hn0]; · iexact Hn0
    isplitl [HO]; · iexact HO
    isplitl [T1]; · iexact T1
    isplitr; · iexact R1
    isplitl [Tr4]; · iexact Tr4
    iexact Rr4
  iintro ⟨Cs, HO⟩
  -- the wait until the copy has read the slot: the slot comes back
  iapply (Rounds.wp_wait_rest_token 𝒱₀ ER (Rd m) (c : Thread nD τ) none (κ := K (c, 1))
      (wpE_waitDma2_eq 𝒱₀ (c : Thread nD τ) none Set.univ) (Set.mem_univ _) () (O := O3 c) (W := W) (R := 0) (m := 0) (T := ∅)
      (show 0 + (sslot 0).view.dmaCredit = (Rd m).expect ((c : Thread nD τ), pS0) 0 from by
        rw [Nat.zero_add, expect_pring (xstg m) c pS0 1 rfl (by decide) (by decide)])) $$ [Cs HO Hp1]
  · isplitr; · iexact HI1
    isplitl [Cs]; · iexact Cs
    isplitl [HO]; · iexact HO
    isplitr; · iapply (mayWait_send0 c); iexact Hlev
    iexact Hp1
  iintro ⟨HO, Hp1, -, Hpay⟩
  ihave Hs0 := (Entails.of_eq ((rest_p (xstg m) c pS0 1 rfl (by decide)).trans (payK_send0 (xstg m) c 0))) $$ Hpay
  unfold anyS
  -- nothing more can land on the send cell: it is closed, its counter at zero
  imod (Rounds.cell_close ER (Rd m) (Set.mem_univ (K (c, 1))) (fun h => h) (R := 0 + 1) (duties_later_p (xstg m) c pS0 1 rfl)) $$ [Hp1] with Hz
  · isplitr; · iexact HI1
    iexact Hp1
  rw [wp_ret]; imodintro
  iapply Hk
  isplitl [Hs0]; · iexact Hs0
  isplitl [Hz]; · iexact Hz
  iexists _; iexact HO

end Cert.Kernel.Rs

end
-- ==== Proof.RkPart4.lean ====
/-
  Ring step 0, second half: device c waits for the previous device's copy into its receive slot 0, which comes back holding
  that device's first partial sum; its receive cell 0 is closed. It loads that slot, its own chunk y − 2, adds them, and
  stores the narrowed sum into send slot 1.
-/
import proofs.«901043_g7700000000001044_dist_rs_v7x_xyz2x4x4_y_m1024_n512_bf16_1_alg».proof.Proof.RkSend

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_part4 (K : Dev nD × Fin 9 → ℕ) (c : Dev nD) (v5 v8 v19 v51 v93 : BitVec 32) (W : Waits sig Unit) (Kt : PUnit → sProp 𝕄) :
    iprop(known m K c ∗ cred (tallyAt (cell c 4) () N3) ∗ atPos ER (cell c 4) 0 ∅ 0 ∗ owes (c : Thread nD τ) (O3 c) W
        ∗ stgX m c ∗ anyS c 1
        ∗ ((anyR c 0 ∗ semVal (cell c 4) 0 ∗ (∃ W', owes (c : Thread nD τ) (O3 c) W') ∗ stgX m c ∗ holdsS c 1 (part1 (xstg m) c)) -∗ Kt ⟨⟩))
      ⊢ wp frame (wpE (defs₀ (F := F)) 𝒱₀ c none) Set.univ
          (k0_part4 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v5 v8 v19 v51 v93) Kt := by
  simp only [k0_part4_eq_skeleton]; unfold k0_part4_skel
  simp only [Prog.lift, Prog.bind_op, Prog.bind_ret, Prog.pure_eq_ret]
  unfold known invs reacheds stgX anyS
  iintro ⟨⟨⟨#HI0, #HI1, #HI2, #HI3, #HI4, #HI5, #HI6, #HI7, #HI8, #HIl0, #HIr0, #HIo0, #HIr4, #HIr5, #HIr6, #HIo8⟩,
      ⟨#Rl0, #Rr0, #Ro0, #Rr4, #Rr5, #Rr6, #Ro8, #R1, #R2, #R3, #R7⟩, #Hlev⟩, C4, Hp4, HO, Hx, ⟨%fs, Hs1⟩, Hk⟩
  -- the wait for the previous device's copy into receive slot 0: the slot comes back holding that device's first partial sum
  iapply (Rounds.wp_wait_rest_token 𝒱₀ ER (Rd m) (c : Thread nD τ) none (κ := K (c, 4))
      (wpE_waitDma2_eq 𝒱₀ (c : Thread nD τ) none Set.univ) (Set.mem_univ _) () (O := O3 c) (W := W) (R := 0) (m := 0) (T := ∅)
      (show 0 + (rslot 0).view.dmaCredit = (Rd m).expect ((c : Thread nD τ), pR0) 0 from by
        rw [Nat.zero_add, expect_pring (xstg m) c pR0 4 rfl (by decide) (by decide)])) $$ [C4 HO Hp4]
  · isplitr; · iexact HI4
    isplitl [C4]; · iexact C4
    isplitl [HO]; · iexact HO
    isplitr; · iapply (mayWait_recv0 c); iexact Hlev
    iexact Hp4
  iintro ⟨HO, Hp4, -, Hpay⟩
  ihave Hr0 := (Entails.of_eq ((rest_p (xstg m) c pR0 4 rfl (by decide)).trans (payK_recv0 (xstg m) c 0))) $$ Hpay
  unfold holdsR
  icases Hr0 with ⟨%fr, %hfr, Hr0⟩
  -- nothing more can land on the receive cell: it is closed, its counter at zero
  imod (Rounds.cell_close ER (Rd m) (Set.mem_univ (K (c, 4))) (fun h => h) (R := 0 + 1) (duties_later_p (xstg m) c pR0 4 rfl)) $$ [Hp4] with Hz
  · isplitr; · iexact HI4
    iexact Hp4
  -- the received sum and this device's chunk y − 2; their narrowed sum goes into send slot 1
  iapply (wp_load 𝒱₀ (c : Thread nD τ) none Set.univ (m := rM) (rM_load_sub 0)) $$ Hr0; iintro Hr0
  iapply (wp_load 𝒱₀ (c : Thread nD τ) none Set.univ (m := xM) (Finset.subset_univ _)) $$ Hx; iintro Hx
  iapply (wp_load 𝒱₀ (c : Thread nD τ) none Set.univ (m := sM) (sM_load_sub 1)) $$ Hs1; iintro Hs1
  iapply (wp_store 𝒱₀ (c : Thread nD τ) none Set.univ (m := sM) (r := r3 1) (Mk := Finset.univ) (sM_store_sub 1)) $$ Hs1; iintro Hs1
  rw [wp_ret]; imodintro
  iapply Hk
  isplitl [Hr0]; · unfold anyR; iexists fr; iexact Hr0
  isplitl [Hz]; · iexact Hz
  isplitl [HO]; · iexists _; iexact HO
  isplitl [Hx]; · iexact Hx
  unfold holdsS
  iexists ((sM).access (r3 1)).write (Elt F) fs
    (k0_pay3 ((rM).view.readAt (Elt F) (r3 0).toLoadRect fr) ((xM).view.readAt (Elt F) (rectB c 0).toLoadRect (xstg m c))) Finset.univ
  isplitr
  · ipureintro
    refine (sM_read_store (Val := Elt F) 1 fs _).trans ?_
    unfold part1 ldB
    rw [← hfr]
  · iexact Hs1

end Cert.Kernel.Rs

end
-- ==== Proof.RkPart5.lean ====
/-
  Ring step 1, first half: device c starts the copy of send slot 1, holding its second partial sum, into receive slot 1 of
  its next device, and waits until the copy has read the slot, which then comes back; its send cell 1 is closed.
-/
import proofs.«901043_g7700000000001044_dist_rs_v7x_xyz2x4x4_y_m1024_n512_bf16_1_alg».proof.Proof.RkSend

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_part5 (K : Dev nD × Fin 9 → ℕ) (c : Dev nD) (v2 v8 v19 : BitVec 32) (W : Waits sig Unit) (Kt : PUnit → sProp 𝕄) :
    iprop(known m K c ∗ holdsS c 1 (part1 (xstg m) c) ∗ anyR (rgt c) 1 ∗ dutyTok ER (cell c 2) 0 0 ∗ dutyTok ER (cell (rgt c) 5) 0 0
        ∗ atPos ER (cell c 2) 0 ∅ 0 ∗ owes (c : Thread nD τ) (O3 c) W
        ∗ ((anyS c 1 ∗ semVal (cell c 2) 0 ∗ (∃ W', owes (c : Thread nD τ) (O2 c) W')) -∗ Kt ⟨⟩))
      ⊢ wp frame (wpE (defs₀ (F := F)) 𝒱₀ c none) Set.univ
          (k0_part5 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v8 v19) Kt := by
  simp only [k0_part5_eq_skeleton]; unfold k0_part5_skel
  simp only [Prog.lift, Prog.bind_op, Prog.bind_ret, Prog.pure_eq_ret]
  unfold known invs reacheds holdsS anyR
  iintro ⟨⟨⟨#HI0, #HI1, #HI2, #HI3, #HI4, #HI5, #HI6, #HI7, #HI8, #HIl0, #HIr0, #HIo0, #HIr4, #HIr5, #HIr6, #HIo8⟩,
      ⟨#Rl0, #Rr0, #Ro0, #Rr4, #Rr5, #Rr6, #Ro8, #R1, #R2, #R3, #R7⟩, #Hlev⟩, ⟨%fs, %hfs, Hs1⟩, ⟨%fn, Hn1⟩, T2, Tr5, Hp2, HO, Hk⟩
  -- the copy of send slot 1 into the next device's receive slot 1
  unfold O3
  iapply (wp_send_ring m K c _ (dev5_eq c) 1 2 5 (by decide) (by decide) (by decide) (by decide) _ _ rfl rfl
      (part1 (xstg m) c) rfl (by rw [payK_recv1, lft_rgt]) fs hfs fn (O2 c) W) $$ [Hs1 Hn1 HO T2 Tr5]
  · isplitr; · iexact HI2
    isplitr; · iexact HIr5
    isplitl [Hs1]; · iexact Hs1
    isplitl [Hn1]; · iexact Hn1
    isplitl [HO]; · iexact HO
    isplitl [T2]; · iexact T2
    isplitr; · iexact R2
    isplitl [Tr5]; · iexact Tr5
    iexact Rr5
  iintro ⟨Cs, HO⟩
  -- the wait until the copy has read the slot: the slot comes back
  iapply (Rounds.wp_wait_rest_token 𝒱₀ ER (Rd m) (c : Thread nD τ) none (κ := K (c, 2))
      (wpE_waitDma2_eq 𝒱₀ (c : Thread nD τ) none Set.univ) (Set.mem_univ _) () (O := O2 c) (W := W) (R := 0) (m := 0) (T := ∅)
      (show 0 + (sslot 1).view.dmaCredit = (Rd m).expect ((c : Thread nD τ), pS1) 0 from by
        rw [Nat.zero_add, expect_pring (xstg m) c pS1 2 rfl (by decide) (by decide)])) $$ [Cs HO Hp2]
  · isplitr; · iexact HI2
    isplitl [Cs]; · iexact Cs
    isplitl [HO]; · iexact HO
    isplitr; · iapply (mayWait_send1 c); iexact Hlev
    iexact Hp2
  iintro ⟨HO, Hp2, -, Hpay⟩
  ihave Hs1 := (Entails.of_eq ((rest_p (xstg m) c pS1 2 rfl (by decide)).trans (payK_send1 (xstg m) c 0))) $$ Hpay
  -- nothing more can land on the send cell: it is closed, its counter at zero
  imod (Rounds.cell_close ER (Rd m) (Set.mem_univ (K (c, 2))) (fun h => h) (R := 0 + 1) (duties_later_p (xstg m) c pS1 2 rfl)) $$ [Hp2] with Hz
  · isplitr; · iexact HI2
    iexact Hp2
  rw [wp_ret]; imodintro
  iapply Hk
  isplitl [Hs1]; · iexact Hs1
  isplitl [Hz]; · iexact Hz
  iexists _; iexact HO

end Cert.Kernel.Rs

end
-- ==== Proof.RkPart6.lean ====
/-
  Ring step 1, second half: device c waits for the previous device's copy into its receive slot 1, which comes back holding
  that device's second partial sum; its receive cell 1 is closed. It loads that slot, its own chunk y − 3, adds them, and
  stores the narrowed sum into send slot 2.
-/
import proofs.«901043_g7700000000001044_dist_rs_v7x_xyz2x4x4_y_m1024_n512_bf16_1_alg».proof.Proof.RkSend

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_part6 (K : Dev nD × Fin 9 → ℕ) (c : Dev nD) (v2 v5 v19 v51 : BitVec 32) (W : Waits sig Unit) (Kt : BitVec 32 → sProp 𝕄) :
    iprop(known m K c ∗ cred (tallyAt (cell c 5) () N3) ∗ atPos ER (cell c 5) 0 ∅ 0 ∗ owes (c : Thread nD τ) (O2 c) W
        ∗ stgX m c ∗ anyS c 2
        ∗ ((anyR c 1 ∗ semVal (cell c 5) 0 ∗ (∃ W', owes (c : Thread nD τ) (O2 c) W') ∗ stgX m c ∗ holdsS c 2 (part2 (xstg m) c))
            -∗ Kt (Scalar.addi (Scalar.addi 0#32 (Scalar.muli v2 16#32)) (Scalar.muli v19 4#32))))
      ⊢ wp frame (wpE (defs₀ (F := F)) 𝒱₀ c none) Set.univ
          (k0_part6 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v5 v19 v51) Kt := by
  simp only [k0_part6_eq_skeleton]; unfold k0_part6_skel
  simp only [Prog.lift, Prog.bind_op, Prog.bind_ret, Prog.pure_eq_ret]
  unfold known invs reacheds anyS
  iintro ⟨⟨⟨#HI0, #HI1, #HI2, #HI3, #HI4, #HI5, #HI6, #HI7, #HI8, #HIl0, #HIr0, #HIo0, #HIr4, #HIr5, #HIr6, #HIo8⟩,
      ⟨#Rl0, #Rr0, #Ro0, #Rr4, #Rr5, #Rr6, #Ro8, #R1, #R2, #R3, #R7⟩, #Hlev⟩, C5, Hp5, HO, Hx, ⟨%f2, Hs2⟩, Hk⟩
  -- the wait for the previous device's copy: receive slot 1 comes back holding its second partial sum
  iapply (Rounds.wp_wait_rest_token 𝒱₀ ER (Rd m) (c : Thread nD τ) none (κ := K (c, 5))
      (wpE_waitDma2_eq 𝒱₀ (c : Thread nD τ) none Set.univ) (Set.mem_univ _) () (O := O2 c) (W := W) (R := 0) (m := 0) (T := ∅)
      (show 0 + (rslot 1).view.dmaCredit = (Rd m).expect ((c : Thread nD τ), pR1) 0 from by
        rw [Nat.zero_add, expect_pring (xstg m) c pR1 5 rfl (by decide) (by decide)])) $$ [C5 HO Hp5]
  · isplitr; · iexact HI5
    isplitl [C5]; · iexact C5
    isplitl [HO]; · iexact HO
    isplitr; · iapply (mayWait_recv1 c); iexact Hlev
    iexact Hp5
  iintro ⟨HO, Hp5, -, Hpay⟩
  ihave Hr1 := (Entails.of_eq ((rest_p (xstg m) c pR1 5 rfl (by decide)).trans (payK_recv1 (xstg m) c 0))) $$ Hpay
  -- nothing more can land on the receive cell: it is closed, its counter at zero
  imod (Rounds.cell_close ER (Rd m) (Set.mem_univ (K (c, 5))) (fun h => h) (R := 0 + 1) (duties_later_p (xstg m) c pR1 5 rfl)) $$ [Hp5] with Hz
  · isplitr; · iexact HI5
    iexact Hp5
  unfold holdsR
  icases Hr1 with ⟨%fr, %hfr, Hr⟩
  -- the received sum, the device's own chunk, and the send slot are read; the narrowed sum is stored
  iapply (wp_load 𝒱₀ (c : Thread nD τ) none Set.univ (m := rM) (rM_load_sub 1)) $$ Hr; iintro Hr
  unfold stgX
  iapply (wp_load 𝒱₀ (c : Thread nD τ) none Set.univ (m := xM) (Finset.subset_univ _)) $$ Hx; iintro Hx
  iapply (wp_load 𝒱₀ (c : Thread nD τ) none Set.univ (m := sM) (sM_load_sub 2)) $$ Hs2; iintro Hs2
  iapply (wp_store 𝒱₀ (c : Thread nD τ) none Set.univ (m := sM) (r := r3 2) (Mk := Finset.univ) (sM_store_sub 2)) $$ Hs2; iintro Hs2
  rw [wp_ret]; imodintro
  iapply Hk
  isplitl [Hr]; · unfold anyR; iexists fr; iexact Hr
  isplitl [Hz]; · iexact Hz
  isplitl [HO]; · iexists _; iexact HO
  isplitl [Hx]; · iexact Hx
  unfold holdsS
  iexists (View.write (Elt F) ((sM).access (r3 2)) f2
    (k0_pay4 (View.readAt (Elt F) rM.view (r3 1).toLoadRect fr) (View.readAt (Elt F) xM.view (rectB c 1).toLoadRect (xstg m c))) Finset.univ)
  isplitr
  · ipureintro
    rw [sM_read_store 2]
    unfold part2 ldB
    rw [hfr]
  · iexact Hs2

end Cert.Kernel.Rs

end
-- ==== Proof.RkPart7.lean ====
/-
  Ring step 2, the protocol: device c starts the copy of send slot 2, holding its third partial sum, into receive slot 2 of
  its next device, waits until the copy has read the slot, and waits for the previous device's copy into its own receive
  slot 2, which comes back holding that device's third partial sum; its send cell 2 and receive cell 2 are closed.
-/
import proofs.«901043_g7700000000001044_dist_rs_v7x_xyz2x4x4_y_m1024_n512_bf16_1_alg».proof.Proof.RkSend

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_part7 (K : Dev nD × Fin 9 → ℕ) (c : Dev nD) (v2 v5 v8 v19 v189 : BitVec 32) (W : Waits sig Unit)
    (Kt : (Σ' (v218 : BitVec 32), BitVec 32) → sProp 𝕄) :
    iprop(known m K c ∗ holdsS c 2 (part2 (xstg m) c) ∗ anyR (rgt c) 2 ∗ dutyTok ER (cell c 3) 0 0 ∗ dutyTok ER (cell (rgt c) 6) 0 0
        ∗ atPos ER (cell c 3) 0 ∅ 0 ∗ cred (tallyAt (cell c 6) () N3) ∗ atPos ER (cell c 6) 0 ∅ 0 ∗ owes (c : Thread nD τ) (O2 c) W
        ∗ ((anyS c 2 ∗ semVal (cell c 3) 0 ∗ holdsR c 2 (part2 (xstg m) (lft c)) ∗ semVal (cell c 6) 0 ∗ (∃ W', owes (c : Thread nD τ) (O1 c) W'))
            -∗ Kt ⟨Scalar.subi v5 2#32, 2#32⟩))
      ⊢ wp frame (wpE (defs₀ (F := F)) 𝒱₀ c none) Set.univ
          (k0_part7 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v5 v8 v19 v189) Kt := by
  simp only [k0_part7_eq_skeleton]; unfold k0_part7_skel
  simp only [Prog.lift, Prog.bind_op, Prog.bind_ret, Prog.pure_eq_ret]
  unfold known invs reacheds holdsS anyR
  iintro ⟨⟨⟨#HI0, #HI1, #HI2, #HI3, #HI4, #HI5, #HI6, #HI7, #HI8, #HIl0, #HIr0, #HIo0, #HIr4, #HIr5, #HIr6, #HIo8⟩,
      ⟨#Rl0, #Rr0, #Ro0, #Rr4, #Rr5, #Rr6, #Ro8, #R1, #R2, #R3, #R7⟩, #Hlev⟩, ⟨%fs, %hfs, Hs2⟩, ⟨%fn, Hn2⟩, T3, Tr6, Hp3, Cr, Hp6, HO, Hk⟩
  -- the copy of send slot 2 into the next device's receive slot 2
  unfold O2
  iapply (wp_send_ring m K c _ (dev6_eq c) 2 3 6 (by decide) (by decide) (by decide) (by decide) _ _ rfl rfl
      (part2 (xstg m) c) rfl (by rw [payK_recv2, lft_rgt]) fs hfs fn (O1 c) W) $$ [Hs2 Hn2 HO T3 Tr6]
  · isplitr; · iexact HI3
    isplitr; · iexact HIr6
    isplitl [Hs2]; · iexact Hs2
    isplitl [Hn2]; · iexact Hn2
    isplitl [HO]; · iexact HO
    isplitl [T3]; · iexact T3
    isplitr; · iexact R3
    isplitl [Tr6]; · iexact Tr6
    iexact Rr6
  iintro ⟨Cs, HO⟩
  -- the wait until the copy has read the slot: the slot comes back
  iapply (Rounds.wp_wait_rest_token 𝒱₀ ER (Rd m) (c : Thread nD τ) none (κ := K (c, 3))
      (wpE_waitDma2_eq 𝒱₀ (c : Thread nD τ) none Set.univ) (Set.mem_univ _) () (O := O1 c) (W := W) (R := 0) (m := 0) (T := ∅)
      (show 0 + (sslot 2).view.dmaCredit = (Rd m).expect ((c : Thread nD τ), pS2) 0 from by
        rw [Nat.zero_add, expect_pring (xstg m) c pS2 3 rfl (by decide) (by decide)])) $$ [Cs HO Hp3]
  · isplitr; · iexact HI3
    isplitl [Cs]; · iexact Cs
    isplitl [HO]; · iexact HO
    isplitr; · iapply (mayWait_send2 c); iexact Hlev
    iexact Hp3
  iintro ⟨HO, Hp3, -, Hpay⟩
  ihave Hs2 := (Entails.of_eq ((rest_p (xstg m) c pS2 3 rfl (by decide)).trans (payK_send2 (xstg m) c 0))) $$ Hpay
  -- nothing more can land on the send cell: it is closed, its counter at zero
  imod (Rounds.cell_close ER (Rd m) (Set.mem_univ (K (c, 3))) (fun h => h) (R := 0 + 1) (duties_later_p (xstg m) c pS2 3 rfl)) $$ [Hp3] with Hz3
  · isplitr; · iexact HI3
    iexact Hp3
  -- the wait for the previous device's copy: receive slot 2 comes back holding that device's third partial sum
  iapply (Rounds.wp_wait_rest_token 𝒱₀ ER (Rd m) (c : Thread nD τ) none (κ := K (c, 6))
      (wpE_waitDma2_eq 𝒱₀ (c : Thread nD τ) none Set.univ) (Set.mem_univ _) () (O := O1 c) (W := insert (pS2, ()) W) (R := 0) (m := 0) (T := ∅)
      (show 0 + (rslot 2).view.dmaCredit = (Rd m).expect ((c : Thread nD τ), pR2) 0 from by
        rw [Nat.zero_add, expect_pring (xstg m) c pR2 6 rfl (by decide) (by decide)])) $$ [Cr HO Hp6]
  · isplitr; · iexact HI6
    isplitl [Cr]; · iexact Cr
    isplitl [HO]; · iexact HO
    isplitr; · iapply (mayWait_recv2 c); iexact Hlev
    iexact Hp6
  iintro ⟨HO, Hp6, -, Hpay⟩
  ihave Hr2 := (Entails.of_eq ((rest_p (xstg m) c pR2 6 rfl (by decide)).trans (payK_recv2 (xstg m) c 0))) $$ Hpay
  -- the receive cell is closed, its counter at zero
  imod (Rounds.cell_close ER (Rd m) (Set.mem_univ (K (c, 6))) (fun h => h) (R := 0 + 1) (duties_later_p (xstg m) c pR2 6 rfl)) $$ [Hp6] with Hz6
  · isplitr; · iexact HI6
    iexact Hp6
  rw [wp_ret]; imodintro
  iapply Hk
  isplitl [Hs2]; · iexact Hs2
  isplitl [Hz3]; · iexact Hz3
  isplitl [Hr2]; · iexact Hr2
  isplitl [Hz6]; · iexact Hz6
  iexists _; iexact HO

end Cert.Kernel.Rs

end
-- ==== Proof.RkPart8.lean ====
/-
  Ring step 2, the arithmetic: device c loads its receive slot 2 (the previous device's third partial sum) and its own chunk
  y, adds them — the complete sum of chunk y over the ring, for the rows of its half —, stores it into those rows of the
  staged result, and stores it, narrowed, into exchange slot 0.
-/
import proofs.«901043_g7700000000001044_dist_rs_v7x_xyz2x4x4_y_m1024_n512_bf16_1_alg».proof.Proof.RkSend

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem wp_part8 (c : Dev nD) (v5 v8 v31 v51 v218 c2 : BitVec 32) (g : OTy F) (Kt : PUnit → sProp 𝕄) :
    iprop(holdsR c 2 (part2 (xstg m) (lft c)) ∗ stgX m c ∗ stgO c g ∗ anyE c 0
        ∗ ((anyR c 2 ∗ stgX m c ∗ stgO c (((oM).access (rectOwn c)).write (Elt F) g (full (xstg m) c) Finset.univ)
              ∗ holdsE0 c (fullNarrow (xstg m) c)) -∗ Kt ⟨⟩))
      ⊢ wp frame (wpE (defs₀ (F := F)) 𝒱₀ c none) Set.univ
          (k0_part8 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v5 v8 v31 v51 v218 c2) Kt := by
  simp only [k0_part8_eq_skeleton]; unfold k0_part8_skel
  simp only [Prog.lift, Prog.bind_op, Prog.bind_ret, Prog.pure_eq_ret]
  unfold holdsR stgX stgO anyE
  iintro ⟨⟨%fr, %hfr, Hr⟩, Hx, Ho, ⟨%fe, He⟩, Hk⟩
  -- the previous device's third partial sum, from receive slot 2, and this device's own chunk y
  iapply (wp_load 𝒱₀ (c : Thread nD τ) none Set.univ (m := rM) (rM_load_sub 2)) $$ Hr; iintro Hr
  iapply (wp_load 𝒱₀ (c : Thread nD τ) none Set.univ (m := xM) (Finset.subset_univ _)) $$ Hx; iintro Hx
  -- the complete sum goes into the device's own rows of the staged result
  iapply (wp_load 𝒱₀ (c : Thread nD τ) none Set.univ (m := oM) (Finset.subset_univ _)) $$ Ho; iintro Ho
  iapply (wp_store 𝒱₀ (c : Thread nD τ) none Set.univ (m := oM) (r := rectOwn c) (Mk := Finset.univ) (Finset.subset_univ _)) $$ Ho; iintro Ho
  -- and, narrowed, into exchange slot 0
  iapply (wp_load 𝒱₀ (c : Thread nD τ) none Set.univ (m := eM) (eM_load_sub 0)) $$ He; iintro He
  iapply (wp_store 𝒱₀ (c : Thread nD τ) none Set.univ (m := eM) (r := r2 0) (Mk := Finset.univ) (eM_store_sub 0)) $$ He; iintro He
  rw [wp_ret]; imodintro
  iapply Hk
  isplitl [Hr]; · unfold anyR; iexists fr; iexact Hr
  isplitl [Hx]; · iexact Hx
  isplitl [Ho]
  · unfold full ldB
    rw [← hfr]
    iexact Ho
  unfold holdsE0
  iexists ((eM).access (r2 0)).write (Elt F) fe
    (k0_pay6 ((rM).view.readAt (Elt F) (r3 2).toLoadRect fr) ((xM).view.readAt (Elt F) (rectB c 2).toLoadRect (xstg m c))) Finset.univ
  isplitr
  · ipureintro
    refine (eM_read_store (Val := Elt F) 0 fe _).trans ?_
    unfold fullNarrow ldB
    rw [← hfr]
  · iexact He

end Cert.Kernel.Rs

end
-- ==== Proof.RkBody.lean ====
/-
  The body of one device, from what it holds at the start to what it holds at the end: the entry handshake, the three
  ring steps, and the exchange of the complete sums across x, one after the other, each part using only what it touches.
-/
import proofs.«901043_g7700000000001044_dist_rs_v7x_xyz2x4x4_y_m1024_n512_bf16_1_alg».proof.Proof.RkStageA
import proofs.«901043_g7700000000001044_dist_rs_v7x_xyz2x4x4_y_m1024_n512_bf16_1_alg».proof.Proof.RkPart3
import proofs.«901043_g7700000000001044_dist_rs_v7x_xyz2x4x4_y_m1024_n512_bf16_1_alg».proof.Proof.RkPart4
import proofs.«901043_g7700000000001044_dist_rs_v7x_xyz2x4x4_y_m1024_n512_bf16_1_alg».proof.Proof.RkPart5
import proofs.«901043_g7700000000001044_dist_rs_v7x_xyz2x4x4_y_m1024_n512_bf16_1_alg».proof.Proof.RkPart6
import proofs.«901043_g7700000000001044_dist_rs_v7x_xyz2x4x4_y_m1024_n512_bf16_1_alg».proof.Proof.RkPart7
import proofs.«901043_g7700000000001044_dist_rs_v7x_xyz2x4x4_y_m1024_n512_bf16_1_alg».proof.Proof.RkPart8

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 3200000 in
/-- The body of device c, from `bodyPre` to `bodyPost`. -/
theorem sound_body (K : Dev nD × Fin 9 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton]; unfold cc0_body_skel
  rw [wp_bind]
  simp only [k0_part1_eq_skeleton]; unfold k0_part1_skel
  simp only [Prog.lift, Prog.bind_op, Prog.bind_ret, Prog.pure_eq_ret, wp_deviceId, wp_ret]
  iintro ⟨Hpre, Hpost⟩
  imodintro
  -- the entry handshake and the first load
  rw [wp_bind]
  iapply (wp_handshake m ρ K c _ _ _ _ _ _ _ _)
  isplitl [Hpre]; · iexact Hpre
  iintro ⟨#Hkn, HA⟩
  unfold stA
  icases HA with ⟨⟨Hp1, Hp2, Hp3, Hp4, Hp5, Hp6, Hp7, Hp8⟩, ⟨Tr4, Tr5, Tr6, To8, T1, T2, T3, T7⟩, ⟨C4, C5, C6, C8⟩, ⟨%W1, HO⟩,
    ⟨S0, S1, S2⟩, ⟨N0, N1, N2⟩, ⟨Eo, E0⟩, ⟨Hx, ⟨%g, Hout⟩⟩⟩
  dsimp only
  -- ring step 0
  rw [wp_bind]
  iapply (wp_part3 m K c _ _ _ W1 _)
  isplitr; · iexact Hkn
  isplitl [S0]; · iexact S0
  isplitl [N0]; · iexact N0
  isplitl [T1]; · iexact T1
  isplitl [Tr4]; · iexact Tr4
  isplitl [Hp1]; · iexact Hp1
  isplitl [HO]; · iexact HO
  iintro ⟨S0, Z1, ⟨%W2, HO⟩⟩
  rw [wp_bind]
  iapply (wp_part4 m K c _ _ _ _ _ W2 _)
  isplitr; · iexact Hkn
  isplitl [C4]; · iexact C4
  isplitl [Hp4]; · iexact Hp4
  isplitl [HO]; · iexact HO
  isplitl [Hx]; · iexact Hx
  isplitl [S1]; · iexact S1
  iintro ⟨M0, Z4, ⟨%W3, HO⟩, Hx, S1⟩
  -- ring step 1
  rw [wp_bind]
  iapply (wp_part5 m K c _ _ _ W3 _)
  isplitr; · iexact Hkn
  isplitl [S1]; · iexact S1
  isplitl [N1]; · iexact N1
  isplitl [T2]; · iexact T2
  isplitl [Tr5]; · iexact Tr5
  isplitl [Hp2]; · iexact Hp2
  isplitl [HO]; · iexact HO
  iintro ⟨S1, Z2, ⟨%W4, HO⟩⟩
  rw [wp_bind]
  iapply (wp_part6 m K c _ _ _ _ W4 _)
  isplitr; · iexact Hkn
  isplitl [C5]; · iexact C5
  isplitl [Hp5]; · iexact Hp5
  isplitl [HO]; · iexact HO
  isplitl [Hx]; · iexact Hx
  isplitl [S2]; · iexact S2
  iintro ⟨M1, Z5, ⟨%W5, HO⟩, Hx, S2⟩
  -- ring step 2
  rw [wp_bind]
  iapply (wp_part7 m K c _ _ _ _ _ W5 _)
  isplitr; · iexact Hkn
  isplitl [S2]; · iexact S2
  isplitl [N2]; · iexact N2
  isplitl [T3]; · iexact T3
  isplitl [Tr6]; · iexact Tr6
  isplitl [Hp3]; · iexact Hp3
  isplitl [C6]; · iexact C6
  isplitl [Hp6]; · iexact Hp6
  isplitl [HO]; · iexact HO
  iintro ⟨S2, Z3, R2, Z6, ⟨%W6, HO⟩⟩
  rw [wp_bind]
  iapply (wp_part8 m c _ _ _ _ _ _ g _)
  isplitl [R2]; · iexact R2
  isplitl [Hx]; · iexact Hx
  isplitl [Hout]; · iexact Hout
  isplitl [E0]; · iexact E0
  iintro ⟨M2, Hx, Hout, E0⟩
  -- the exchange across x: the complete sum of this device's half, narrowed, goes to the other-x device
  unfold known invs reacheds
  icases Hkn with ⟨⟨#HI0, #HI1, #HI2, #HI3, #HI4, #HI5, #HI6, #HI7, #HI8, #HIl0, #HIr0, #HIo0, #HIr4, #HIr5, #HIr6, #HIo8⟩,
      ⟨#Rl0, #Rr0, #Ro0, #Rr4, #Rr5, #Rr6, #Ro8, #R1, #R2', #R3, #R7⟩, #Hlev⟩
  unfold holdsE0 anyE
  icases E0 with ⟨%fe, %hfe, E0⟩
  icases Eo with ⟨%fo, Eo⟩
  unfold O1
  iapply (wp_send_exch m K c _ (dev7_eq c) (fullNarrow (xstg m) c) (by rw [payK_xrecv, oth_oth]) fe hfe fo 0 W6) $$ [E0 Eo HO T7 To8]
  · isplitr; · iexact HI7
    isplitr; · iexact HIo8
    isplitl [E0]; · iexact E0
    isplitl [Eo]; · iexact Eo
    isplitl [HO]; · iexact HO
    isplitl [T7]; · iexact T7
    isplitr; · iexact R7
    isplitl [To8]; · iexact To8
    iexact Ro8
  iintro ⟨Cx, HO⟩
  -- the wait until the copy has read exchange slot 0: the slot comes back
  iapply (Rounds.wp_wait_rest_token 𝒱₀ ER (Rd m) (c : Thread nD τ) none (κ := K (c, 7))
      (wpE_waitDma2_eq 𝒱₀ (c : Thread nD τ) none Set.univ) (Set.mem_univ _) () (O := 0) (W := W6) (R := 0) (m := 0) (T := ∅)
      (show 0 + (eslot 0).view.dmaCredit = (Rd m).expect ((c : Thread nD τ), pXS) 0 from by
        rw [Nat.zero_add, expect_pexch (xstg m) c pXS 7 rfl (by decide)])) $$ [Cx HO Hp7]
  · isplitr; · iexact HI7
    isplitl [Cx]; · iexact Cx
    isplitl [HO]; · iexact HO
    isplitr; · rw [MayWait_zero]; iempintro
    iexact Hp7
  iintro ⟨HO, Hp7, -, Hpay⟩
  ihave E0 := (Entails.of_eq ((rest_p (xstg m) c pXS 7 rfl (by decide)).trans (payK_xsend (xstg m) c 0))) $$ Hpay
  imod (Rounds.cell_close ER (Rd m) (Set.mem_univ (K (c, 7))) (fun h => h) (R := 0 + 1) (duties_later_p (xstg m) c pXS 7 rfl)) $$ [Hp7] with Z7
  · isplitr; · iexact HI7
    iexact Hp7
  -- the wait for the other-x device's copy into exchange slot 1, which comes back holding that device's complete sum, narrowed
  iapply (Rounds.wp_wait_rest_token 𝒱₀ ER (Rd m) (c : Thread nD τ) none (κ := K (c, 8))
      (wpE_waitDma2_eq 𝒱₀ (c : Thread nD τ) none Set.univ) (Set.mem_univ _) () (O := 0) (R := 0) (m := 0) (T := ∅)
      (show 0 + (eslot 1).view.dmaCredit = (Rd m).expect ((c : Thread nD τ), pXR) 0 from by
        rw [Nat.zero_add, expect_pexch (xstg m) c pXR 8 rfl (by decide)])) $$ [C8 HO Hp8]
  · isplitr; · iexact HI8
    isplitl [C8]; · iexact C8
    isplitl [HO]; · iexact HO
    isplitr; · rw [MayWait_zero]; iempintro
    iexact Hp8
  iintro ⟨HO, Hp8, -, Hpay⟩
  ihave E1 := (Entails.of_eq ((rest_p (xstg m) c pXR 8 rfl (by decide)).trans (payK_xrecv (xstg m) c 0))) $$ Hpay
  imod (Rounds.cell_close ER (Rd m) (Set.mem_univ (K (c, 8))) (fun h => h) (R := 0 + 1) (duties_later_p (xstg m) c pXR 8 rfl)) $$ [Hp8] with Z8
  · isplitr; · iexact HI8
    iexact Hp8
  unfold holdsE
  icases E1 with ⟨%f1, %hf1, E1⟩
  -- the other half of the rows: the received sum, widened, stored
  iapply (wp_load 𝒱₀ (c : Thread nD τ) none Set.univ (m := eM) (eM_load_sub 1)) $$ E1; iintro E1
  unfold stgO
  iapply (wp_load 𝒱₀ (c : Thread nD τ) none Set.univ (m := oM) (Finset.subset_univ _)) $$ Hout; iintro Hout
  iapply (wp_store 𝒱₀ (c : Thread nD τ) none Set.univ (m := oM) (r := rectOth c) (Mk := Finset.univ) (Finset.subset_univ _)) $$ Hout; iintro Hout
  rw [wp_ret]; imodintro
  -- what the staged result holds is the device's result: both halves of the rows written
  have hout : ((oM).access (rectOth c)).write (Elt F) (((oM).access (rectOwn c)).write (Elt F) g (full (xstg m) c) Finset.univ)
      (k0_pay1 ((eM).view.readAt (Elt F) (r2 1).toLoadRect f1)) Finset.univ = outAt (xstg m) c := by
    rw [hf1]; unfold outAt; rw [outFrom_indep (xstg m) c _ g]; rfl
  iapply Hpost
  unfold bodyPost Φ₁ scratch closed8
  isplitl [S0 S1 S2 M0 M1 M2 E0 E1 Z1 Z2 Z3 Z4 Z5 Z6 Z7 Z8]
  · isplitl [S0 S1 S2 M0 M1 M2 E0 E1]
    · unfold anyS anyR anyE
      icases S0 with ⟨%a0, S0⟩
      icases S1 with ⟨%a1, S1⟩
      icases S2 with ⟨%a2, S2⟩
      icases M0 with ⟨%b0, M0⟩
      icases M1 with ⟨%b1, M1⟩
      icases M2 with ⟨%b2, M2⟩
      icases E0 with ⟨%e0, E0⟩
      isplitl [S0 S1 S2]
      · iapply (sM_join (Val := Elt F) c a0 a1 a2)
        isplitl [S0]; · iexact S0
        isplitl [S1]; · iexact S1
        iexact S2
      isplitl [M0 M1 M2]
      · iapply (rM_join (Val := Elt F) c b0 b1 b2)
        isplitl [M0]; · iexact M0
        isplitl [M1]; · iexact M1
        iexact M2
      iapply (eM_join (Val := Elt F) c e0 f1)
      isplitl [E0]; · iexact E0
      iexact E1
    · isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      iexact Z8
  isplitl [HO]
  · unfold Dat.owesAt Pipeline.owesWithin
    rw [show (dats m ρ 0 c).owed t₀.succ = 0 from rfl]
    iexists (insert (pXR, ()) (insert (pXS, ()) W6))
    isplitr; · ipureintro; exact fun _ _ => Or.inl trivial
    iexact HO
  isplitl [Hx]
  · unfold stgX
    iexists _; isplitr; · (ipureintro; rfl)
    iexact Hx
  iexists _; isplitr; · (ipureintro; exact hout)
  iexact Hout

end Cert.Kernel.Rs

end
-- ==== Proof.RkLaunch.lean ====
/-
  The launch of the ring reduce-scatter on the 32 devices.

  Every device has nine protocol cells. Eight of them are the kernel's own DMA semaphores; the ninth, the barrier, is
  the runtime's and is not scoped to the kernel, so the invariants of all cells are allocated for all devices in one
  step, from every device's counters at zero. The duty tokens minted with a device's own cells are then dealt to the
  devices that pay those duties: a barrier cell's three tokens go to the next device along y, the previous one, and
  the device of the other x; a receive cell's token goes to the previous device; the exchange receive cell's token to
  the device of the other x; the send cells' tokens stay. The credit the launch deals a device is what its three peers
  owe its cells. With that, each device's body runs from its start to its end, and the arrays end as computed.
-/
import proofs.«901043_g7700000000001044_dist_rs_v7x_xyz2x4x4_y_m1024_n512_bf16_1_alg».proof.Proof.RkBody

noncomputable section

namespace Cert.Kernel.Rs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

theorem bigSep_W (Φ : Fin cfg0.W → sProp 𝕄) : bigSep Finset.univ Φ = iprop(Φ (0 : Fin 2) ∗ Φ (1 : Fin 2)) := bigSep_W0 Φ

/-- Owning a whole staging buffer at contents Y is a points-to of the whole buffer at Y. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- The body label at the one point, on the staging buffers the pipeline calls it with, is the kernel's function on the
    whole staging buffers. -/
theorem body_prog : defs₀ (F := F) Proc.tc 0 (t₀, cfg0.slots t₀)
    = cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6 := by
  unfold defs₀; rw [Defs.onTc_tc]

set_option maxRecDepth 4000 in
set_option maxHeartbeats 1600000 in
/-- The pipeline's body obligation on device c: the ghost state's names are taken out of the start, and the body runs. -/
theorem body_obligation (c : Dev nD) : BodyObligation (dats (F := F) m ρ 0 c) (defs₀ (F := F)) 𝒱₀ () Set.univ := fun t => by
  rw [fin_N t]
  rw [bigSep_W, bigSep_W]
  simp only [owns_whole_eq]
  rw [body_prog, show (dats m ρ 0 c).Φ t₀.castSucc = Φ₀ m c from rfl, show (dats m ρ 0 c).Φ t₀.succ = Φ₁ c from rfl,
    show (dats m ρ 0 c).after 0 t₀ = xstg m c from rfl, show (dats m ρ 0 c).after 1 t₀ = outAt (xstg m) c from rfl]
  unfold Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-! ## The cells and the tokens minted with them -/

/-- The kernel's own eight semaphores: cells 1 to 8. -/
abbrev osem : Fin 8 → SemLoc sig := fun j => csem j.succ

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- All cells of all devices. -/
def rsCells : Finset (GSem nD τ sig) := Finset.univ.map ⟨kcell, kcell_injective⟩

/-- The eleven duties of a device's own cells: the barrier's three, then one for each of cells 1 to 8. -/
def tokK : Fin 11 → Fin 9 := ![0, 0, 0, 1, 2, 3, 4, 5, 6, 7, 8]
def tokD : Fin 11 → Fin 3 := ![0, 1, 2, 0, 0, 0, 0, 0, 0, 0, 0]
abbrev tokOf (cj : Dev nD × Fin 11) : GSem nD τ sig × ℕ × Fin 3 := (cell cj.1 (tokK cj.2), 0, tokD cj.2)

theorem tokKD_injective : ∀ j j' : Fin 11, tokK j = tokK j' → tokD j = tokD j' → j = j' := by decide

theorem tokOf_injective : Function.Injective (tokOf : Dev nD × Fin 11 → GSem nD τ sig × ℕ × Fin 3) := by
  rintro ⟨c, j⟩ ⟨c', j'⟩ h
  have h1 : c = c' := by have := congrArg (fun x : GSem nD τ sig × ℕ × Fin 3 => x.1.1.1) h; exact this
  subst h1
  have hk : tokK j = tokK j' := csem_injective (congrArg (fun x : GSem nD τ sig × ℕ × Fin 3 => x.1.2) h)
  have hd : tokD j = tokD j' := congrArg (fun x : GSem nD τ sig × ℕ × Fin 3 => x.2.2) h
  rw [tokKD_injective j j' hk hd]

def rsToks : Finset (GSem nD τ sig × ℕ × Fin 3) := Finset.univ.map ⟨tokOf, tokOf_injective⟩

/-- The launch element: the pipeline library's cells and tokens, and the protocol's. -/
def u₀ : UU :=
  (initOf (Pipeline.cells cfgs cellOf_inj) (Pipeline.launchToks cfgs cellOf_inj), initOf rsCells rsToks)

/-- The duty tokens of device c's own cells. -/
def toks (c : Dev nD) : sProp 𝕄 :=
  iprop(dutyTok ER (cell c 0) 0 0 ∗ dutyTok ER (cell c 0) 0 1 ∗ dutyTok ER (cell c 0) 0 2
    ∗ dutyTok ER (cell c 1) 0 0 ∗ dutyTok ER (cell c 2) 0 0 ∗ dutyTok ER (cell c 3) 0 0 ∗ dutyTok ER (cell c 4) 0 0
    ∗ dutyTok ER (cell c 5) 0 0 ∗ dutyTok ER (cell c 6) 0 0 ∗ dutyTok ER (cell c 7) 0 0 ∗ dutyTok ER (cell c 8) 0 0)

/-- What the launch element deals device c: its nine cells' round states, its positions and reached-marks, its tokens. -/
def G (c : Dev nD) : sProp 𝕄 :=
  iprop((bigSep Finset.univ fun k : Fin 9 => roundState ER (Rd m) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-- The protocol's half of the launch element funds every device's share. -/
theorem fund_ring : BI.own (ER (initOf rsCells rsToks)) ⊢ (|==> bigSep Finset.univ (G m) : sProp 𝕄) := by
  have hX (Φ : GSem nD τ sig → sProp 𝕄) : bigSep rsCells Φ = bigSep Finset.univ fun c : Dev nD => bigSep Finset.univ fun k : Fin 9 => Φ (kcell (c, k)) := by
    unfold rsCells; rw [bigSep_map, bigSep_univ_prod]; rfl
  have hT : bigSep rsToks (fun x => (dutyTok ER x.1 x.2.1 x.2.2 : sProp 𝕄)) = bigSep Finset.univ fun c : Dev nD => toks c := by
    unfold rsToks; rw [bigSep_map, bigSep_univ_prod]
    exact bigSep_congr fun c _ => by unfold toks; rw [bigSep_fin11]; rfl
  iintro HX
  imod (Rounds.fund ER (Rd m) rsCells rsToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant, then each device's share -/

/-- The kernel's own semaphores at zero are cells 1 to 8 at zero; -/
theorem ownSems0_eq (c : Dev nD) : (Pipeline.ownSems0 (Ix := Unit) (Name := ℕ) (U := UU) (Lvl := ℕ) (Val := Elt F) (τ := τ) osem c : sProp 𝕄)
    = closed8 c := by
  rw [Pipeline.ownSems0_eq_of_list c osem [0, 1, 2, 3, 4, 5, 6, 7] (by decide) (by decide)]; rfl
/-- the barrier semaphore is the one semaphore not scoped to the kernel. -/
theorem unscopedSems0_eq (c : Dev nD) : (unscopedSems0 c : sProp 𝕄) = semVal (cell c 0) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  unfold closed8
  iintro ⟨⟨H1, H2, H3, H4, H5, H6, H7, H8⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- On one device: its nine counters at zero and its nine round states make its nine cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent facts of the whole machine: every cell's invariant at its name, every cell's round 0 reached. -/
def records (K : Dev nD × Fin 9 → ℕ) : sProp 𝕄 :=
  iprop((bigSep Finset.univ fun ck : Dev nD × Fin 9 => cellInv ER (Rd m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) :
    (bigSep Finset.univ fun ck : Dev nD × Fin 9 => (cellInv ER (Rd m) (K ck) (kcell ck) : sProp 𝕄)) ⊢ cellInv ER (Rd m) (K ck) (kcell ck) :=
  bigSep_elim (Finset.mem_univ ck)
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

/-- What stays with device c alone: its nine positions and the tokens of the duties it pays. -/
def linear (c : Dev nD) : sProp 𝕄 := iprop(positions c ∗ payToks c)

/-- From the machine's persistent facts a device reads the invariants and reached-marks of the cells it touches. -/
theorem ghost_intro (K : Dev nD × Fin 9 → ℕ) (c : Dev nD) : iprop(records m K ∗ linear c) ⊢ G' m c := by
  unfold records linear G' ghost
  iintro ⟨⟨#HI, #HR⟩, Hpos, Htok⟩
  iexists K
  isplitr
  · unfold invs
    isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (c, 7)); iexact HI
    isplitr; · iapply (inv_at m K (c, 8)); iexact HI
    isplitr; · iapply (inv_at m K (lft c, 0)); iexact HI
    isplitr; · iapply (inv_at m K (rgt c, 0)); iexact HI
    isplitr; · iapply (inv_at m K (oth c, 0)); iexact HI
    isplitr; · iapply (inv_at m K (rgt c, 4)); iexact HI
    isplitr; · iapply (inv_at m K (rgt c, 5)); iexact HI
    isplitr; · iapply (inv_at m K (rgt c, 6)); iexact HI
    iapply (inv_at m K (oth c, 8)); iexact HI
  isplitl [Hpos]; · iexact Hpos
  isplitr
  · unfold reacheds
    isplitr; · iapply (reached_at (F := F) (lft c, 0)); iexact HR
    isplitr; · iapply (reached_at (F := F) (rgt c, 0)); iexact HR
    isplitr; · iapply (reached_at (F := F) (oth c, 0)); iexact HR
    isplitr; · iapply (reached_at (F := F) (rgt c, 4)); iexact HR
    isplitr; · iapply (reached_at (F := F) (rgt c, 5)); iexact HR
    isplitr; · iapply (reached_at (F := F) (rgt c, 6)); iexact HR
    isplitr; · iapply (reached_at (F := F) (oth c, 8)); iexact HR
    isplitr; · iapply (reached_at (F := F) (c, 1)); iexact HR
    isplitr; · iapply (reached_at (F := F) (c, 2)); iexact HR
    isplitr; · iapply (reached_at (F := F) (c, 3)); iexact HR
    iapply (reached_at (F := F) (c, 7)); iexact HR
  iexact Htok

/-- The tokens dealt to their payers. Summed over the devices, a barrier's duty 0 is paid by the next device along y
    (whose previous device the cell's owner is), its duty 1 by the previous device, its duty 2 by the device of the
    other x; a receive cell's duty by the previous device; the exchange receive cell's by the device of the other x. -/
theorem toks_around : (bigSep Finset.univ fun c : Dev nD => (toks c : sProp 𝕄)) ⊢ bigSep Finset.univ fun c : Dev nD => payToks c := by
  unfold toks payToks
  simp only [bigSep_sep']
  rw [bigSep_univ_equiv ringY.symm (fun c : Dev nD => (dutyTok ER (cell c 0) 0 0 : sProp 𝕄)),
    bigSep_univ_equiv ringY (fun c : Dev nD => (dutyTok ER (cell c 0) 0 1 : sProp 𝕄)),
    bigSep_univ_equiv swapX (fun c : Dev nD => (dutyTok ER (cell c 0) 0 2 : sProp 𝕄)),
    bigSep_univ_equiv ringY (fun c : Dev nD => (dutyTok ER (cell c 4) 0 0 : sProp 𝕄)),
    bigSep_univ_equiv ringY (fun c : Dev nD => (dutyTok ER (cell c 5) 0 0 : sProp 𝕄)),
    bigSep_univ_equiv ringY (fun c : Dev nD => (dutyTok ER (cell c 6) 0 0 : sProp 𝕄)),
    bigSep_univ_equiv swapX (fun c : Dev nD => (dutyTok ER (cell c 8) 0 0 : sProp 𝕄))]
  iintro ⟨H00, H01, H02, H1, H2, H3, H4, H5, H6, H7, H8⟩
  isplitl [H00]; · iexact H00
  isplitl [H01]; · iexact H01
  isplitl [H02]; · iexact H02
  isplitl [H4]; · iexact H4
  isplitl [H5]; · iexact H5
  isplitl [H6]; · iexact H6
  isplitl [H8]; · iexact H8
  isplitl [H1]; · iexact H1
  isplitl [H2]; · iexact H2
  isplitl [H3]; · iexact H3
  iexact H7

/-- A persistent fact may be used at every member of a separating conjunction. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' allocated cells, regrouped: the names chosen at once, the tokens dealt, each device given its share. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (Rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear positions; rw [bigSep_fin9])))
    isplitl [Hat]; · iexact Hat
    iexact Htk

/-- The global step: from every device's own and unscoped counters at zero and its share of the launch element. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_three (g : GSem nD τ sig) :
    (tallyAt g () 3 : CellTallies nD τ sig Unit) = tallyAt g () 1 + (tallyAt g () 1 + tallyAt g () 1) := by
  rw [tallyAt_add, tallyAt_add]

/-- Three units on one cell are one credit of three. -/
theorem cred_three (g : GSem nD τ sig) :
    iprop(cred (tallyAt g () 1) ∗ cred (tallyAt g () 1) ∗ cred (tallyAt g () 1)) ⊢ (cred (tallyAt g () 3) : sProp 𝕄) := by
  rw [tally_three]
  iintro ⟨H1, H2, H3⟩
  iapply (cred_add _ _).2
  isplitl [H1]; · iexact H1
  iapply (cred_add _ _).2
  isplitl [H2] <;> iassumption

/-- What the launch deals device c: each summand of what a device owes is a one-cell tally on a cell of one of its
    peers, so summed over the devices it is that tally on device c's own cell. Its barrier gets a unit from each of the
    three peers, its three receive cells a slot's credit from the previous device, its exchange receive cell the
    exchange slot's credit from the device of the other x. -/
theorem creds (c : Dev nD) : (Pipeline.launchCred O₀ c : sProp 𝕄) ⊢ creds0 c := by
  have e7 : (O₀ : Dev nD → CellTallies nD τ sig Unit) = fun d => O6 d + tallyAt (cell (lft d) 0) () 1 := rfl
  have e6 : (O6 : Dev nD → CellTallies nD τ sig Unit) = fun d => O5 d + tallyAt (cell (rgt d) 0) () 1 := rfl
  have e5 : (O5 : Dev nD → CellTallies nD τ sig Unit) = fun d => O4 d + tallyAt (cell (oth d) 0) () 1 := rfl
  have e4 : (O4 : Dev nD → CellTallies nD τ sig Unit) = fun d => O3 d + tallyAt (cell (rgt d) 4) () N3 := rfl
  have e3 : (O3 : Dev nD → CellTallies nD τ sig Unit) = fun d => O2 d + tallyAt (cell (rgt d) 5) () N3 := rfl
  have e2 : (O2 : Dev nD → CellTallies nD τ sig Unit) = fun d => O1 d + tallyAt (cell (rgt d) 6) () N3 := rfl
  have e1 : (O1 : Dev nD → CellTallies nD τ sig Unit) = fun d => (fun _ : Dev nD => (0 : CellTallies nD τ sig Unit)) d + tallyAt (cell (oth d) 8) () NE := rfl
  rw [e7, Pipeline.launchCred_add, e6, Pipeline.launchCred_add, e5, Pipeline.launchCred_add, e4, Pipeline.launchCred_add,
    e3, Pipeline.launchCred_add, e2, Pipeline.launchCred_add, e1, Pipeline.launchCred_add, Pipeline.launchCred_zero]
  iintro ⟨⟨⟨⟨⟨⟨⟨-, H8⟩, H6⟩, H5⟩, H4⟩, Hx⟩, Hr⟩, Hl⟩
  ihave C8 := (Pipeline.launchCred_tallyAt (csem 8) oth oth oth_oth oth_oth () NE c) $$ H8
  ihave C6 := (Pipeline.launchCred_tallyAt (csem 6) rgt lft rgt_lft lft_rgt () N3 c) $$ H6
  ihave C5 := (Pipeline.launchCred_tallyAt (csem 5) rgt lft rgt_lft lft_rgt () N3 c) $$ H5
  ihave C4 := (Pipeline.launchCred_tallyAt (csem 4) rgt lft rgt_lft lft_rgt () N3 c) $$ H4
  ihave Cx := (Pipeline.launchCred_tallyAt (csem 0) oth oth oth_oth oth_oth () 1 c) $$ Hx
  ihave Cr := (Pipeline.launchCred_tallyAt (csem 0) rgt lft rgt_lft lft_rgt () 1 c) $$ Hr
  ihave Cl := (Pipeline.launchCred_tallyAt (csem 0) lft rgt lft_rgt rgt_lft () 1 c) $$ Hl
  unfold creds0
  isplitl [Cx Cr Cl]
  · iapply (cred_three (F := F) (cell c 0))
    isplitl [Cx]; · iexact Cx
    isplitl [Cr] <;> iassumption
  isplitl [C4]; · iexact C4
  isplitl [C5]; · iexact C5
  isplitl [C6]; · iexact C6
  iexact C8

/-! ## The launch theorem's side conditions -/

/-- What a device is handed at launch makes its start: the ghost state, the credit its peers owe it, the levels. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- Entering the region, the scoped buffers that are no staging buffer are the three scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- Leaving it, the three scratch buffers and the eight own cells at zero go back. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-- The pipeline's own waits, on its two staging cells, which are none of the nine: below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_other c _ (by fin_cases w <;> fin_cases s <;> decide) _ (by
      rcases t with ⟨_ | _, ht⟩
      · exact Or.inl rfl
      · exact Or.inr rfl)

/-! ## The run -/

set_option maxRecDepth 8000 in
/-- On the 32 devices, for any float values, from any memory with every counter at zero: every weakly fair execution of
    the program terminates, and in every final state each device's arrays hold the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.Kernel.Rs

end
-- ==== Proof.RkFinal.lean ====
/-
  The arrays after the run, read off the pipeline's proof data.

  The kernel has one grid point and each of its two windows' block is the whole array. The argument array is an
  input window: it is fetched and never written back, so it ends as launched. The result array is an output
  window written back at the one point: it ends as its contents at entry with the window's block overwritten by
  what the body left in the staging buffer; the block is the whole array (offsets zero, the array's own sizes,
  no cut), so it ends holding exactly the staged result, the sum the values module describes.
-/
import proofs.«901043_g7700000000001044_dist_rs_v7x_xyz2x4x4_y_m1024_n512_bf16_1_alg».proof.Proof.RkData
import proofs.«901043_g7700000000001044_dist_rs_v7x_xyz2x4x4_y_m1024_n512_bf16_1_alg».proof.Proof.Gen.Kernel.Frame

noncomputable section

namespace Cert.Kernel.Rs

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- An input window is never written back: the argument array ends as launched. -/
theorem finalA_zero (c : Dev nD) : finalA m ρ c 0 = m ((c.tc : Thread nD τ).loc main_arg0) :=
  (dats m ρ 0 c).arrAt_in 0 rfl _

/-- The one block of the result window is the whole result array (offsets zero, the array's own sizes): an
    unmasked write through it replaces the contents by the payload. -/
theorem write_blk1 (c : Dev nD) (f : Buf (Elt F) ((cfg0.win 1).arr.view.loc (c.tc : Thread nD τ)))
    (w : ((cfg0.win 1).xblock (cfg0.grid.coords t₀)).Idx → Elt F (cfg0.win 1).elt) :
    View.write (Elt F) ((cfg0.win 1).blk t₀).view f w Finset.univ = w :=
  Memref.write_access_unit_zero_univ (Elt F) main_v1 (funext fun a => Nat.zero_mul _) _ f w

/-- What the body leaves in the result window's staging buffer, at any point. -/
theorem after_one (c : Dev nD) (t : Fin cfg0.N) : (dats m ρ 0 c).after 1 t = outAt (xstg m) c := by
  unfold dats; rfl

/-- The result array after the one point's write-back: the old contents with the whole array overwritten by the
    staged result (the window is not cut, so all of the staged result is written back). -/
theorem finalA_one (c : Dev nD) : finalA m ρ c 1 = outAt (xstg m) c := by
  have h := (dats m ρ 0 c).arrAt_succ 1 t₀
  rw [flush0_1 t₀, if_pos rfl] at h
  exact Eq.trans (show finalA m ρ c 1 = (dats m ρ 0 c).arrAt 1 (t₀.val + 1) from rfl)
    (h.trans ((write_blk1 c _ _).trans (after_one m ρ c t₀)))

/-- From the run's post: on every device the result array holds the staged result and the argument array is
    as launched. -/
theorem post_of_QC (r : PUnit × MemSt nD τ sig (Elt F)) (h : QC m ρ r) (c : Dev nD) :
    r.2.mem ((c.tc : Thread nD τ).loc main_v1) = outAt (xstg m) c
    ∧ r.2.mem ((c.tc : Thread nD τ).loc main_arg0) = m ((c.tc : Thread nD τ).loc main_arg0) :=
  ⟨(h c 1).trans (finalA_one m ρ c), (h c 0).trans (finalA_zero m ρ c)⟩

end Cert.Kernel.Rs

end
-- ==== Proof.lean ====
/-
  The ring reduce-scatter over 32 devices against the one-device sum of the four slabs.

  Each device of the 2 × 4 × 4 mesh holds slab y of the whole input x : 4 × 1024 × 2048. Along its ring of four devices in
  y it passes running sums of column chunks to the next device — chunk y − 1 first, then what it received plus its own
  chunk y − 2, and so on —, so that after three steps device y holds the sum of chunk y over all four slabs, for the half
  of the rows its x coordinate names; the two devices of an x pair then exchange their halves. Narrowing to bf16 and
  widening back are the identity on extended reals, and addition there is commutative and associative, so device
  (x, y, z) ends with column block y of the sum of the four slabs: its block of the reference's result.

  The frames come from the protocol: every device signals its three peers and waits for all of them before it writes
  into a peer's buffer; each copy's source and destination slot is touched only before the copy starts or after the
  wait that says it has been read or has landed; every wait sits below everything the waiting device still owes, so no
  execution blocks. The run is stated once, with the result named, for the idealized program, and the same text with
  the program's name substituted serves the word-level program.
-/
import proofs.«901043_g7700000000001044_dist_rs_v7x_xyz2x4x4_y_m1024_n512_bf16_1_alg».proof.Defs
import proofs.«901043_g7700000000001044_dist_rs_v7x_xyz2x4x4_y_m1024_n512_bf16_1_alg».proof.Proof.Gen.Kernel
import proofs.«901043_g7700000000001044_dist_rs_v7x_xyz2x4x4_y_m1024_n512_bf16_1_alg».proof.Proof.Gen.KernelIdeal
import proofs.«901043_g7700000000001044_dist_rs_v7x_xyz2x4x4_y_m1024_n512_bf16_1_alg».proof.Proof.Gen.ReferenceIdeal
import proofs.«901043_g7700000000001044_dist_rs_v7x_xyz2x4x4_y_m1024_n512_bf16_1_alg».proof.Proof.Gen.Pre_finite_inputs_Kernel
import proofs.«901043_g7700000000001044_dist_rs_v7x_xyz2x4x4_y_m1024_n512_bf16_1_alg».proof.Proof.Gen.Pre_finite_inputs_ReferenceIdeal
import proofs.«901043_g7700000000001044_dist_rs_v7x_xyz2x4x4_y_m1024_n512_bf16_1_alg».proof.Proof.Gen.ReferenceIdeal.Run
import proofs.«901043_g7700000000001044_dist_rs_v7x_xyz2x4x4_y_m1024_n512_bf16_1_alg».proof.Proof.Gen.ReferenceIdeal.Read
import proofs.«901043_g7700000000001044_dist_rs_v7x_xyz2x4x4_y_m1024_n512_bf16_1_alg».proof.Proof.RsLaunch
import proofs.«901043_g7700000000001044_dist_rs_v7x_xyz2x4x4_y_m1024_n512_bf16_1_alg».proof.Proof.RsFinal
import proofs.«901043_g7700000000001044_dist_rs_v7x_xyz2x4x4_y_m1024_n512_bf16_1_alg».proof.Proof.RsValue
import proofs.«901043_g7700000000001044_dist_rs_v7x_xyz2x4x4_y_m1024_n512_bf16_1_alg».proof.Proof.RkLaunch
import proofs.«901043_g7700000000001044_dist_rs_v7x_xyz2x4x4_y_m1024_n512_bf16_1_alg».proof.Proof.RkFinal
import Idealize.ShloMosaic.Adequacy
import Idealize.ShloMosaic.Init

noncomputable section

namespace Cert.Proof

open Idealize.ShloMosaic Idealize.SL.Sem

/-- The word-level program runs to the end on every device and leaves its argument blocks as they were. -/
theorem frame_k : Cert.frame_Kernel := fun m ρ _ =>
  (θ_run Cert.Kernel.defs _ _).mono (fun r h c => (Cert.Kernel.Rs.post_of_QC m ρ r h c).2) (Cert.Kernel.Rs.run_main (F := Bits) m ρ)

/-- So does the idealized program. -/
theorem frame_ki : Cert.frame_KernelIdeal := fun m ρ _ =>
  (θ_run Cert.KernelIdeal.defs _ _).mono (fun r h c => (Cert.KernelIdeal.Rs.post_of_QC m ρ r h c).2) (Cert.KernelIdeal.Rs.run_main (F := Ideal) m ρ)

/-- The reference is one sum on one device. -/
theorem frame_ri : Cert.frame_ReferenceIdeal := fun m ρ _ =>
  (θ_run Cert.ReferenceIdeal.defs _ _).mono (fun _ h c => (h c).2) (Cert.ReferenceIdeal.Value.run (F := Ideal) m ρ)

/-- Every device's result block is its column block of the sum of the four slabs, which is what the reference computes. -/
theorem algebraic : Cert.algebraic_KernelIdeal_ReferenceIdeal := by
  intro m ρ m' ρ' _ hagree
  refine ⟨Cert.ReferenceIdeal.Read.val_main_v0 (F := Ideal)
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun r h c => ⟨((Cert.KernelIdeal.Rs.post_of_QC m ρ r h c).1).trans (Cert.KernelIdeal.Rs.out_is_block m _ hagree c),
        (Cert.KernelIdeal.Rs.post_of_QC m ρ r h c).2⟩)
      (Cert.KernelIdeal.Rs.run_main (F := Ideal) m ρ)
  · exact (θ_run Cert.ReferenceIdeal.defs _ _).mono
      (fun r h => ⟨(h 0).1.trans (Cert.ReferenceIdeal.Read.val_main_v0_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
